-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S1000000x2 : Shape := ⟨2, ![1000000, 2]⟩
abbrev S2x32x64 : Shape := ⟨3, ![2, 32, 64]⟩
abbrev S32x64 : Shape := ⟨2, ![32, 64]⟩
abbrev S64 : Shape := ⟨1, ![64]⟩
abbrev S2x64x64 : Shape := ⟨3, ![2, 64, 64]⟩
abbrev S64x64 : Shape := ⟨2, ![64, 64]⟩
abbrev S64x2 : Shape := ⟨2, ![64, 2]⟩
abbrev S2 : Shape := ⟨1, ![2]⟩
abbrev S_ : Shape := ⟨0, ![]⟩
abbrev S1x1000000 : Shape := ⟨2, ![1, 1000000]⟩
abbrev S1000000 : Shape := ⟨1, ![1000000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S2x32x64 : S_.BroadcastsInDim S2x32x64 (![] : Fin 0 → Fin S2x32x64.rank)
  reducesTo_S2x32x64_S_d0_1_2 : S2x32x64.ReducesTo [0, 1, 2] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_v43 : IVec S_ 1) (main_v47 : IVec S1000000 1) (main_v51 : IVec S1000000 1) : IVec S_ 1 :=
  let main_v52 : IVec S1000000 1 := andi main_v47 main_v51
  let main_c_18 : IVec S_ 1 := constantI S_ 1 1#1
  let main_v53 : IVec S_ 1 := (fun x v => Host.reduce IntOp.andi x v reducesTo_S1000000_S_d0 h_S_) main_v52 main_c_18
  let main_v54 : IVec S_ 1 := andi main_v43 main_v53
  main_v54

def fn_part2 {F : FTy → Type} [FloatOps F] (main_arg1 : IVec S2x1000000 32) (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : IVec S1x1000000 32 := (extractStridedSlice S1x1000000 ![0, 0] · slices_S2x1000000_S1x1000000_0_0) main_arg1
  let main_v45 : IVec S1000000 32 := shapeCast S1000000 main_v44 shapeCasts_S1x1000000_S1000000
  let main_c_16 : IVec S_ 32 := constantI S_ 32 0#32
  let main_v46 : IVec S1000000 32 := broadcastInDim S1000000 ![] bcast_S_S1000000 main_c_16
  let main_v47 : IVec S1000000 1 := cmpi .sge main_v45 main_v46
  let main_v48 : IVec S1x1000000 32 := (extractStridedSlice S1x1000000 ![0, 0] · slices_S2x1000000_S1x1000000_0_0) main_arg1
  let main_v49 : IVec S1000000 32 := shapeCast S1000000 main_v48 shapeCasts_S1x1000000_S1000000
  let main_c_17 : IVec S_ 32 := constantI S_ 32 100000#32
  let main_v50 : IVec S1000000 32 := broadcastInDim S1000000 ![] bcast_S_S1000000 main_c_17
  let main_v51 : IVec S1000000 1 := cmpi .slt main_v49 main_v50
  fn_part3 (F := F) main_v43 main_v47 main_v51

def fn_part1 {F : FTy → Type} [FloatOps F] (main_arg1 : IVec S2x1000000 32) (main_arg6 : FVec F S2x64x64 .f32) (main_arg7 : FVec F S64x64 .f32) (main_arg8 : FVec F S64 .f32) (main_arg9 : FVec F S64x2 .f32) (main_arg10 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S100000x32 .f32) (main_arg1 : IVec S2x1000000 32) (main_arg2 : IVec S1000000x2 32) (main_arg3 : FVec F S2x32x64 .f32) (main_arg4 : FVec F S32x64 .f32) (main_arg5 : FVec F S64 .f32) (main_arg6 : FVec F S2x64x64 .f32) (main_arg7 : FVec F S64x64 .f32) (main_arg8 : FVec F S64 .f32) (main_arg9 : FVec F S64x2 .f32) (main_arg10 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S2x32x64 .f32 := Host.absf main_arg3
  let main_cst_0 : FVec F S_ .f32 := constant S_ .f32 0x7F800000#32
  let main_v5 : FVec F S2x32x64 .f32 := broadcastInDim S2x32x64 ![] bcast_S_S2x32x64 main_cst_0
  let main_v6 : IVec S2x32x64 1 := cmpf .olt main_v4 main_v5
  let main_c_1 : IVec S_ 1 := constantI S_ 1 1#1
  let main_v7 : IVec S_ 1 := (fun x v => Host.reduce IntOp.andi x v reducesTo_S2x32x64_S_d0_1_2 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_v13 main_v16
-- ==== Kernel.lean ====
abbrev S100000x32 : Shape := ⟨2, ![100000, 32]⟩
abbrev S2x1000000 : Shape := ⟨2, ![2, 1000000]⟩
abbrev S1000000x2 : Shape := ⟨2, ![1000000, 2]⟩
abbrev S2x32x64 : Shape := ⟨3, ![2, 32, 64]⟩
abbrev S32x64 : Shape := ⟨2, ![32, 64]⟩
abbrev S64 : Shape := ⟨1, ![64]⟩
abbrev S2x64x64 : Shape := ⟨3, ![2, 64, 64]⟩
abbrev S64x64 : Shape := ⟨2, ![64, 64]⟩
abbrev S64x2 : Shape := ⟨2, ![64, 2]⟩
abbrev S2 : Shape := ⟨1, ![2]⟩
abbrev S1000000x1 : Shape := ⟨2, ![1000000, 1]⟩
abbrev S1000000 : Shape := ⟨1, ![1000000]⟩
abbrev S1x1000000 : Shape := ⟨2, ![1, 1000000]⟩
abbrev S_ : Shape := ⟨0, ![]⟩
abbrev S1007616 : Shape := ⟨1, ![1007616]⟩
abbrev S100000 : Shape := ⟨1, ![100000]⟩
abbrev S100352x32 : Shape := ⟨2, ![100352, 32]⟩
abbrev S1007616x32 : Shape := ⟨2, ![1007616, 32]⟩
abbrev S8192 : Shape := ⟨1, ![8192]⟩
abbrev S1024x32 : Shape := ⟨2, ![1024, 32]⟩
abbrev S8192x32 : Shape := ⟨2, ![8192, 32]⟩
abbrev S1x1024 : Shape := ⟨2, ![1, 1024]⟩
abbrev S8192x1 : Shape := ⟨2, ![8192, 1]⟩
abbrev S8192x1024 : Shape := ⟨2, ![8192, 1024]⟩
abbrev S100352x64 : Shape := ⟨2, ![100352, 64]⟩
abbrev S1024x64 : Shape := ⟨2, ![1024, 64]⟩
abbrev S1024x1 : Shape := ⟨2, ![1024, 1]⟩
abbrev S1x8192 : Shape := ⟨2, ![1, 8192]⟩
abbrev S1024x8192 : Shape := ⟨2, ![1024, 8192]⟩
abbrev S100000x64 : Shape := ⟨2, ![100000, 64]⟩
abbrev S1x64 : Shape := ⟨2, ![1, 64]⟩
abbrev S100000x1 : Shape := ⟨2, ![100000, 1]⟩
abbrev S1x32x64 : Shape := ⟨3, ![1, 32, 64]⟩
abbrev S1007616x64 : Shape := ⟨2, ![1007616, 64]⟩
abbrev S8192x64 : Shape := ⟨2, ![8192, 64]⟩
abbrev S100352x128 : Shape := ⟨2, ![100352, 128]⟩
abbrev S1024x128 : Shape := ⟨2, ![1024, 128]⟩
abbrev S100000x128 : Shape := ⟨2, ![100000, 128]⟩
abbrev S1x64x64 : Shape := ⟨3, ![1, 64, 64]⟩
abbrev S100000x2 : Shape := ⟨2, ![100000, 2]⟩
abbrev S1x2 : Shape := ⟨2, ![1, 2]⟩

abbrev nBuf : Space → Nat
  | .hbm => 116
  | .vmem => 28
  | .smem => 0
  | _ => 0

abbrev bufTy : (tb : Table) → Fin (tcTables nBuf tb) → BufTy
  | .hbm, ⟨0, _⟩ => ⟨S100000x32, .f32⟩
  | .hbm, ⟨1, _⟩ => ⟨S2x1000000, .i32⟩
  | .hbm, ⟨2, _⟩ => ⟨S1000000x2, .i32⟩
  | .hbm, ⟨3, _⟩ => ⟨S2x32x64, .f32⟩
  | .hbm, ⟨4, _⟩ => ⟨S32x64, .f32⟩
  | .hbm, ⟨5, _⟩ => ⟨S64, .f32⟩
  | .hbm, ⟨6, _⟩ => ⟨S2x64x64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1000000x1, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S_, .i32⟩
  | .hbm, ⟨19, _⟩ => ⟨S1007616, .i32⟩
  | .hbm, ⟨20, _⟩ => ⟨S_, .i32⟩
  | .hbm, ⟨21, _⟩ => ⟨S_, .i32⟩
  | .hbm, ⟨22, _⟩ => ⟨S1007616, .i32⟩
  | .hbm, ⟨23, _⟩ => ⟨S_, .i32⟩
  | .hbm, ⟨24, _⟩ => ⟨S_, .i32⟩
  | .hbm, ⟨25, _⟩ => ⟨S1007616, .i32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S1000000, .f32⟩
  | .hbm, ⟨30, _⟩ => ⟨S_, .f32⟩
  | .hbm, ⟨31, _⟩ => ⟨S100000, .f32⟩
  | .hbm, ⟨32, _⟩ => ⟨S1000000x1, .i32⟩
  | .hbm, ⟨33, _⟩ => ⟨S100000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S1000000, .f32⟩
  | .hbm, ⟨38, _⟩ => ⟨S_, .f32⟩
  | .hbm, ⟨39, _⟩ => ⟨S100000, .f32⟩
  | .hbm, ⟨40, _⟩ => ⟨S1000000x1, .i32⟩
  | .hbm, ⟨41, _⟩ => ⟨S100000, .f32⟩
  | .hbm, ⟨42, _⟩ => ⟨S_, .i32⟩
  | .hbm, ⟨43, _⟩ => ⟨S_, .f32⟩
  | .hbm, ⟨44, _⟩ => ⟨S100352x32, .f32⟩
  | .hbm, ⟨45, _⟩ => ⟨S1007616x32, .f32⟩
  | .hbm, ⟨46, _⟩ => ⟨S100352x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S100000x32, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x32, .f32⟩
  | .hbm, ⟨58, _⟩ => ⟨S100000x32, .f32⟩
  | .hbm, ⟨59, _⟩ => ⟨S1x32x64, .f32⟩
  | .hbm, ⟨60, _⟩ => ⟨S32x64, .f32⟩
  | .hbm, ⟨61, _⟩ => ⟨S100000x64, .f32⟩
  | .hbm, ⟨62, _⟩ => ⟨S100000x64, .f32⟩
  | .hbm, ⟨63, _⟩ => ⟨S100000x32, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x32, .f32⟩
  | .hbm, ⟨69, _⟩ => ⟨S100000x32, .f32⟩
  | .hbm, ⟨70, _⟩ => ⟨S1x32x64, .f32⟩
  | .hbm, ⟨71, _⟩ => ⟨S32x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S_, .f32⟩
  | .hbm, ⟨79, _⟩ => ⟨S100352x64, .f32⟩
  | .hbm, ⟨80, _⟩ => ⟨S1007616x64, .f32⟩
  | .hbm, ⟨81, _⟩ => ⟨S100352x128, .f32⟩
  | .hbm, ⟨82, _⟩ => ⟨S100000x128, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S1x64x64, .f32⟩
  | .hbm, ⟨95, _⟩ => ⟨S64x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S1x64x64, .f32⟩
  | .hbm, ⟨106, _⟩ => ⟨S64x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000x64, .f32⟩
  | .hbm, ⟨111, _⟩ => ⟨S100000x64, .f32⟩
  | .hbm, ⟨112, _⟩ => ⟨S100000x2, .f32⟩
  | .hbm, ⟨113, _⟩ => ⟨S1x2, .f32⟩
  | .hbm, ⟨114, _⟩ => ⟨S100000x2, .f32⟩
  | .hbm, ⟨115, _⟩ => ⟨S100000x2, .f32⟩
  | .local _ .vmem, ⟨0, _⟩ => ⟨S8192, .i32⟩
  | .local _ .vmem, ⟨1, _⟩ => ⟨S8192, .i32⟩
  | .local _ .vmem, ⟨2, _⟩ => ⟨S1024x32, .f32⟩
  | .local _ .vmem, ⟨3, _⟩ => ⟨S1024x32, .f32⟩
  | .local _ .vmem, ⟨4, _⟩ => ⟨S8192x32, .f32⟩
  | .local _ .vmem, ⟨5, _⟩ => ⟨S8192x32, .f32⟩
  | .local _ .vmem, ⟨6, _⟩ => ⟨S8192x32, .f32⟩
  | .local _ .vmem, ⟨7, _⟩ => ⟨S8192x32, .f32⟩
  | .local _ .vmem, ⟨8, _⟩ => ⟨S8192, .i32⟩
  | .local _ .vmem, ⟨9, _⟩ => ⟨S8192, .i32⟩
  | .local _ .vmem, ⟨10, _⟩ => ⟨S8192, .i32⟩
  | .local _ .vmem, ⟨11, _⟩ => ⟨S8192, .i32⟩
  | .local _ .vmem, ⟨12, _⟩ => ⟨S1024x64, .f32⟩
  | .local _ .vmem, ⟨13, _⟩ => ⟨S1024x64, .f32⟩
  | .local _ .vmem, ⟨14, _⟩ => ⟨S8192, .i32⟩
  | .local _ .vmem, ⟨15, _⟩ => ⟨S8192, .i32⟩
  | .local _ .vmem, ⟨16, _⟩ => ⟨S1024x64, .f32⟩
  | .local _ .vmem, ⟨17, _⟩ => ⟨S1024x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192, .i32⟩
  | .local _ .vmem, ⟨23, _⟩ => ⟨S8192, .i32⟩
  | .local _ .vmem, ⟨24, _⟩ => ⟨S8192, .i32⟩
  | .local _ .vmem, ⟨25, _⟩ => ⟨S8192, .i32⟩
  | .local _ .vmem, ⟨26, _⟩ => ⟨S1024x128, .f32⟩
  | .local _ .vmem, ⟨27, _⟩ => ⟨S1024x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_call3_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call4_cst : Ref sig .tc := ⟨.hbm, 74, rfl⟩
abbrev main_call4_v0 : Ref sig .tc := ⟨.hbm, 75, rfl⟩
abbrev main_v49 : Ref sig .tc := ⟨.hbm, 76, rfl⟩
abbrev main_c_8 : Ref sig .tc := ⟨.hbm, 77, rfl⟩
abbrev main_call5_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call6_cst : Ref sig .tc := ⟨.hbm, 109, rfl⟩
abbrev main_call6_v0 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨2, ![123, 98], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![98, 123], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![123, 98], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![98, 123], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S8192 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8192 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S1000000x2_S1000000x1_0_1 : S1000000x2.Slices ![0, 1] S1000000x1
  shapeCasts_S1000000x1_S1000000 : S1000000x1.ShapeCasts S1000000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  pads_S1000000_S1007616_076160 : S1000000.Pads (![0] : Fin 1 → Nat) ![7616] ![0] S1007616
  h_S_ : 0 < S_.numel
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  pads_S100000x32_S100352x32_03520_000 : S100000x32.Pads (![0, 0] : Fin 2 → Nat) ![352, 0] ![0, 0] S100352x32
  inb_S8192x32_S8192x32_0_0 : ∀ a, (![0, 0] : Fin 2 → Nat) a + S8192x32.size a ≤ S8192x32.size a
  h_S8192x32 : 0 < S8192x32.numel
  iota_S1x1024_d1_w32 : S1x1024.Iotas .tc 32 [1]
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x1024 : S8192x1.Broadcasts S8192x1024
  broadcasts_S1x1024_S8192x1024 : S1x1024.Broadcasts S8192x1024
  natLt_1_32 : 1 < 32
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S8192x32_S8192x32 : S8192x32.ShapeCasts S8192x32
  inb_S1024x64_S1024x64_0_0 : ∀ a, (![0, 0] : Fin 2 → Nat) a + S1024x64.size a ≤ S1024x64.size a
  h_S1024x64 : 0 < S1024x64.numel
  iota_S1024x1_d0_w32 : S1024x1.Iotas .tc 32 [0]
  shapeCasts_S8192_S1x8192 : S8192.ShapeCasts S1x8192
  broadcasts_S1024x1_S1024x8192 : S1024x1.Broadcasts S1024x8192
  broadcasts_S1x8192_S1024x8192 : S1x8192.Broadcasts S1024x8192
  broadcasts_S8192x1_S8192x32 : S8192x1.Broadcasts S8192x32
  inb_S1024x64_S1024x32_0_0 : ∀ a, (![0, 0] : Fin 2 → Nat) a + S1024x32.size a ≤ S1024x64.size a
  inb_S1024x64_S1024x32_0_32 : ∀ a, (![0, 32] : Fin 2 → Nat) a + S1024x32.size a ≤ S1024x64.size a
  slices_S100352x64_S100000x64_0_0 : S100352x64.Slices ![0, 0] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x64_S100000x32_0_0 : S100000x64.Slices ![0, 0] S100000x32
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S2x32x64_S1x32x64_0_0_0 : S2x32x64.Slices ![0, 0, 0] S1x32x64
  shapeCasts_S1x32x64_S32x64 : S1x32x64.ShapeCasts S32x64
  slices_S100000x64_S100000x32_0_32 : S100000x64.Slices ![0, 32] S100000x32
  slices_S2x32x64_S1x32x64_1_0_0 : S2x32x64.Slices ![1, 0, 0] S1x32x64
  bcast_S_S100000x64 : S_.BroadcastsInDim S100000x64 (![] : Fin 0 → Fin S100000x64.rank)
  pads_S100000x64_S100352x64_03520_000 : S100000x64.Pads (![0, 0] : Fin 2 → Nat) ![352, 0] ![0, 0] S100352x64
  inb_S8192x64_S8192x64_0_0 : ∀ a, (![0, 0] : Fin 2 → Nat) a + S8192x64.size a ≤ S8192x64.size a
  h_S8192x64 : 0 < S8192x64.numel
  shapeCasts_S1024x64_S1024x64 : S1024x64.ShapeCasts S1024x64
  shapeCasts_S8192x64_S8192x64 : S8192x64.ShapeCasts S8192x64
  inb_S1024x128_S1024x128_0_0 : ∀ a, (![0, 0] : Fin 2 → Nat) a + S1024x128.size a ≤ S1024x128.size a
  h_S1024x128 : 0 < S1024x128.numel
  broadcasts_S8192x1_S8192x64 : S8192x1.Broadcasts S8192x64
  inb_S1024x128_S1024x64_0_0 : ∀ a, (![0, 0] : Fin 2 → Nat) a + S1024x64.size a ≤ S1024x128.size a
  inb_S1024x128_S1024x64_0_64 : ∀ a, (![0, 64] : Fin 2 → Nat) a + S1024x64.size a ≤ S1024x128.size a
  slices_S100352x128_S100000x128_0_0 : S100352x128.Slices ![0, 0] S100000x128
  slices_S100000x128_S100000x64_0_0 : S100000x128.Slices ![0, 0] S100000x64
  bcast_S100000x1_S100000x64_0_1 : S100000x1.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S100000x128_S100000x64_0_64 : S100000x128.Slices ![0, 64] S100000x64
  slices_S2x64x64_S1x64x64_1_0_0 : S2x64x64.Slices ![1, 0, 0] S1x64x64
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1000000x1_S1000000_n_0_0_1_wf : ScatterDims.WF S100000 S1000000x1 S1000000 [] [0] [0] 1
  dot_S8192x1024_S1024x32_S8192x32_1_0_0_1_n_n_wf : DotDims.WF S8192x1024 S1024x32 S8192x32 [1] [0] [0] [1] [] []
  dot_S1024x8192_S8192x32_S1024x32_1_0_0_1_n_n_wf : DotDims.WF S1024x8192 S8192x32 S1024x32 [1] [0] [0] [1] [] []
  dot_S100000x32_S32x64_S100000x64_1_0_0_1_n_n_wf : DotDims.WF S100000x32 S32x64 S100000x64 [1] [0] [0] [1] [] []
  dot_S8192x1024_S1024x64_S8192x64_1_0_0_1_n_n_wf : DotDims.WF S8192x1024 S1024x64 S8192x64 [1] [0] [0] [1] [] []
  dot_S1024x8192_S8192x64_S1024x64_1_0_0_1_n_n_wf : DotDims.WF S1024x8192 S8192x64 S1024x64 [1] [0] [0] [1] [] []
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1007616.size a
  hwx0_0 : ∀ i : grid0.Coords, EltTy.bits .i32 = 32 ∨ (Rect.block (s := S1007616) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S100352x32.size a
  hwx0_1 : ∀ i : grid0.Coords, EltTy.bits .f32 = 32 ∨ (Rect.block (s := S100352x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S1007616x32.size a
  hwx0_2 : ∀ i : grid0.Coords, EltTy.bits .f32 = 32 ∨ (Rect.block (s := S1007616x32) S8192x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S1007616x32.size a
  hwx1_0 : ∀ i : grid1.Coords, EltTy.bits .f32 = 32 ∨ (Rect.block (s := S1007616x32) S8192x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S1007616.size a
  hwx1_1 : ∀ i : grid1.Coords, EltTy.bits .i32 = 32 ∨ (Rect.block (s := S1007616) S8192.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S1007616.size a
  hwx1_2 : ∀ i : grid1.Coords, EltTy.bits .i32 = 32 ∨ (Rect.block (s := S1007616) S8192.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S100352x64.size a
  hwx1_3 : ∀ i : grid1.Coords, EltTy.bits .f32 = 32 ∨ (Rect.block (s := S100352x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192.size a ≤ S1007616.size a
  hwx2_0 : ∀ i : grid2.Coords, EltTy.bits .i32 = 32 ∨ (Rect.block (s := S1007616) S8192.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S100352x64.size a
  hwx2_1 : ∀ i : grid2.Coords, EltTy.bits .f32 = 32 ∨ (Rect.block (s := S100352x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S1007616x64.size a
  hwx2_2 : ∀ i : grid2.Coords, EltTy.bits .f32 = 32 ∨ (Rect.block (s := S1007616x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S1007616x64.size a
  hwx3_0 : ∀ i : grid3.Coords, EltTy.bits .f32 = 32 ∨ (Rect.block (s := S1007616x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192.size a ≤ S1007616.size a
  hwx3_1 : ∀ i : grid3.Coords, EltTy.bits .i32 = 32 ∨ (Rect.block (s := S1007616) S8192.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192.size a ≤ S1007616.size a
  hwx3_2 : ∀ i : grid3.Coords, EltTy.bits .i32 = 32 ∨ (Rect.block (s := S1007616) S8192.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S100352x128.size a
  hwx3_3 : ∀ i : grid3.Coords, EltTy.bits .f32 = 32 ∨ (Rect.block (s := S100352x128) S1024x128.size (cc3_transform_3 i) (hinb3_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S8192x1024_S1024x32_S8192x32_1_0_0_1_n_n : DotDims S8192x1024 S1024x32 S8192x32 where
  lhsContracting := [1]
  rhsContracting := [0]
  lhsNonContracting := [0]
  rhsNonContracting := [1]
  lhsBatch := []
  rhsBatch := []
  wf := dot_S8192x1024_S1024x32_S8192x32_1_0_0_1_n_n_wf
def dot_S1024x8192_S8192x32_S1024x32_1_0_0_1_n_n : DotDims S1024x8192 S8192x32 S1024x32 where
  lhsContracting := [1]
  rhsContracting := [0]
  lhsNonContracting := [0]
  rhsNonContracting := [1]
  lhsBatch := []
  rhsBatch := []
  wf := dot_S1024x8192_S8192x32_S1024x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

abbrev win0_0 : Pipeline.Window sig grid0 :=
  Pipeline.Window.ofSpec (Memref.whole main_v6) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8192x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S8192.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S1000000x2 : Shape := ⟨2, ![1000000, 2]⟩
abbrev S2x32x64 : Shape := ⟨3, ![2, 32, 64]⟩
abbrev S32x64 : Shape := ⟨2, ![32, 64]⟩
abbrev S64 : Shape := ⟨1, ![64]⟩
abbrev S2x64x64 : Shape := ⟨3, ![2, 64, 64]⟩
abbrev S64x64 : Shape := ⟨2, ![64, 64]⟩
abbrev S64x2 : Shape := ⟨2, ![64, 2]⟩
abbrev S2 : Shape := ⟨1, ![2]⟩
abbrev S1000000x1 : Shape := ⟨2, ![1000000, 1]⟩
abbrev S1000000 : Shape := ⟨1, ![1000000]⟩
abbrev S1x1000000 : Shape := ⟨2, ![1, 1000000]⟩
abbrev S_ : Shape := ⟨0, ![]⟩
abbrev S1000000x32 : Shape := ⟨2, ![1000000, 32]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩
abbrev S1x32x64 : Shape := ⟨3, ![1, 32, 64]⟩
abbrev S1000000x64 : Shape := ⟨2, ![1000000, 64]⟩
abbrev S1x64x64 : Shape := ⟨3, ![1, 64, 64]⟩
abbrev S100000x2 : Shape := ⟨2, ![100000, 2]⟩
abbrev S1x2 : Shape := ⟨2, ![1, 2]⟩

abbrev nBuf : Space → Nat
  | .hbm => 153
  | .vmem => 0
  | .smem => 0
  | _ => 0

abbrev hbmTy0_0 (i : Nat) : BufTy := match i % 128 with
  | 0 => ⟨S100000x32, .f32⟩
  | 1 => ⟨S2x1000000, .i32⟩
  | 2 => ⟨S1000000x2, .i32⟩
  | 3 => ⟨S2x32x64, .f32⟩
  | 4 => ⟨S32x64, .f32⟩
  | 5 => ⟨S64, .f32⟩
  | 6 => ⟨S2x64x64, .f32⟩
  | 7 => ⟨S64x64, .f32⟩
  | 8 => ⟨S64, .f32⟩
  | 9 => ⟨S64x2, .f32⟩
  | 10 => ⟨S2, .f32⟩
  | 11 => ⟨S1000000x1, .i32⟩
  | 12 => ⟨S1000000, .i32⟩
  | 13 => ⟨S1x1000000, .i32⟩
  | 14 => ⟨S1000000, .i32⟩
  | 15 => ⟨S1x1000000, .i32⟩
  | 16 => ⟨S1000000, .i32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x32, .f32⟩
  | 26 => ⟨S100000x64, .f32⟩
  | 27 => ⟨S1x64, .f32⟩
  | 28 => ⟨S100000x64, .f32⟩
  | 29 => ⟨S100000x64, .f32⟩
  | 30 => ⟨S_, .i32⟩
  | 31 => ⟨S1000000, .i32⟩
  | 32 => ⟨S1000000, .i1⟩
  | 33 => ⟨S1000000, .f32⟩
  | 34 => ⟨S1000000x1, .f32⟩
  | 35 => ⟨S1000000x32, .f32⟩
  | 36 => ⟨S1000000x32, .f32⟩
  | 37 => ⟨S_, .f32⟩
  | 38 => ⟨S100000x32, .f32⟩
  | 39 => ⟨S1000000x1, .i32⟩
  | 40 => ⟨S100000x32, .f32⟩
  | 41 => ⟨S_, .f32⟩
  | 42 => ⟨S100000, .f32⟩
  | 43 => ⟨S1000000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x32, .f32⟩
  | 50 => ⟨S100000x32, .f32⟩
  | 51 => ⟨S1x32x64, .f32⟩
  | 52 => ⟨S32x64, .f32⟩
  | 53 => ⟨S100000x64, .f32⟩
  | 54 => ⟨S100000x64, .f32⟩
  | 55 => ⟨S_, .i32⟩
  | 56 => ⟨S1000000, .i32⟩
  | 57 => ⟨S1000000, .i1⟩
  | 58 => ⟨S1000000, .f32⟩
  | 59 => ⟨S1000000x1, .f32⟩
  | 60 => ⟨S1000000x32, .f32⟩
  | 61 => ⟨S1000000x32, .f32⟩
  | 62 => ⟨S_, .f32⟩
  | 63 => ⟨S100000x32, .f32⟩
  | 64 => ⟨S1000000x1, .i32⟩
  | 65 => ⟨S100000x32, .f32⟩
  | 66 => ⟨S_, .f32⟩
  | 67 => ⟨S100000, .f32⟩
  | 68 => ⟨S1000000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x32, .f32⟩
  | 75 => ⟨S100000x32, .f32⟩
  | 76 => ⟨S1x32x64, .f32⟩
  | 77 => ⟨S32x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S100000x64, .f32⟩
  | 93 => ⟨S1x64, .f32⟩
  | 94 => ⟨S100000x64, .f32⟩
  | 95 => ⟨S100000x64, .f32⟩
  | 96 => ⟨S_, .i32⟩
  | 97 => ⟨S1000000, .i32⟩
  | 98 => ⟨S1000000, .i1⟩
  | 99 => ⟨S1000000, .f32⟩
  | 100 => ⟨S1000000x1, .f32⟩
  | 101 => ⟨S1000000x64, .f32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S_, .f32⟩
  | 108 => ⟨S100000, .f32⟩
  | 109 => ⟨S1000000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S100000x64, .f32⟩
  | 121 => ⟨S_, .i32⟩
  | 122 => ⟨S1000000, .i32⟩
  | 123 => ⟨S1000000, .i1⟩
  | 124 => ⟨S1000000, .f32⟩
  | 125 => ⟨S1000000x1, .f32⟩
  | 126 => ⟨S1000000x64, .f32⟩
  | 127 => ⟨S1000000x64, .f32⟩
  | _ => ⟨S100000x32, .f32⟩

abbrev hbmTy0_1 (i : Nat) : BufTy := match i % 128 with
  | 0 => ⟨S_, .f32⟩
  | 1 => ⟨S100000x64, .f32⟩
  | 2 => ⟨S1000000x1, .i32⟩
  | 3 => ⟨S100000x64, .f32⟩
  | 4 => ⟨S_, .f32⟩
  | 5 => ⟨S100000, .f32⟩
  | 6 => ⟨S1000000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x64, .f32⟩
  | 13 => ⟨S100000x64, .f32⟩
  | 14 => ⟨S1x64x64, .f32⟩
  | 15 => ⟨S64x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x2, .f32⟩
  | 22 => ⟨S1x2, .f32⟩
  | 23 => ⟨S100000x2, .f32⟩
  | 24 => ⟨S100000x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_cst : Ref sig .tc := ⟨.hbm, 80, rfl⟩
abbrev main_call0_v0 : Ref sig .tc := ⟨.hbm, 81, rfl⟩
abbrev main_v59 : Ref sig .tc := ⟨.hbm, 82, rfl⟩
abbrev main_c_8 : Ref sig .tc := ⟨.hbm, 83, rfl⟩
abbrev main_v60 : Ref sig .tc := ⟨.hbm, 84, rfl⟩
abbrev main_v61 : Ref sig .tc := ⟨.hbm, 85, rfl⟩
abbrev main_c_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_13 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_14 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_17 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_call1_cst : Ref sig .tc := ⟨.hbm, 146, rfl⟩
abbrev main_call1_v0 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]

class Facts₀ : Prop where
  slices_S1000000x2_S1000000x1_0_1 : S1000000x2.Slices ![0, 1] S1000000x1
  shapeCasts_S1000000x1_S1000000 : S1000000x1.ShapeCasts S1000000
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S2x32x64_S1x32x64_0_0_0 : S2x32x64.Slices ![0, 0, 0] S1x32x64
  shapeCasts_S1x32x64_S32x64 : S1x32x64.ShapeCasts S32x64
  slices_S2x32x64_S1x32x64_1_0_0 : S2x32x64.Slices ![1, 0, 0] S1x32x64
  bcast_S_S100000x64 : S_.BroadcastsInDim S100000x64 (![] : Fin 0 → Fin S100000x64.rank)
  bcast_S1000000x1_S1000000x64_0_1 : S1000000x1.BroadcastsInDim S1000000x64 (![0, 1] : Fin 2 → Fin S1000000x64.rank)
  bcast_S100000x1_S100000x64_0_1 : S100000x1.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x32_S1000000x1_S1000000x32_1_0_n_n_0_1_132_wf : GatherDims.WF S100000x32 S1000000x1 S1000000x32 [1] [0] [] [0] [] 1 ![1, 32]
  dot_S100000x32_S32x64_S100000x64_1_0_0_1_n_n_wf : DotDims.WF S100000x32 S32x64 S100000x64 [1] [0] [0] [1] [] []
  scatter_S100000x32_S1000000x1_S1000000x32_1_0_0_1_wf : ScatterDims.WF S100000x32 S1000000x1 S1000000x32 [1] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  dot_S100000x64_S64x64_S100000x64_1_0_0_1_n_n_wf : DotDims.WF S100000x64 S64x64 S100000x64 [1] [0] [0] [1] [] []
  scatter_S100000x64_S1000000x1_S1000000x64_1_0_0_1_wf : ScatterDims.WF S100000x64 S1000000x1 S1000000x64 [1] [0] [0] 1
  dot_S100000x64_S64x2_S100000x2_1_0_0_1_n_n_wf : DotDims.WF S100000x64 S64x2 S100000x2 [1] [0] [0] [1] [] []

variable [Facts₀]

def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The two sums the kernels of this program compute, as functions on extended-real arrays.

  A row gather written as a product with a one-hot matrix: row `e` of `pick s y` is `∑ₙ [s e = word n] · y n`, the sum over
  ALL rows `n` of `y`; since at most one `n` has `s e` as its word, this is row `s e` of `y` when `s e` names a row, and the
  zero row otherwise (`pick_of_eq`).

  A masked scatter-add written the same way: entry `(n, j)` of `spread C xs d t`, with `j = r·C + f`, is
  `∑ₑ [word n = d e] · (xs e f · [t e = word r])`: the sum of the rows `e` of `xs` whose destination word `d e` is `n`'s and
  whose type word `t e` is `r`'s.

  The indicator `ind a b` is `1` when the two 32-bit words are equal and `0` otherwise. On the extended reals `0 · x = 0` and
  `1 · x = x` for EVERY `x`, infinite ones included, and `+` is commutative and associative: none of the identities
  here needs finiteness.
-/
import Idealize.ShloMosaic.Lib.ValueIdx
import Idealize.ShloMosaic.PureOps.Ideal

noncomputable section

namespace Cert.Spec

open Idealize.ShloMosaic Idealize.ShloMosaic.ValueIdx

/-- `1` where the two words are equal, `0` elsewhere. -/
def ind (a b : BitVec 32) : EReal := if a = b then 1 else 0

theorem ind_self (a : BitVec 32) : ind a a = 1 := if_pos rfl
theorem ind_of_ne {a b : BitVec 32} (h : a ≠ b) : ind a b = 0 := if_neg h
theorem ind_comm (a b : BitVec 32) : ind a b = ind b a := by
  unfold ind; by_cases h : a = b
  · rw [if_pos h, if_pos h.symm]
  · rw [if_neg h, if_neg (fun e => h e.symm)]

/-- Rows of `y` picked by the words `s` through one-hot products: `(e, f) ↦ ∑ₙ [s e = word n] · y (n, f)`. -/
def pick {E K C : ℕ} (s : (⟨1, ![E]⟩ : Shape).Idx → BitVec 32) (y : (⟨2, ![K, C]⟩ : Shape).Idx → EReal) :
    (⟨2, ![E, C]⟩ : Shape).Idx → EReal :=
  fun i => ∑ n : Fin K, ind (s (ix1 (i 0))) (BitVec.ofNat 32 n.val) * y (ix2 n (i 1))

/-- Rows of `xs` added up by destination word and type word through one-hot products:
    `(n, j) ↦ ∑ₑ [word n = d e] · (xs (e, j mod C) · [t e = word (j / C)])`. -/
def spread {E K C2 : ℕ} (C : ℕ) (hC : 0 < C) (xs : (⟨2, ![E, C]⟩ : Shape).Idx → EReal)
    (d t : (⟨1, ![E]⟩ : Shape).Idx → BitVec 32) : (⟨2, ![K, C2]⟩ : Shape).Idx → EReal :=
  fun i => ∑ e : Fin E, ind (BitVec.ofNat 32 (i 0).val) (d (ix1 e))
    * (xs (ix2 e ⟨(i 1).val % C, Nat.mod_lt _ hC⟩) * ind (t (ix1 e)) (BitVec.ofNat 32 ((i 1).val / C)))

/-- A one-hot sum picks its one term: where `s e` is the word of row `n < K` (and `K` fits in 32 bits), row `e` of
    `pick s y` is row `n` of `y`. -/
theorem pick_of_eq {E K C : ℕ} (hK : K ≤ 2 ^ 32) (s : (⟨1, ![E]⟩ : Shape).Idx → BitVec 32)
    (y : (⟨2, ![K, C]⟩ : Shape).Idx → EReal) (e : Fin E) (f : Fin C) (n : Fin K)
    (h : s (ix1 e) = BitVec.ofNat 32 n.val) : pick s y (ix2 e f) = y (ix2 n f) := by
  unfold pick
  rw [Finset.sum_eq_single n]
  · show ind (s (ix1 e)) _ * _ = _
    rw [h, ind_self, one_mul]
    rfl
  · intro b _ hb
    have : s (ix1 e) ≠ BitVec.ofNat 32 b.val := by
      rw [h]; intro hh
      apply hb
      have := congrArg BitVec.toNat hh
      simp only [BitVec.toNat_ofNat] at this
      rw [Nat.mod_eq_of_lt (lt_of_lt_of_le n.isLt hK), Nat.mod_eq_of_lt (lt_of_lt_of_le b.isLt hK)] at this
      exact Fin.ext this.symm
    show ind (s (ix1 e)) _ * _ = 0
    rw [ind_of_ne this, zero_mul]
  · intro hn; exact absurd (Finset.mem_univ n) hn

end Cert.Spec

end
-- ==== Proof.KRead.lean ====
/-
  The host-side layout stages of the kernel program, each as a pure function of its operand written with the program's
  own operations, and each read at an index.

  Three kinds of stage occur. A SLICE keeps a rectangle of its operand: entry `j` of the result is entry `offset + j`
  of the operand. A RESHAPE between `[1, n]` or `[n, 1]` and `[n]` keeps the row-major order, so entry `e` of the
  vector is entry `(0, e)` or `(e, 0)` of the matrix. A PAD at the high end of the leading axis keeps the operand's
  entries where the leading coordinate is below the operand's extent and holds the padding value everywhere else.
-/
import proofs.«420490_j128849019287_1_alg».proof.KernelIdeal
import proofs.«420490_j128849019287_1_alg».proof.Proof.Spec
import Idealize.ShloMosaic.Lib.ValueIdx
import Idealize.ShloMosaic.Lib.Pipeline.Value
import Idealize.ShloMosaic.Lib.ValueLayout

noncomputable section

namespace Cert.KernelIdeal.KRead

open Idealize.ShloMosaic Idealize.ShloMosaic.ValueIdx
open Cert.KernelIdeal Cert.KernelIdeal.Facts₀ Cert.KernelIdeal.Facts

variable [Facts]

/-! ## The stages -/

/-- Row 0 of the edge table as a vector: the source words. -/
def srcw (a1 : IVec S2x1000000 32) : IVec S1000000 32 :=
  shapeCast S1000000 (extractStridedSlice S1x1000000 ![0, 0] a1 slices_S2x1000000_S1x1000000_0_0) shapeCasts_S1x1000000_S1000000

/-- Row 1 of the edge table as a vector: the destination words. -/
def dstw (a1 : IVec S2x1000000 32) : IVec S1000000 32 :=
  shapeCast S1000000 (extractStridedSlice S1x1000000 ![1, 0] a1 slices_S2x1000000_S1x1000000_1_0) shapeCasts_S1x1000000_S1000000

/-- Column 1 of the attribute table as a vector: the type words. -/
def typw (a2 : IVec S1000000x2 32) : IVec S1000000 32 :=
  shapeCast S1000000 (extractStridedSlice S1000000x1 ![0, 1] a2 slices_S1000000x2_S1000000x1_0_1) shapeCasts_S1000000x1_S1000000

/-- A word vector padded at its end with the word `v`. -/
def padw (x : IVec S1000000 32) (v : BitVec 32) : IVec S1007616 32 :=
  pad S1007616 ![0] ![7616] ![0] x (id (constantI S_ 32 v)) pads_S1000000_S1007616_076160 h_S_

variable {F : FTy → Type} [FloatOps F]

/-- A 32-column table padded below with rows of the converted word 0. -/
def xpad32 (x : FVec F S100000x32 .f32) : FVec F S100352x32 .f32 :=
  pad S100352x32 ![0, 0] ![352, 0] ![0, 0] x (sitofp .f32 (constantI S_ 32 0#32)) pads_S100000x32_S100352x32_03520_000 h_S_

/-- A 64-column table padded below with rows of the converted word 0. -/
def xpad64 (h : FVec F S100000x64 .f32) : FVec F S100352x64 .f32 :=
  pad S100352x64 ![0, 0] ![352, 0] ![0, 0] h (sitofp .f32 (constantI S_ 32 0#32)) pads_S100000x64_S100352x64_03520_000 h_S_

/-- The first 100000 rows of a padded 64-column table. -/
def rows64 (s : FVec F S100352x64 .f32) : FVec F S100000x64 .f32 :=
  extractStridedSlice S100000x64 ![0, 0] s slices_S100352x64_S100000x64_0_0

/-- Columns 0 … 31 of a 64-column table. -/
def colsA32 (s : FVec F S100000x64 .f32) : FVec F S100000x32 .f32 :=
  extractStridedSlice S100000x32 ![0, 0] s slices_S100000x64_S100000x32_0_0

/-- Columns 32 … 63 of a 64-column table. -/
def colsB32 (s : FVec F S100000x64 .f32) : FVec F S100000x32 .f32 :=
  extractStridedSlice S100000x32 ![0, 32] s slices_S100000x64_S100000x32_0_32

/-- The first 100000 rows of a padded 128-column table. -/
def rows128 (s : FVec F S100352x128 .f32) : FVec F S100000x128 .f32 :=
  extractStridedSlice S100000x128 ![0, 0] s slices_S100352x128_S100000x128_0_0

/-- Columns 0 … 63 of a 128-column table. -/
def colsA64 (s : FVec F S100000x128 .f32) : FVec F S100000x64 .f32 :=
  extractStridedSlice S100000x64 ![0, 0] s slices_S100000x128_S100000x64_0_0

/-- Columns 64 … 127 of a 128-column table. -/
def colsB64 (s : FVec F S100000x128 .f32) : FVec F S100000x64 .f32 :=
  extractStridedSlice S100000x64 ![0, 64] s slices_S100000x128_S100000x64_0_64

/-! ## The word vectors read at an index -/

/-- Entry `e` of the source words is entry `(0, e)` of the edge table. -/
theorem srcw_apply (a1 : IVec S2x1000000 32) (e : Fin 1000000) : srcw a1 (ix1 e) = a1 (ix2 (0 : Fin 2) e) := by
  unfold srcw
  refine (shapeCast_1a_a_apply _ _ e).trans ?_
  exact slice2_axis0_apply 0 a1 _ (0 : Fin 1) e (0 : Fin 2) rfl

/-- Entry `e` of the destination words is entry `(1, e)` of the edge table. -/
theorem dstw_apply (a1 : IVec S2x1000000 32) (e : Fin 1000000) : dstw a1 (ix1 e) = a1 (ix2 (1 : Fin 2) e) := by
  unfold dstw
  refine (shapeCast_1a_a_apply _ _ e).trans ?_
  exact slice2_axis0_apply 1 a1 _ (0 : Fin 1) e (1 : Fin 2) rfl

/-- Entry `e` of the type words is entry `(e, 1)` of the attribute table. -/
theorem typw_apply (a2 : IVec S1000000x2 32) (e : Fin 1000000) : typw a2 (ix1 e) = a2 (ix2 e (1 : Fin 2)) := by
  unfold typw
  refine (shapeCast_apply _ _ (ix1 e) (ix2 e (0 : Fin 1)) ?_).trans ?_
  · rw [Shape.rowMajor_val_two, Shape.rowMajor_val_one]
    show e.val * 1 + 0 = e.val
    omega
  · exact slice2_axis1_apply 1 a2 _ e (0 : Fin 1) (1 : Fin 2) rfl

/-! ## The padded word vectors -/

/-- Below the operand's length a padded word vector holds the operand's word. -/
theorem padw_lt (x : IVec S1000000 32) (v : BitVec 32) (e : Fin 1007616) (h : e.val < 1000000) :
    padw x v (ix1 e) = x (ix1 ⟨e.val, h⟩) := by
  unfold padw pad
  split
  · next hin =>
    refine congrArg x (funext fun a => Fin.ext ?_)
    match a with
    | ⟨0, _⟩ => show (e.val - 0) / 1 = e.val; omega
  · next hn =>
    refine absurd (fun a => ?_) hn
    match a with
    | ⟨0, _⟩ =>
      refine ⟨Nat.zero_le _, ?_, ?_⟩
      · show (e.val - 0) % 1 = 0; omega
      · show (e.val - 0) / 1 < 1000000; omega

/-- From the operand's length on a padded word vector holds the padding word. -/
theorem padw_ge (x : IVec S1000000 32) (v : BitVec 32) (e : Fin 1007616) (h : 1000000 ≤ e.val) :
    padw x v (ix1 e) = v := by
  unfold padw pad
  split
  · next hin =>
    have h0 := (hin ⟨0, Nat.one_pos⟩).2.2
    have h1 : (e.val - 0) / 1 < 1000000 := h0
    omega
  · rfl

/-! ## The padded tables, at the ideal instance

The padding value is the word 0 converted to a float: the real number 0. -/

/-- In the first 100000 rows the padded 32-column table holds the operand's entry. -/
theorem xpad32_lt (x : FVec Ideal S100000x32 .f32) (n : Fin 100352) (f : Fin 32) (h : n.val < 100000) :
    xpad32 (F := Ideal) x (ix2 n f) = x (ix2 ⟨n.val, h⟩ f) := by
  unfold xpad32 pad
  split
  · next hin =>
    refine congrArg x (funext fun a => Fin.ext ?_)
    match a with
    | ⟨0, _⟩ => show (n.val - 0) / 1 = n.val; omega
    | ⟨1, _⟩ => show (f.val - 0) / 1 = f.val; omega
  · next hn =>
    refine absurd (fun a => ?_) hn
    match a with
    | ⟨0, _⟩ =>
      refine ⟨Nat.zero_le _, ?_, ?_⟩
      · show (n.val - 0) % 1 = 0; omega
      · show (n.val - 0) / 1 < 100000; omega
    | ⟨1, _⟩ =>
      refine ⟨Nat.zero_le _, ?_, ?_⟩
      · show (f.val - 0) % 1 = 0; omega
      · show (f.val - 0) / 1 < 32; have := f.isLt; omega

/-- In the rows from 100000 on the padded 32-column table holds the padding value, the real number 0. -/
theorem xpad32_ge (x : FVec Ideal S100000x32 .f32) (n : Fin 100352) (f : Fin 32) (h : 100000 ≤ n.val) :
    xpad32 (F := Ideal) x (ix2 n f) = 0 := by
  unfold xpad32 pad
  split
  · next hin =>
    have h0 := (hin ⟨0, Nat.succ_pos 1⟩).2.2
    have h1 : (n.val - 0) / 1 < 100000 := h0
    omega
  · show (((0#32 : BitVec 32).toInt : ℝ) : EReal) = 0
    rw [show (0#32 : BitVec 32).toInt = 0 from by decide, Int.cast_zero, EReal.coe_zero]

/-- In the first 100000 rows the padded 64-column table holds the operand's entry. -/
theorem xpad64_lt (x : FVec Ideal S100000x64 .f32) (n : Fin 100352) (f : Fin 64) (h : n.val < 100000) :
    xpad64 (F := Ideal) x (ix2 n f) = x (ix2 ⟨n.val, h⟩ f) := by
  unfold xpad64 pad
  split
  · next hin =>
    refine congrArg x (funext fun a => Fin.ext ?_)
    match a with
    | ⟨0, _⟩ => show (n.val - 0) / 1 = n.val; omega
    | ⟨1, _⟩ => show (f.val - 0) / 1 = f.val; omega
  · next hn =>
    refine absurd (fun a => ?_) hn
    match a with
    | ⟨0, _⟩ =>
      refine ⟨Nat.zero_le _, ?_, ?_⟩
      · show (n.val - 0) % 1 = 0; omega
      · show (n.val - 0) / 1 < 100000; omega
    | ⟨1, _⟩ =>
      refine ⟨Nat.zero_le _, ?_, ?_⟩
      · show (f.val - 0) % 1 = 0; omega
      · show (f.val - 0) / 1 < 64; have := f.isLt; omega

/-- In the rows from 100000 on the padded 64-column table holds the padding value, the real number 0. -/
theorem xpad64_ge (x : FVec Ideal S100000x64 .f32) (n : Fin 100352) (f : Fin 64) (h : 100000 ≤ n.val) :
    xpad64 (F := Ideal) x (ix2 n f) = 0 := by
  unfold xpad64 pad
  split
  · next hin =>
    have h0 := (hin ⟨0, Nat.succ_pos 1⟩).2.2
    have h1 : (n.val - 0) / 1 < 100000 := h0
    omega
  · show (((0#32 : BitVec 32).toInt : ℝ) : EReal) = 0
    rw [show (0#32 : BitVec 32).toInt = 0 from by decide, Int.cast_zero, EReal.coe_zero]

/-! ## A column half of the kept rows -/

/-- Entry `(n, f)` of the first column half of the kept rows is entry `(n, f)` of the padded table. -/
theorem colsA32_rows64 (s : FVec Ideal S100352x64 .f32) (n : Fin 100000) (f : Fin 32) :
    colsA32 (rows64 s) (ix2 n f)
      = s (ix2 ⟨n.val, Nat.lt_trans n.isLt (by decide)⟩ ⟨f.val, Nat.lt_trans f.isLt (by decide)⟩) := by
  unfold colsA32 rows64
  refine (slice2_axis1_apply 0 _ _ n f (⟨f.val, Nat.lt_trans f.isLt (by decide)⟩ : Fin 64) (Nat.zero_add _).symm).trans ?_
  exact slice2_axis0_apply 0 s _ n _ (⟨n.val, Nat.lt_trans n.isLt (by decide)⟩ : Fin 100352) (Nat.zero_add _).symm

/-- Entry `(n, f)` of the second column half of the kept rows is entry `(n, 32 + f)` of the padded table. -/
theorem colsB32_rows64 (s : FVec Ideal S100352x64 .f32) (n : Fin 100000) (f : Fin 32) :
    colsB32 (rows64 s) (ix2 n f)
      = s (ix2 ⟨n.val, Nat.lt_trans n.isLt (by decide)⟩ ⟨32 + f.val, Nat.add_lt_add_left f.isLt 32⟩) := by
  unfold colsB32 rows64
  refine (slice2_axis1_apply 32 _ _ n f (⟨32 + f.val, Nat.add_lt_add_left f.isLt 32⟩ : Fin 64) rfl).trans ?_
  exact slice2_axis0_apply 0 s _ n _ (⟨n.val, Nat.lt_trans n.isLt (by decide)⟩ : Fin 100352) (Nat.zero_add _).symm

/-- Entry `(n, f)` of the first column half of the kept rows is entry `(n, f)` of the padded table. -/
theorem colsA64_rows128 (s : FVec Ideal S100352x128 .f32) (n : Fin 100000) (f : Fin 64) :
    colsA64 (rows128 s) (ix2 n f)
      = s (ix2 ⟨n.val, Nat.lt_trans n.isLt (by decide)⟩ ⟨f.val, Nat.lt_trans f.isLt (by decide)⟩) := by
  unfold colsA64 rows128
  refine (slice2_axis1_apply 0 _ _ n f (⟨f.val, Nat.lt_trans f.isLt (by decide)⟩ : Fin 128) (Nat.zero_add _).symm).trans ?_
  exact slice2_axis0_apply 0 s _ n _ (⟨n.val, Nat.lt_trans n.isLt (by decide)⟩ : Fin 100352) (Nat.zero_add _).symm

/-- Entry `(n, f)` of the second column half of the kept rows is entry `(n, 64 + f)` of the padded table. -/
theorem colsB64_rows128 (s : FVec Ideal S100352x128 .f32) (n : Fin 100000) (f : Fin 64) :
    colsB64 (rows128 s) (ix2 n f)
      = s (ix2 ⟨n.val, Nat.lt_trans n.isLt (by decide)⟩ ⟨64 + f.val, Nat.add_lt_add_left f.isLt 64⟩) := by
  unfold colsB64 rows128
  refine (slice2_axis1_apply 64 _ _ n f (⟨64 + f.val, Nat.add_lt_add_left f.isLt 64⟩ : Fin 128) rfl).trans ?_
  exact slice2_axis0_apply 0 s _ n _ (⟨n.val, Nat.lt_trans n.isLt (by decide)⟩ : Fin 100352) (Nat.zero_add _).symm

end Cert.KernelIdeal.KRead

end
-- ==== Proof.GatherA.lean ====
/-
  The first gather region: its result array, after the run from any entry contents `V`, holds for every edge row `e` the sum
  over ALL node rows `n` of `[src e = word n] · y n` (`Cert.Spec.pick`), the 98 node blocks of 1024 rows added in grid order.

  Point `t` of the grid (123 edge blocks of 8192 rows by 98 node blocks of 1024 rows) has edge block `t / 98` and node
  block `t % 98`. Its body builds the one-hot matrix `[src e = word (1024·(t % 98) + k)]`, multiplies it with the node
  block and adds the product onto the edge block's running rows, which the first node block starts from zero. After
  node block `j` the running rows therefore hold the sum over the node rows below `1024·(j + 1)`; the block is written
  back after the last node block, when that is the sum over all 100352 rows, and the 123 written blocks tile the array.
  Extended-real addition is associative and commutative with `0` neutral, `0 · x = 0` and `1 · x = x` for every `x`, so
  no finiteness is needed anywhere.
-/
import proofs.«420490_j128849019287_1_alg».proof.Defs
import proofs.«420490_j128849019287_1_alg».proof.Proof.Gen.KernelIdeal.Frame
import proofs.«420490_j128849019287_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.GatherA

open Cert.KernelIdeal Cert.KernelIdeal.Gen

/-! ## What each case of the body leaves in the output's staging buffer -/

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later node block: the running rows `xo` plus the product, the body's one covering store. -/
theorem out_B (c : Dev nD) (i : grid0.Coords) (a2 : Memref sig .tc .vmem S8192 .i32) (h2 : a2.IsWhole)
    (a3 : Memref sig .tc .vmem S1024x32 .f32) (h3 : a3.IsWhole) (a4 : Memref sig .tc .vmem S8192x32 .f32) (h4 : a4.IsWhole)
    (hc : ¬cond0_0 i) (x0 : Vec F S8192 .i32) (x1 : Vec F S1024x32 .f32) (xo : Vec F S8192x32 .f32) :
    out0_B_2 c i a2 h2 a3 h3 a4 h4 hc x0 x1 xo = k0_pay2 i x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S8192x32) hz,
    View.ld_unit_zero (S := S1024x32) hz, View.ld_unit_zero (S := S8192) hz1]

/-- The first node block: the zero rows are stored, read back, and the product is added onto them. -/
theorem out_A (c : Dev nD) (i : grid0.Coords) (a2 : Memref sig .tc .vmem S8192 .i32) (h2 : a2.IsWhole)
    (a3 : Memref sig .tc .vmem S1024x32 .f32) (h3 : a3.IsWhole) (a4 : Memref sig .tc .vmem S8192x32 .f32) (h4 : a4.IsWhole)
    (hc : cond0_0 i) (x0 : Vec F S8192 .i32) (x1 : Vec F S1024x32 .f32) :
    out0_A_2 c i a2 h2 a3 h3 a4 h4 hc x0 x1 = k0_pay2 i x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8192x32) hz, View.readCov_unit_zero (S := S8192x32) _ hz]
  simp only [View.readAt_eq_ld, h2.read_unread, h3.read_unread, View.ld_unit_zero (S := S1024x32) hz,
    View.ld_unit_zero (S := S8192) hz1]

end Cases

/-! ## The body's arithmetic at an index, on the extended reals -/

/-- The dimension numbers of the body's product: rows × 1024 by 1024 × columns. -/
abbrev D : DotDims S8192x1024 S1024x32 S8192x32 := dot_S8192x1024_S1024x32_S8192x32_1_0_0_1_n_n

theorem D_rank : D.contr.rank = 1 := rfl
theorem D_size : D.contr.size ⟨0, by rw [D_rank]; exact Nat.one_pos⟩ = 1024 := rfl

/-- The contraction index of the product is its one coordinate. -/
abbrev κ : D.contr.Idx ≃ Fin 1024 := contrEquiv1 D 1024 D_rank D_size

theorem lhsIdx_eq (p : Fin 8192) (q : Fin 32) (k : Fin 1024) : D.lhsIdx (ix2 p q) (κ.symm k) = ix2 p k := by
  refine Shape.idx_ext₂ ?_ ?_
  · simp [DotDims.lhsIdx, D, dot_S8192x1024_S1024x32_S8192x32_1_0_0_1_n_n]; rfl
  · exact (D.lhsIdx_val_of_single (cl := 1) rfl (ix2 p q) (κ.symm k)).trans (contrEquiv1_symm_val D 1024 D_rank D_size k)

theorem rhsIdx_eq (p : Fin 8192) (q : Fin 32) (k : Fin 1024) : D.rhsIdx (ix2 p q) (κ.symm k) = ix2 k q := by
  refine Shape.idx_ext₂ ?_ ?_
  · exact (D.rhsIdx_val_of_single (cr := 0) rfl (ix2 p q) (κ.symm k)).trans (contrEquiv1_symm_val D 1024 D_rank D_size k)
  · simp [DotDims.rhsIdx, D, dot_S8192x1024_S1024x32_S8192x32_1_0_0_1_n_n]; rfl

/-- The node word of column `k` of node block `j`: `j · 1024 + k` in 32-bit arithmetic is the word of that number. -/
theorem word_eq (j k : Nat) : Scalar.muli (BitVec.ofNat 32 j) 1024#32 + BitVec.ofNat 32 k = BitVec.ofNat 32 (j * 1024 + k) := by
  show BitVec.ofNat 32 j * BitVec.ofNat 32 1024 + BitVec.ofNat 32 k = _
  rw [← BitVec.ofNat_mul, ← BitVec.ofNat_add]

/-- A comparison bit widened and converted is the indicator of equality. -/
theorem sitofp_eq_ind (a b : BitVec 32) :
    (FloatOps.sitofp (F := Ideal) .f32 ((IntOp.cmpi .eq a b).setWidth 32) : EReal) = Cert.Spec.ind a b := by
  unfold Cert.Spec.ind IntOp.cmpi
  by_cases h : a = b
  · subst h
    rw [if_pos rfl]
    show (((BitVec.setWidth 32 (BitVec.ofBool (a == a))).toInt : ℝ) : EReal) = 1
    rw [beq_self_eq_true, show (BitVec.setWidth 32 (BitVec.ofBool true)).toInt = 1 from by decide]
    simp
  · rw [if_neg h]
    show (((BitVec.setWidth 32 (BitVec.ofBool (a == b))).toInt : ℝ) : EReal) = 0
    rw [beq_false_of_ne h, show (BitVec.setWidth 32 (BitVec.ofBool false)).toInt = 0 from by decide]
    simp

/-- Entry `(p, k)` of the one-hot matrix the body builds from the source words `x0` and the node words `w + k`. -/
theorem onehot_apply (w : BitVec 32) (x0 : IVec S8192 32) (p : Fin 8192) (k : Fin 1024) :
    (truncf .bf16 (sitofp .f32 (extui 32 (cmpi .eq
        (broadcastTo S8192x1024 (shapeCast S8192x1 (shapeCast S8192 x0 shapeCasts_S8192_S8192) shapeCasts_S8192_S8192x1)
          broadcasts_S8192x1_S8192x1024)
        (broadcastTo S8192x1024 (addi (broadcast S1x1024 w) (iota .tc S1x1024 32 [1] iota_S1x1024_d1_w32))
          broadcasts_S1x1024_S8192x1024))
      natLt_1_32)) bitsLt_bf16_f32 : FVec Ideal S8192x1024 .bf16) (ix2 p k)
      = Cert.Spec.ind (x0 (ix1 p)) (w + BitVec.ofNat 32 k.val) := by
  have eA : broadcastTo S8192x1024 (shapeCast S8192x1 (shapeCast S8192 x0 shapeCasts_S8192_S8192) shapeCasts_S8192_S8192x1)
      broadcasts_S8192x1_S8192x1024 (ix2 p k) = x0 (ix1 p) := by
    refine (broadcastTo_apply _ _ (ix2 p k) (ix2 p (0 : Fin 1)) (fun a => ?_)).trans ?_
    · match a with
      | ⟨0, _⟩ => rfl
      | ⟨1, _⟩ => rfl
    · rw [shapeCast_self]
      refine shapeCast_apply x0 _ (ix2 p (0 : Fin 1)) (ix1 p) ?_
      rw [Shape.rowMajor_val_one, Shape.rowMajor_val_two]
      show p.val = p.val * 1 + 0
      omega
  have eB : broadcastTo S8192x1024 (addi (broadcast S1x1024 w) (iota .tc S1x1024 32 [1] iota_S1x1024_d1_w32))
      broadcasts_S1x1024_S8192x1024 (ix2 p k) = w + BitVec.ofNat 32 k.val := by
    refine (broadcastTo_apply _ _ (ix2 p k) (ix2 (0 : Fin 1) k) (fun a => ?_)).trans ?_
    · match a with
      | ⟨0, _⟩ => rfl
      | ⟨1, _⟩ => rfl
    · show IntOp.addi w (iota .tc S1x1024 32 [1] iota_S1x1024_d1_w32 (ix2 (0 : Fin 1) k)) = _
      rw [iota_single_apply]
      rfl
  show FloatOps.sitofp (F := Ideal) .f32 ((IntOp.cmpi .eq
      (broadcastTo S8192x1024 (shapeCast S8192x1 (shapeCast S8192 x0 shapeCasts_S8192_S8192) shapeCasts_S8192_S8192x1)
          broadcasts_S8192x1_S8192x1024 (ix2 p k))
      (broadcastTo S8192x1024 (addi (broadcast S1x1024 w) (iota .tc S1x1024 32 [1] iota_S1x1024_d1_w32))
          broadcasts_S1x1024_S8192x1024 (ix2 p k))).setWidth 32) = _
  rw [eA, eB]
  exact sitofp_eq_ind _ _

theorem pay2_apply (i : grid0.Coords) (x0 : Vec Ideal S8192 .i32) (x1 : Vec Ideal S1024x32 .f32) (acc : Vec Ideal S8192x32 .f32)
    (p : Fin 8192) (q : Fin 32) :
    k0_pay2 (F := Ideal) i x0 x1 acc (ix2 p q)
      = acc (ix2 p q) + ∑ k : Fin 1024, Cert.Spec.ind (x0 (ix1 p)) (BitVec.ofNat 32 ((i 1).val * 1024 + k.val)) * x1 (ix2 k q) := by
  unfold k0_pay2
  dsimp only
  refine (addf_apply _ _ (ix2 p q)).trans ?_
  rw [shapeCast_self]
  refine congrArg (acc (ix2 p q) + ·) ?_
  refine (Ideal.matmul_constant_zero_apply D none _ _ (ix2 p q)).trans ?_
  rw [← Equiv.sum_comp κ.symm]
  refine Finset.sum_congr rfl fun k _ => ?_
  rw [lhsIdx_eq, rhsIdx_eq, onehot_apply, word_eq]
  refine congrArg (fun z : EReal => Cert.Spec.ind (x0 (ix1 p)) (BitVec.ofNat 32 ((i 1).val * 1024 + k.val)) * z) ?_
  show shapeCast S1024x32 x1 shapeCasts_S1024x32_S1024x32 (ix2 k q) = x1 (ix2 k q)
  rw [shapeCast_self]

/-! ## The windows' blocks as rows of the arrays -/

section Region
variable (V : (c : Dev nD) → (b : Ref sig .tc) → Buf (Elt Ideal) ((c : Thread nD τ).loc b))

/-- The padded source words and the padded node features as the region finds them. -/
abbrev src (c : Dev nD) : (⟨1, ![1007616]⟩ : Shape).Idx → BitVec 32 := V c main_v6
abbrev feat (c : Dev nD) : (⟨2, ![100352, 32]⟩ : Shape).Idx → EReal := V c main_v21

/-- The two input blocks at a point, at their literal types. -/
abbrev sblk (c : Dev nD) (t : Fin cfg0.N) : Vec Ideal S8192 .i32 := iblk0 V c 0 t
abbrev yblk (c : Dev nD) (t : Fin cfg0.N) : Vec Ideal S1024x32 .f32 := iblk0 V c 1 t

/-- The printed index maps over the grid: point `t` is edge block `t / 98` and node block `t % 98`. -/
theorem idx_facts : ∀ t : Fin cfg0.N, win0_0.index t (0 : Fin 1) = t.val / 98
    ∧ win0_1.index t (0 : Fin 2) = t.val % 98 ∧ win0_1.index t (1 : Fin 2) = 0
    ∧ win0_2.index t (0 : Fin 2) = t.val / 98 ∧ win0_2.index t (1 : Fin 2) = 0
    ∧ ((grid0.coords t) 1).val = t.val % 98 :=
  (by decide +kernel : ∀ t : Fin grid0.N, _)

theorem sblk_apply (c : Dev nD) (t : Fin cfg0.N) (p : Fin 8192) (he : t.val / 98 * 8192 + p.val < 1007616) :
    sblk V c t (ix1 p) = src V c (ix1 ⟨t.val / 98 * 8192 + p.val, he⟩) := by
  obtain ⟨e0, -⟩ := idx_facts t
  unfold sblk iblk0
  rw [View.read_apply]
  show V c main_v6 _ = V c main_v6 _
  congr 1
  funext a
  apply Fin.ext
  match a with
  | ⟨0, _⟩ => show win0_0.index t (0 : Fin 1) * 8192 + 1 * p.val = t.val / 98 * 8192 + p.val; rw [e0]; omega

theorem yblk_apply (c : Dev nD) (t : Fin cfg0.N) (k : Fin 1024) (q : Fin 32) (hn : t.val % 98 * 1024 + k.val < 100352) :
    yblk V c t (ix2 k q) = feat V c (ix2 ⟨t.val % 98 * 1024 + k.val, hn⟩ q) := by
  obtain ⟨-, e0, e1, -⟩ := idx_facts t
  unfold yblk iblk0
  rw [View.read_apply]
  show V c main_v21 _ = V c main_v21 _
  congr 1
  funext a
  apply Fin.ext
  match a with
  | ⟨0, _⟩ => show win0_1.index t (0 : Fin 2) * 1024 + 1 * k.val = t.val % 98 * 1024 + k.val; rw [e0]; omega
  | ⟨1, _⟩ => show win0_1.index t (1 : Fin 2) * 32 + 1 * q.val = q.val; rw [e1]; omega

/-! ## The accumulation over the node blocks -/

/-- Node row `n`'s contribution to edge row `e`, column `f`: `[src e = word n] · y (n, f)`; zero outside the arrays. -/
def term (c : Dev nD) (e : ℕ) (f : Fin 32) (n : ℕ) : EReal :=
  if h : e < 1007616 ∧ n < 100352 then
    Cert.Spec.ind (src V c (ix1 ⟨e, h.1⟩)) (BitVec.ofNat 32 n) * feat V c (ix2 ⟨n, h.2⟩ f)
  else 0

/-- The zero rows the first node block starts from. -/
theorem zero_apply (j : S8192x32.Idx) : k0_pay1 (F := Ideal) j = 0 := by
  show Ideal.ofBits .f32 0x00000000#32 = 0
  exact Ideal.ofBits_zero_f32

/-- One point's body adds, onto whatever rows `acc` it finds, the 1024 contributions of its node block. -/
theorem step_apply (c : Dev nD) (t : Fin cfg0.N) (acc : Vec Ideal S8192x32 .f32) (p : Fin 8192) (q : Fin 32) :
    k0_pay2 (F := Ideal) (grid0.coords t) (sblk V c t) (yblk V c t) acc (ix2 p q)
      = acc (ix2 p q) + ∑ s ∈ Finset.range 1024, term V c (t.val / 98 * 8192 + p.val) q (t.val % 98 * 1024 + s) := by
  have hN : t.val < 12054 := lt_of_lt_of_eq t.isLt (show cfg0.N = 12054 from N_0)
  have he : t.val / 98 * 8192 + p.val < 1007616 := by have := p.isLt; omega
  obtain ⟨-, -, -, -, -, ej⟩ := idx_facts t
  refine (pay2_apply (grid0.coords t) (sblk V c t) (yblk V c t) acc p q).trans ?_
  refine congrArg (fun z : EReal => acc (ix2 p q) + z) ?_
  rw [← Fin.sum_univ_eq_sum_range (fun s => term V c (t.val / 98 * 8192 + p.val) q (t.val % 98 * 1024 + s)) 1024]
  refine Finset.sum_congr rfl fun k _ => ?_
  have hk : t.val % 98 * 1024 + k.val < 100352 := by have := k.isLt; omega
  rw [sblk_apply V c t p he, yblk_apply V c t k q hk, ej]
  unfold term
  rw [dif_pos ⟨he, hk⟩]

/-- At a first node block the running rows are that block's 1024 contributions. -/
theorem outsAt_first (c : Dev nD) (t : Fin cfg0.N) (h0 : t.val % 98 = 0) (p : Fin 8192) (q : Fin 32) :
    outsAt0 V c t.val t.isLt (ix2 p q) = ∑ s ∈ Finset.range 1024, term V c (t.val / 98 * 8192 + p.val) q s := by
  rw [outsAt0_A V c t h0,
    out_A c (grid0.coords t) (ms0_0 t) (hs0_0 t) (ms0_1 t) (hs0_1 t) (ms0_2 t) (hs0_2 t) ((hcond0_0 t).mpr h0) (iblk0 V c 0 t) (iblk0 V c 1 t)]
  refine (step_apply V c t (k0_pay1 (F := Ideal)) p q).trans ?_
  rw [zero_apply, zero_add, h0]
  simp only [Nat.zero_mul, Nat.zero_add]

/-- THE INVARIANT. After point `n` (edge block `n / 98`, node block `n % 98`) the running rows hold the contributions of
    the node rows below `1024 · (n % 98 + 1)`. -/
theorem outsAt_apply (c : Dev nD) (n : ℕ) : ∀ (h : n < cfg0.N) (p : Fin 8192) (q : Fin 32),
    outsAt0 V c n h (ix2 p q) = ∑ s ∈ Finset.range ((n % 98 + 1) * 1024), term V c (n / 98 * 8192 + p.val) q s := by
  induction n with
  | zero => intro h p q; exact outsAt_first V c ⟨0, h⟩ rfl p q
  | succ n ih =>
    intro h p q
    by_cases h0 : (n + 1) % 98 = 0
    · rw [h0]
      exact outsAt_first V c ⟨n + 1, h⟩ h0 p q
    · have hd : n / 98 = (n + 1) / 98 := by omega
      have hm : n % 98 + 1 = (n + 1) % 98 := by omega
      rw [outsAt0_B V c ⟨n + 1, h⟩ h0]
      dsimp only
      rw [out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hc => h0 ((hcond0_0 ⟨n + 1, h⟩).mp hc)) (iblk0 V c 0 ⟨n + 1, h⟩) (iblk0 V c 1 ⟨n + 1, h⟩)]
      refine (step_apply V c ⟨n + 1, h⟩ (outsAt0 V c n (Nat.lt_of_succ_lt h)) p q).trans ?_
      show outsAt0 V c n _ (ix2 p q) + ∑ s ∈ Finset.range 1024, term V c ((n + 1) / 98 * 8192 + p.val) q ((n + 1) % 98 * 1024 + s) = _
      rw [ih (Nat.lt_of_succ_lt h) p q, hd, hm]
      generalize (n + 1) % 98 = J
      rw [Nat.add_mul, Nat.one_mul, Finset.sum_range_add]

/-! ## The write-back, the cover, the array -/

/-- A point's output block, read off any contents `G` of the array, at row `p`: row `8192 · (t / 98) + p` of `G`. -/
theorem read_out_blk (t : Fin cfg0.N) (p : Fin 8192) (q : Fin 32) (he : t.val / 98 * 8192 + p.val < 1007616)
    (G : (⟨2, ![1007616, 32]⟩ : Shape).Idx → EReal) :
    ((cfg0.win 2).blk t).view.read (Elt Ideal) G (ix2 p q) = G (ix2 ⟨t.val / 98 * 8192 + p.val, he⟩ q) := by
  obtain ⟨-, -, -, e0, e1, -⟩ := idx_facts t
  rw [View.read_apply]
  refine (cast_eq _ _).trans (congrArg G ?_)
  funext a
  apply Fin.ext
  match a with
  | ⟨0, _⟩ => show win0_2.index t (0 : Fin 2) * 8192 + 1 * p.val = t.val / 98 * 8192 + p.val; rw [e0]; omega
  | ⟨1, _⟩ => show win0_2.index t (1 : Fin 2) * 32 + 1 * q.val = q.val; rw [e1]; omega

/-- The one-hot sum at an entry named by its coordinates. -/
theorem pick_apply (s : (⟨1, ![1007616]⟩ : Shape).Idx → BitVec 32) (y : (⟨2, ![100352, 32]⟩ : Shape).Idx → EReal)
    (e : Fin 1007616) (f : Fin 32) :
    Cert.Spec.pick (E := 1007616) (K := 100352) (C := 32) s y (ix2 e f)
      = ∑ n : Fin 100352, Cert.Spec.ind (s (ix1 e)) (BitVec.ofNat 32 n.val) * y (ix2 n f) := rfl

/-- What a point writes back — it is a last node block — is its edge block of the one-hot sums over ALL node rows: all 98
    node blocks are in. -/
theorem flushed_eq (c : Dev nD) (t : Fin cfg0.N) (hf : (cfg0.win 2).flush t = true) :
    (dat0 V c).flushed 2 t = ((cfg0.win 2).blk t).view.read (Elt Ideal)
      (Cert.Spec.pick (E := 1007616) (K := 100352) (C := 32) (V c main_v6) (V c main_v21)) := by
  have hN : t.val < 12054 := lt_of_lt_of_eq t.isLt (show cfg0.N = 12054 from N_0)
  have h97 : t.val % 98 = 97 := (flush0_2 t).mp hf
  show (cfg0.win 2).cut (grid0.coords t) ((dat0 V c).after 2 t) = _
  rw [after0_2]
  funext j
  obtain ⟨p, q, rfl⟩ : ∃ (p : Fin 8192) (q : Fin 32), j = ix2 p q := ⟨j 0, j 1, eq_ix2 j⟩
  have he : t.val / 98 * 8192 + p.val < 1007616 := by have := p.isLt; omega
  refine Eq.trans ?_ (read_out_blk t p q he _).symm
  refine Eq.trans ?_ (pick_apply (V c main_v6) (V c main_v21) ⟨t.val / 98 * 8192 + p.val, he⟩ q).symm
  show outsAt0 V c t.val t.isLt (ix2 p q) = _
  rw [outsAt_apply V c t.val t.isLt p q, h97, show ((97 : ℕ) + 1) * 1024 = 100352 from rfl, Finset.sum_range]
  refine Finset.sum_congr rfl fun n _ => ?_
  unfold term
  rw [dif_pos ⟨he, n.isLt⟩]

/-- Every row of the array is in the block some last node block's point writes back. -/
theorem cover (i : S1007616x32.Idx) :
    ∃ t : Fin cfg0.N, (cfg0.win 2).flush t = true ∧ i ∈ ((cfg0.win 2).blk t).view.set := by
  have hi0 : (i 0).val < 1007616 := idx2_lt0 i
  have hi1 : (i 1).val < 32 := idx2_lt1 i
  have hN : cfg0.N = 12054 := N_0
  have ht : (i 0).val / 8192 * 98 + 97 < cfg0.N := by rw [hN]; omega
  obtain ⟨-, -, -, e0, e1, -⟩ := idx_facts ⟨(i 0).val / 8192 * 98 + 97, ht⟩
  have e0' : win0_2.index ⟨(i 0).val / 8192 * 98 + 97, ht⟩ (0 : Fin 2) = (i 0).val / 8192 := by rw [e0]; dsimp only; omega
  refine ⟨⟨(i 0).val / 8192 * 98 + 97, ht⟩, (flush0_2 _).mpr (by dsimp only; omega), ?_⟩
  show i ∈ ((View.whole main_v22).slice (win0_2.rect ⟨(i 0).val / 8192 * 98 + 97, ht⟩)).set
  rw [View.set_slice_whole, Rect.mem_set_unit]
  intro a
  match a with
  | ⟨0, _⟩ =>
    show win0_2.index ⟨(i 0).val / 8192 * 98 + 97, ht⟩ (0 : Fin 2) * 8192 ≤ (i 0).val
      ∧ (i 0).val < win0_2.index ⟨(i 0).val / 8192 * 98 + 97, ht⟩ (0 : Fin 2) * 8192 + 8192
    rw [e0']; omega
  | ⟨1, _⟩ =>
    show win0_2.index ⟨(i 0).val / 8192 * 98 + 97, ht⟩ (1 : Fin 2) * 32 ≤ (i 1).val
      ∧ (i 1).val < win0_2.index ⟨(i 0).val / 8192 * 98 + 97, ht⟩ (1 : Fin 2) * 32 + 32
    rw [e1]; omega

end Region

/-- Region 0's output array (window 2, the buffer of %22) after all 12054 points. -/
theorem arr_eq (V : (c : Dev nD) → (b : Ref sig .tc) → Buf (Elt Ideal) ((c : Thread nD τ).loc b)) (c : Dev nD) :
    (dat0 (F := Ideal) V c).arrAt 2 cfg0.N
      = Cert.Spec.pick (E := 1007616) (K := 100352) (C := 32) (V c main_v6) (V c main_v21) :=
  (dat0 (F := Ideal) V c).arrAt_eq_of_cover 2 _ (flushed_eq V c) cover

end Cert.KernelIdeal.GatherA

end
-- ==== Proof.ScatterA.lean ====
/-
  The first scatter region: its result array, after the run from any entry contents `V`, holds at `(n, r·32 + f)` the sum over
  ALL edge rows `e` of `[word n = dst e] · (xs e f · [type e = word r])` (`Cert.Spec.spread`), the 123 edge blocks of 8192 rows
  added in grid order.
-/
import proofs.«420490_j128849019287_1_alg».proof.Defs
import proofs.«420490_j128849019287_1_alg».proof.Proof.Gen.KernelIdeal.Frame
import proofs.«420490_j128849019287_1_alg».proof.Proof.Spec
import Idealize.ShloMosaic.Lib.Pipeline.Value
import Idealize.ShloMosaic.Lib.WritesUnit
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.Tactic Idealize.ShloMosaic.ValueIdx

namespace Cert.KernelIdeal.ScatterA

open Cert.KernelIdeal Cert.KernelIdeal.Gen Cert.Spec

/-! ## Words -/

/-- The float of a zero-extended equality bit is the indicator of the equality. -/
theorem sitofp_eq_ind (x y : BitVec 32) :
    FloatOps.sitofp (F := Ideal) .f32 ((IntOp.cmpi .eq x y).setWidth 32) = ind x y := by
  show ((((IntOp.cmpi .eq x y).setWidth 32).toInt : ℝ) : EReal) = ind x y
  unfold IntOp.cmpi ind
  by_cases h : x = y
  · subst h; simp
  · have hb : (x == y) = false := beq_eq_false_iff_ne.mpr h
    simp [h, hb]

/-- Row `n` of node block `a` has the word of `a·1024 + n`: the product and the sum are taken modulo `2^32` on both sides. -/
theorem node_word (a n : ℕ) :
    IntOp.addi (Scalar.muli (BitVec.ofNat 32 a) 1024#32) (BitVec.ofNat 32 n) = BitVec.ofNat 32 (a * 1024 + n) := by
  show BitVec.ofNat 32 a * BitVec.ofNat 32 1024 + BitVec.ofNat 32 n = _
  rw [← BitVec.ofNat_mul, ← BitVec.ofNat_add]

/-! ## The payloads at an index -/

/-- The one-hot matrix of a point: entry `(n, e)` is `1` where the block's destination word `e` is node `a·1024 + n`'s. -/
theorem pay3_apply (i : grid1.Coords) (v7 : Vec Ideal S8192 .i32) (n : Fin 1024) (e : Fin 8192) :
    k1_pay3 (F := Ideal) i v7 (ix2 n e) = ind (BitVec.ofNat 32 ((i 0).val * 1024 + n.val)) (v7 (ix1 e)) := by
  unfold k1_pay3
  simp only [truncf_apply, sitofp_apply, extui_apply]
  refine Eq.trans ?_ (sitofp_eq_ind _ _)
  refine congrArg (fun b => FloatOps.sitofp (F := Ideal) FTy.f32 (BitVec.setWidth 32 b)) ?_
  show IntOp.cmpi .eq _ _ = IntOp.cmpi .eq _ _
  refine congrArg₂ (IntOp.cmpi .eq) ?_ ?_
  · refine (broadcastTo_apply _ _ (ix2 n e) (ix2 n (0 : Fin 1)) ?_).trans ?_
    · intro a; match a with | ⟨0, _⟩ => rfl | ⟨1, _⟩ => rfl
    · show IntOp.addi _ (iota .tc S1024x1 32 [0] _ (ix2 n 0)) = _
      rw [iota_single_apply]; exact node_word _ _
  · refine (broadcastTo_apply _ _ (ix2 n e) (ix2 (0 : Fin 1) e) ?_).trans ?_
    · intro a; match a with | ⟨0, _⟩ => rfl | ⟨1, _⟩ => rfl
    · refine (shapeCast_apply _ _ (ix2 (0 : Fin 1) e) (ix1 e) ?_).trans ?_
      · rw [Shape.rowMajor_val_one, Shape.rowMajor_val_two]; show e.val = 0 * 8192 + e.val; omega
      · exact congrFun (shapeCast_self _ _) _

/-- The gathered rows, cast to the product's format: themselves. -/
theorem pay4_apply (v16 : Vec Ideal S8192x32 .f32) (j : S8192x32.Idx) : k1_pay4 (F := Ideal) v16 j = v16 j := by
  unfold k1_pay4
  exact congrFun (shapeCast_self _ _) _

/-- The type words as a column. -/
theorem pay5_apply (v19 : Vec Ideal S8192 .i32) (e : Fin 8192) : k1_pay5 (F := Ideal) v19 (ix2 e (0 : Fin 1)) = v19 (ix1 e) := by
  unfold k1_pay5
  refine (shapeCast_apply _ _ (ix2 e (0 : Fin 1)) (ix1 e) ?_).trans ?_
  · rw [Shape.rowMajor_val_one, Shape.rowMajor_val_two]; show e.val = e.val * 1 + 0; omega
  · exact congrFun (shapeCast_self _ _) _

/-- The rows of one relation: row `e` times the indicator that its type word is `r`. -/
theorem masked_apply (v16 : Vec Ideal S8192x32 .f32) (v19 : Vec Ideal S8192 .i32) (r : BitVec 32) (e : Fin 8192) (f : Fin 32) :
    mulf (k1_pay4 (F := Ideal) v16)
        (broadcastTo S8192x32 (truncf .bf16 (sitofp .f32 (extui 32 (cmpi .eq (k1_pay5 (F := Ideal) v19) (broadcast S8192x1 r)) natLt_1_32)) bitsLt_bf16_f32)
          broadcasts_S8192x1_S8192x32) (ix2 e f)
      = v16 (ix2 e f) * ind (v19 (ix1 e)) r := by
  rw [mulf_apply, pay4_apply]
  refine congrArg (v16 (ix2 e f) * ·) ?_
  refine (broadcastTo_apply _ _ (ix2 e f) (ix2 e (0 : Fin 1)) ?_).trans ?_
  · intro a; match a with | ⟨0, _⟩ => rfl | ⟨1, _⟩ => rfl
  · rw [truncf_apply, sitofp_apply, extui_apply]
    show FloatOps.sitofp (F := Ideal) .f32 (BitVec.setWidth 32 (IntOp.cmpi .eq (k1_pay5 (F := Ideal) v19 (ix2 e (0 : Fin 1))) r)) = _
    rw [pay5_apply, sitofp_eq_ind]

theorem pay7_apply (v16 : Vec Ideal S8192x32 .f32) (v19 : Vec Ideal S8192 .i32) (e : Fin 8192) (f : Fin 32) :
    k1_pay7 (F := Ideal) v16 v19 (ix2 e f) = v16 (ix2 e f) * ind (v19 (ix1 e)) 1#32 := by
  unfold k1_pay7
  exact masked_apply v16 v19 1#32 e f

/-- The product into a zero accumulator: entry `(n, f)` sums, over the 8192 rows of the block, the one-hot entry times the
    masked row. -/
theorem dot_apply (A : FVec Ideal S1024x8192 .bf16) (B : FVec Ideal S8192x32 .bf16) (n : Fin 1024) (f : Fin 32) :
    matmul dot_S1024x8192_S8192x32_S1024x32_1_0_0_1_n_n none A B (constant S1024x32 .f32 0x00000000#32) (ix2 n f)
      = ∑ e : Fin 8192, A (ix2 n e) * B (ix2 e f) := by
  refine (Ideal.matmul_constant_zero_apply _ none A B (ix2 n f)).trans ?_
  rw [← Equiv.sum_comp (contrEquiv1 dot_S1024x8192_S8192x32_S1024x32_1_0_0_1_n_n 8192 rfl rfl).symm]
  refine Finset.sum_congr rfl fun e _ => ?_
  have ce := contrEquiv1_symm_val dot_S1024x8192_S8192x32_S1024x32_1_0_0_1_n_n 8192 rfl rfl e
  have hl : dot_S1024x8192_S8192x32_S1024x32_1_0_0_1_n_n.lhsIdx (ix2 n f)
      ((contrEquiv1 dot_S1024x8192_S8192x32_S1024x32_1_0_0_1_n_n 8192 rfl rfl).symm e) = ix2 n e := by
    funext ax; apply Fin.ext
    match ax with
    | ⟨0, _⟩ => simp [DotDims.lhsIdx, dot_S1024x8192_S8192x32_S1024x32_1_0_0_1_n_n]; rfl
    | ⟨1, _⟩ => simp [DotDims.lhsIdx, dot_S1024x8192_S8192x32_S1024x32_1_0_0_1_n_n]; exact ce
  have hr : dot_S1024x8192_S8192x32_S1024x32_1_0_0_1_n_n.rhsIdx (ix2 n f)
      ((contrEquiv1 dot_S1024x8192_S8192x32_S1024x32_1_0_0_1_n_n 8192 rfl rfl).symm e) = ix2 e f := by
    funext ax; apply Fin.ext
    match ax with
    | ⟨0, _⟩ => simp [DotDims.rhsIdx, dot_S1024x8192_S8192x32_S1024x32_1_0_0_1_n_n]; exact ce
    | ⟨1, _⟩ => simp [DotDims.rhsIdx, dot_S1024x8192_S8192x32_S1024x32_1_0_0_1_n_n]; rfl
  rw [hl, hr]

/-- What one edge block adds at row `n` of node block `a`, feature column `f` of the relation whose word is `r`: the sum over the
    block's 8192 rows `e` of `[word (a·1024 + n) = dst e] · (xs e f · [type e = r])`. -/
def contrib (a : ℕ) (xs : Vec Ideal S8192x32 .f32) (d ty : Vec Ideal S8192 .i32) (n : Fin 1024) (f : Fin 32) (r : BitVec 32) : EReal :=
  ∑ e : Fin 8192, ind (BitVec.ofNat 32 (a * 1024 + n.val)) (d (ix1 e)) * (xs (ix2 e f) * ind (ty (ix1 e)) r)

/-- The update of relation 0's columns: what was loaded plus the block's contribution. -/
theorem pay6_apply (i : grid1.Coords) (v7 : Vec Ideal S8192 .i32) (v16 : Vec Ideal S8192x32 .f32) (v19 : Vec Ideal S8192 .i32)
    (v30 : Vec Ideal S1024x32 .f32) (n : Fin 1024) (f : Fin 32) :
    k1_pay6 (F := Ideal) i v7 v16 v19 v30 (ix2 n f)
      = v30 (ix2 n f) + contrib (i 0).val v16 v7 v19 n f 0#32 := by
  unfold k1_pay6 contrib
  dsimp only
  rw [addf_apply]
  refine congrArg₂ (· + ·) (congrFun (shapeCast_self _ _) _) ?_
  refine (dot_apply _ _ n f).trans ?_
  refine Finset.sum_congr rfl fun e _ => ?_
  rw [pay3_apply, masked_apply]

/-- The update of relation 1's columns, over the one-hot matrix and the masked rows the first part hands on. -/
theorem pay1_apply (i : grid1.Coords) (v7 : Vec Ideal S8192 .i32) (v16 : Vec Ideal S8192x32 .f32) (v19 : Vec Ideal S8192 .i32)
    (v42 : Vec Ideal S1024x32 .f32) (n : Fin 1024) (f : Fin 32) :
    k1_pay1 (F := Ideal) (k1_pay3 (F := Ideal) i v7) (k1_pay7 (F := Ideal) v16 v19) (constant S1024x32 .f32 0x00000000#32) v42 (ix2 n f)
      = v42 (ix2 n f) + contrib (i 0).val v16 v7 v19 n f 1#32 := by
  unfold k1_pay1 contrib
  dsimp only
  rw [addf_apply]
  refine congrArg₂ (· + ·) (congrFun (shapeCast_self _ _) _) ?_
  refine (dot_apply _ _ n f).trans ?_
  refine Finset.sum_congr rfl fun e _ => ?_
  rw [pay3_apply, pay7_apply]

/-- The reset's payload is the zero block. -/
theorem pay2_apply (y : S1024x64.Idx) : k1_pay2 (F := Ideal) y = 0 := by
  unfold k1_pay2
  exact Ideal.ofBits_zero_f32

/-! ## A block written as two halves

The body's last two stores write columns `[32, 64)` and then (earlier) columns `[0, 32)` of the `[1024, 64]` block: whatever
was stored before them, an entry of the block reads the payload of the half its column lies in. -/

section Halves
variable {sg : RefSig} {κ : Kind} {sp : Space} (v : View sg κ sp S1024x64 .f32) (g : v.ty.Contents (Elt Ideal))
  (inb1 : ∀ a, (![0, 32] : Fin 2 → ℕ) a + (![1024, 32] : Fin 2 → ℕ) a ≤ S1024x64.size a)
  (inb0 : ∀ a, (![0, 0] : Fin 2 → ℕ) a + (![1024, 32] : Fin 2 → ℕ) a ≤ S1024x64.size a)
  (w1 : (Rect.unit (s := S1024x64) ![0, 32] ![1024, 32] inb1).shape.Idx → Elt Ideal .f32)
  (w0 : (Rect.unit (s := S1024x64) ![0, 0] ![1024, 32] inb0).shape.Idx → Elt Ideal .f32)
  (L : List (View.Piece (Elt Ideal) S1024x64 .f32)) (n : Fin 1024) (col : Fin 64)

theorem read_low (h : col.val < 32) :
    v.read (Elt Ideal) (v.writes (Elt Ideal) g (⟨Rect.unit ![0, 32] ![1024, 32] inb1, w1⟩ :: ⟨Rect.unit ![0, 0] ![1024, 32] inb0, w0⟩ :: L)) (ix2 n col)
      = w0 (ix2 n (⟨col.val, h⟩ : Fin 32)) :=
  (View.read_writes_cons_unit_of_not_mem v g inb1 w1 _ (ix2 n col) rfl 1 (Or.inl h)).trans
    (View.read_writes_cons_unit_of_mem v g inb0 w0 L (ix2 n col) (ix2 n (⟨col.val, h⟩ : Fin 32)) rfl
      (fun a => match a with | ⟨0, _⟩ => (Nat.zero_add _).symm | ⟨1, _⟩ => (Nat.zero_add _).symm))

theorem read_high (h : ¬col.val < 32) :
    v.read (Elt Ideal) (v.writes (Elt Ideal) g (⟨Rect.unit ![0, 32] ![1024, 32] inb1, w1⟩ :: ⟨Rect.unit ![0, 0] ![1024, 32] inb0, w0⟩ :: L)) (ix2 n col)
      = w1 (ix2 n (⟨col.val - 32, by have := col.isLt; omega⟩ : Fin 32)) :=
  View.read_writes_cons_unit_of_mem v g inb1 w1 _ (ix2 n col) (ix2 n (⟨col.val - 32, by have := col.isLt; omega⟩ : Fin 32)) rfl
    (fun a => match a with
      | ⟨0, _⟩ => (Nat.zero_add _).symm
      | ⟨1, _⟩ => by show col.val = 32 + (col.val - 32); omega)

end Halves

/-! ## What a point leaves in the block -/

/-- One point's step on the `[1024, 64]` block of node block `a`: entry `(n, col)` gains the edge block's contribution to
    feature column `col mod 32` of relation `col / 32`. -/
def stepv (a : ℕ) (xs : Vec Ideal S8192x32 .f32) (d ty : Vec Ideal S8192 .i32) (acc : Vec Ideal S1024x64 .f32) :
    Vec Ideal S1024x64 .f32 :=
  fun y => acc y + contrib a xs d ty (y 0) (⟨(y 1).val % 32, Nat.mod_lt _ (by decide)⟩ : Fin 32) (BitVec.ofNat 32 ((y 1).val / 32))

theorem hz1 : (![0] : Fin 1 → ℕ) = fun _ => 0 := funext fun a => by fin_cases a; rfl
theorem hz2 : (![0, 0] : Fin 2 → ℕ) = fun _ => 0 := funext fun a => by fin_cases a <;> rfl

/-- Column `col < 32` is feature column `col` of relation 0; -/
theorem contrib_low (a : ℕ) (xs : Vec Ideal S8192x32 .f32) (d ty : Vec Ideal S8192 .i32) (n : Fin 1024) (col : Fin 64) (h : col.val < 32) :
    contrib a xs d ty n (⟨col.val, h⟩ : Fin 32) 0#32
      = contrib a xs d ty n (⟨col.val % 32, Nat.mod_lt _ (by decide)⟩ : Fin 32) (BitVec.ofNat 32 (col.val / 32)) :=
  congrArg₂ (contrib a xs d ty n) (Fin.ext (Nat.mod_eq_of_lt h).symm) (by rw [Nat.div_eq_of_lt h])

/-- column `col ≥ 32` is feature column `col - 32` of relation 1. -/
theorem contrib_high (a : ℕ) (xs : Vec Ideal S8192x32 .f32) (d ty : Vec Ideal S8192 .i32) (n : Fin 1024) (col : Fin 64) (h : ¬col.val < 32) :
    contrib a xs d ty n (⟨col.val - 32, by have := col.isLt; omega⟩ : Fin 32) 1#32
      = contrib a xs d ty n (⟨col.val % 32, Nat.mod_lt _ (by decide)⟩ : Fin 32) (BitVec.ofNat 32 (col.val / 32)) :=
  congrArg₂ (contrib a xs d ty n) (Fin.ext (by show col.val - 32 = col.val % 32; have := col.isLt; omega))
    (by rw [show col.val / 32 = 1 from by have := col.isLt; omega])

/-- AWAY FROM THE FIRST EDGE BLOCK the body leaves, in the block holding `xo`, `xo` plus the edge block's contributions: each
    half's store adds to what a load of that half read, and the second half's load comes after the first half's store
    only, which leaves it alone. -/
theorem out_B (c : Dev nD) (i : grid1.Coords) (a2 : Memref sig .tc .vmem S8192x32 .f32) (h2 : a2.IsWhole)
    (a3 : Memref sig .tc .vmem S8192 .i32) (h3 : a3.IsWhole) (a4 : Memref sig .tc .vmem S8192 .i32) (h4 : a4.IsWhole)
    (a5 : Memref sig .tc .vmem S1024x64 .f32) (h5 : a5.IsWhole) (hc : ¬cond1_0 i)
    (x0 : Vec Ideal S8192x32 .f32) (x1 : Vec Ideal S8192 .i32) (x2 : Vec Ideal S8192 .i32) (xo : Vec Ideal S1024x64 .f32) :
    out1_B_3 (F := Ideal) c i a2 h2 a3 h3 a4 h4 a5 h5 hc x0 x1 x2 xo = stepv (i 0).val x0 x1 x2 xo := by
  funext y
  obtain ⟨n, col, rfl⟩ : ∃ (n : Fin 1024) (col : Fin 64), y = ix2 n col := ⟨y 0, y 1, eq_ix2 y⟩
  unfold out1_B_3 kernelRun1_B
  dsimp only
  sl_unfold_words
  simp only [View.readAt_eq_ld, h2.read_unread, h3.read_unread, h4.read_unread, h5.read_unread,
    View.ld_unit_zero (S := S8192) hz1, View.ld_unit_zero (S := S8192x32) hz2]
  by_cases h : col.val < 32
  · refine (read_low VO1_3 _ _ _ _ _ _ n col h).trans ?_
    refine (pay6_apply i x1 x0 x2 _ n ⟨col.val, h⟩).trans ?_
    refine congrArg₂ (· + ·) ?_ (contrib_low _ _ _ _ n col h)
    exact congrArg xo (funext fun a => Fin.ext (match a with
      | ⟨0, _⟩ => by show 0 + 1 * n.val = n.val; omega
      | ⟨1, _⟩ => by show 0 + 1 * col.val = col.val; omega))
  · refine (read_high VO1_3 _ _ _ _ _ _ n col h).trans ?_
    refine (pay1_apply i x1 x0 x2 _ n ⟨col.val - 32, by have := col.isLt; omega⟩).trans ?_
    refine congrArg₂ (· + ·) ?_ (contrib_high _ _ _ _ n col h)
    exact congrArg xo (funext fun a => Fin.ext (match a with
      | ⟨0, _⟩ => by show 0 + 1 * n.val = n.val; omega
      | ⟨1, _⟩ => by show 32 + 1 * (col.val - 32) = col.val; omega))

/-- A load of the first half after the reset alone reads zeros; -/
theorem readCov_reset_low {sg : RefSig} {κ : Kind} {sp : Space} (v : View sg κ sp S1024x64 .f32)
    (inbw : ∀ a, (![0, 0] : Fin 2 → ℕ) a + S1024x64.size a ≤ S1024x64.size a)
    (inb0 : ∀ a, (![0, 0] : Fin 2 → ℕ) a + S1024x32.size a ≤ S1024x64.size a) (j : S1024x32.Idx) :
    v.readCov [(⟨Rect.unit ![0, 0] S1024x64.size inbw, k1_pay2 (F := Ideal)⟩ : View.Piece (Elt Ideal) S1024x64 .f32)]
      (Rect.unit (s := S1024x64) ![0, 0] S1024x32.size inb0).toLoadRect j = 0 := by
  rw [View.readCov_eq_canon', View.canon_unit_zero hz2]
  exact pay2_apply _

/-- a load of the second half after the reset and the first half's store reads zeros too: that store does not reach it. -/
theorem readCov_reset_high {sg : RefSig} {κ : Kind} {sp : Space} (v : View sg κ sp S1024x64 .f32)
    (inbw : ∀ a, (![0, 0] : Fin 2 → ℕ) a + S1024x64.size a ≤ S1024x64.size a)
    (inb0 : ∀ a, (![0, 0] : Fin 2 → ℕ) a + S1024x32.size a ≤ S1024x64.size a)
    (inb1 : ∀ a, (![0, 32] : Fin 2 → ℕ) a + (![1024, 32] : Fin 2 → ℕ) a ≤ S1024x64.size a)
    (w0 : (Rect.unit (s := S1024x64) ![0, 0] S1024x32.size inb0).shape.Idx → Elt Ideal .f32) (j : S1024x32.Idx) :
    v.readCov [(⟨Rect.unit ![0, 0] S1024x32.size inb0, w0⟩ : View.Piece (Elt Ideal) S1024x64 .f32),
        ⟨Rect.unit ![0, 0] S1024x64.size inbw, k1_pay2 (F := Ideal)⟩]
      (Rect.unit (s := S1024x64) ![0, 32] ![1024, 32] inb1).toLoadRect j = 0 := by
  rw [View.readCov_eq_canon']
  show View.canon _ ((Rect.unit (s := S1024x64) ![0, 32] ![1024, 32] inb1).toLoadRect.idx j) = 0
  rw [View.canon_cons_of_not_mem _ _ (by
    rw [Rect.mem_set_unit]
    intro hh
    have := (hh 1).2
    have e : (((Rect.unit (s := S1024x64) ![0, 32] ![1024, 32] inb1).toLoadRect.idx j) 1).val = 32 + 1 * (j 1).val := rfl
    rw [e] at this
    have h32 : (![0, 0] : Fin 2 → ℕ) 1 + S1024x32.size 1 = 32 := rfl
    omega), View.canon_unit_zero hz2]
  exact pay2_apply _

/-- AT THE FIRST EDGE BLOCK of a node block the body zeroes the block first: it leaves the edge block's contributions
    alone. -/
theorem out_A (c : Dev nD) (i : grid1.Coords) (a2 : Memref sig .tc .vmem S8192x32 .f32) (h2 : a2.IsWhole)
    (a3 : Memref sig .tc .vmem S8192 .i32) (h3 : a3.IsWhole) (a4 : Memref sig .tc .vmem S8192 .i32) (h4 : a4.IsWhole)
    (a5 : Memref sig .tc .vmem S1024x64 .f32) (h5 : a5.IsWhole) (hc : cond1_0 i)
    (x0 : Vec Ideal S8192x32 .f32) (x1 : Vec Ideal S8192 .i32) (x2 : Vec Ideal S8192 .i32) :
    out1_A_3 (F := Ideal) c i a2 h2 a3 h3 a4 h4 a5 h5 hc x0 x1 x2 = stepv (i 0).val x0 x1 x2 (fun _ => 0) := by
  funext y
  obtain ⟨n, col, rfl⟩ : ∃ (n : Fin 1024) (col : Fin 64), y = ix2 n col := ⟨y 0, y 1, eq_ix2 y⟩
  unfold out1_A_3 kernelRun1_A
  dsimp only
  sl_unfold_words
  simp only [View.readAt_eq_ld, h2.read_unread, h3.read_unread, h4.read_unread,
    View.ld_unit_zero (S := S8192) hz1, View.ld_unit_zero (S := S8192x32) hz2]
  by_cases h : col.val < 32
  · refine (read_low VO1_3 _ _ _ _ _ _ n col h).trans ?_
    refine (pay6_apply i x1 x0 x2 _ n ⟨col.val, h⟩).trans ?_
    exact congrArg₂ (· + ·) (readCov_reset_low _ _ _ _) (contrib_low _ _ _ _ n col h)
  · refine (read_high VO1_3 _ _ _ _ _ _ n col h).trans ?_
    refine (pay1_apply i x1 x0 x2 _ n ⟨col.val - 32, by have := col.isLt; omega⟩).trans ?_
    exact congrArg₂ (· + ·) (readCov_reset_high _ _ _ _ _ _) (contrib_high _ _ _ _ n col h)

/-! ## The grid's index maps, decided once -/

/-- Point `t` is node block `t / 123`, edge block `t mod 123`: the three inputs' windows sit at edge block `t mod 123`, the
    output's at node block `t / 123`. -/
theorem idx_facts : ∀ t : Fin cfg1.N,
    (grid1.coords t 0).val = t.val / 123
    ∧ win1_0.index t (0 : Fin 2) = t.val % 123 ∧ win1_0.index t (1 : Fin 2) = 0
    ∧ win1_1.index t (0 : Fin 1) = t.val % 123
    ∧ win1_2.index t (0 : Fin 1) = t.val % 123
    ∧ win1_3.index t (0 : Fin 2) = t.val / 123 ∧ win1_3.index t (1 : Fin 2) = 0 :=
  (by decide +kernel : ∀ t : Fin grid1.N,
    (grid1.coords t 0).val = t.val / 123
    ∧ win1_0.index t (0 : Fin 2) = t.val % 123 ∧ win1_0.index t (1 : Fin 2) = 0
    ∧ win1_1.index t (0 : Fin 1) = t.val % 123
    ∧ win1_2.index t (0 : Fin 1) = t.val % 123
    ∧ win1_3.index t (0 : Fin 2) = t.val / 123 ∧ win1_3.index t (1 : Fin 2) = 0)

/-! ## The arrays and their blocks -/

section Arrays
variable (V : (c : Dev nD) → (b : Ref sig .tc) → Buf (Elt Ideal) ((c : Thread nD τ).loc b)) (c : Dev nD)

/-- The gathered rows, the destination words and the type words as the region finds them. -/
abbrev xsA : Vec Ideal S1007616x32 .f32 := V c main_v22
abbrev dA : Vec Ideal S1007616 .i32 := V c main_v7
abbrev tyA : Vec Ideal S1007616 .i32 := V c main_v8
/-- Their blocks at a point. -/
abbrev xb (t : Fin cfg1.N) : Vec Ideal S8192x32 .f32 := iblk1 (F := Ideal) V c 0 t
abbrev db (t : Fin cfg1.N) : Vec Ideal S8192 .i32 := iblk1 (F := Ideal) V c 1 t
abbrev tb (t : Fin cfg1.N) : Vec Ideal S8192 .i32 := iblk1 (F := Ideal) V c 2 t

theorem row_lt (t : Fin cfg1.N) (e : Fin 8192) : t.val % 123 * 8192 + e.val < 1007616 := by
  have := Nat.mod_lt t.val (show 0 < 123 by decide); have := e.isLt; omega

/-- Row `e` of the rows' block at point `t` is row `(t mod 123)·8192 + e` of the array; -/
theorem xb_apply (t : Fin cfg1.N) (e : Fin 8192) (f : Fin 32) :
    xb V c t (ix2 e f) = xsA V c (ix2 ⟨t.val % 123 * 8192 + e.val, row_lt t e⟩ f) := by
  obtain ⟨-, i0, i1, -, -, -, -⟩ := idx_facts t
  unfold xb iblk1
  rw [View.read_apply]
  show V c main_v22 _ = V c main_v22 _
  congr 1
  funext a
  apply Fin.ext
  match a with
  | ⟨0, _⟩ => show win1_0.index t (0 : Fin 2) * 8192 + 1 * e.val = t.val % 123 * 8192 + e.val; rw [i0]; omega
  | ⟨1, _⟩ => show win1_0.index t (1 : Fin 2) * 32 + 1 * f.val = f.val; rw [i1]; omega

/-- the same of the destination words -/
theorem db_apply (t : Fin cfg1.N) (e : Fin 8192) :
    db V c t (ix1 e) = dA V c (ix1 ⟨t.val % 123 * 8192 + e.val, row_lt t e⟩) := by
  obtain ⟨-, -, -, i0, -, -, -⟩ := idx_facts t
  unfold db iblk1
  rw [View.read_apply]
  show V c main_v7 _ = V c main_v7 _
  congr 1
  funext a
  apply Fin.ext
  match a with
  | ⟨0, _⟩ => show win1_1.index t (0 : Fin 1) * 8192 + 1 * e.val = t.val % 123 * 8192 + e.val; rw [i0]; omega

/-- and of the type words. -/
theorem tb_apply (t : Fin cfg1.N) (e : Fin 8192) :
    tb V c t (ix1 e) = tyA V c (ix1 ⟨t.val % 123 * 8192 + e.val, row_lt t e⟩) := by
  obtain ⟨-, -, -, -, i0, -, -⟩ := idx_facts t
  unfold tb iblk1
  rw [View.read_apply]
  show V c main_v8 _ = V c main_v8 _
  congr 1
  funext a
  apply Fin.ext
  match a with
  | ⟨0, _⟩ => show win1_2.index t (0 : Fin 1) * 8192 + 1 * e.val = t.val % 123 * 8192 + e.val; rw [i0]; omega

end Arrays

/-! ## The running sum -/

/-- Edge row `i`'s term at node `nd`, feature column `f`, relation word `r`; `0` past the last row. -/
def term (xs : Vec Ideal S1007616x32 .f32) (d ty : Vec Ideal S1007616 .i32) (nd : ℕ) (f : Fin 32) (r : BitVec 32) (i : ℕ) : EReal :=
  if h : i < 1007616 then ind (BitVec.ofNat 32 nd) (d (ix1 ⟨i, h⟩)) * (xs (ix2 ⟨i, h⟩ f) * ind (ty (ix1 ⟨i, h⟩)) r) else 0

/-- The block of node block `a` with the first `k` edge rows added. -/
def acc (xs : Vec Ideal S1007616x32 .f32) (d ty : Vec Ideal S1007616 .i32) (a k : ℕ) : Vec Ideal S1024x64 .f32 :=
  fun y => ∑ i ∈ Finset.range k, term xs d ty (a * 1024 + (y 0).val) (⟨(y 1).val % 32, Nat.mod_lt _ (by decide)⟩ : Fin 32)
    (BitVec.ofNat 32 ((y 1).val / 32)) i

section Sum
variable (V : (c : Dev nD) → (b : Ref sig .tc) → Buf (Elt Ideal) ((c : Thread nD τ).loc b)) (c : Dev nD)

/-- An edge block's contribution is the sum of its 8192 rows' terms. -/
theorem contrib_eq (t : Fin cfg1.N) (a : ℕ) (n : Fin 1024) (f : Fin 32) (r : BitVec 32) :
    contrib a (xb V c t) (db V c t) (tb V c t) n f r
      = ∑ i ∈ Finset.range 8192, term (xsA V c) (dA V c) (tyA V c) (a * 1024 + n.val) f r (t.val % 123 * 8192 + i) := by
  rw [← Fin.sum_univ_eq_sum_range (fun i => term (xsA V c) (dA V c) (tyA V c) (a * 1024 + n.val) f r (t.val % 123 * 8192 + i)) 8192]
  unfold contrib
  refine Finset.sum_congr rfl fun e _ => ?_
  unfold term
  rw [dif_pos (row_lt t e), xb_apply, db_apply, tb_apply]

/-- One point's step takes the sum of the rows before edge block `t mod 123` to the sum of the rows through it. -/
theorem stepv_acc (t : Fin cfg1.N) :
    stepv (t.val / 123) (xb V c t) (db V c t) (tb V c t) (acc (xsA V c) (dA V c) (tyA V c) (t.val / 123) (t.val % 123 * 8192))
      = acc (xsA V c) (dA V c) (tyA V c) (t.val / 123) ((t.val % 123 + 1) * 8192) := by
  funext y
  obtain ⟨n, col, rfl⟩ : ∃ (n : Fin 1024) (col : Fin 64), y = ix2 n col := ⟨y 0, y 1, eq_ix2 y⟩
  show acc (xsA V c) (dA V c) (tyA V c) (t.val / 123) (t.val % 123 * 8192) (ix2 n col)
      + contrib (t.val / 123) (xb V c t) (db V c t) (tb V c t) n (⟨col.val % 32, Nat.mod_lt _ (by decide)⟩ : Fin 32) (BitVec.ofNat 32 (col.val / 32))
    = acc (xsA V c) (dA V c) (tyA V c) (t.val / 123) ((t.val % 123 + 1) * 8192) (ix2 n col)
  rw [contrib_eq, show (t.val % 123 + 1) * 8192 = t.val % 123 * 8192 + 8192 from by ring]
  unfold acc
  rw [Finset.sum_range_add]

end Sum

/-! ## The block after every point -/

section Run
variable (V : (c : Dev nD) → (b : Ref sig .tc) → Buf (Elt Ideal) ((c : Thread nD τ).loc b)) (c : Dev nD)

/-- At the first edge block of a node block: the zeroed block plus that edge block. -/
theorem outsAt_first (t : Fin cfg1.N) (h0 : t.val % 123 = 0) :
    outsAt1 (F := Ideal) V c t.val t.isLt = acc (xsA V c) (dA V c) (tyA V c) (t.val / 123) ((t.val % 123 + 1) * 8192) := by
  refine (outsAt1_A V c t h0).trans ?_
  refine (out_A c (grid1.coords t) (ms1_0 t) (hs1_0 t) (ms1_1 t) (hs1_1 t) (ms1_2 t) (hs1_2 t) (ms1_3 t) (hs1_3 t)
    ((hcond1_0 t).mpr h0) (xb V c t) (db V c t) (tb V c t)).trans ?_
  rw [(idx_facts t).1]
  refine Eq.trans ?_ (stepv_acc V c t)
  refine congrArg (stepv (t.val / 123) (xb V c t) (db V c t) (tb V c t)) ?_
  funext y
  unfold acc
  rw [h0, Nat.zero_mul, Finset.sum_range_zero]

/-- At a later edge block: what the point before left plus that edge block. -/
theorem outsAt_next (t : Fin cfg1.N) (h0 : ¬t.val % 123 = 0)
    (hprev : outsAt1 (F := Ideal) V c (t.val - 1) (Nat.lt_of_le_of_lt (Nat.sub_le _ _) t.isLt)
      = acc (xsA V c) (dA V c) (tyA V c) (t.val / 123) (t.val % 123 * 8192)) :
    outsAt1 (F := Ideal) V c t.val t.isLt = acc (xsA V c) (dA V c) (tyA V c) (t.val / 123) ((t.val % 123 + 1) * 8192) := by
  refine (outsAt1_B V c t h0).trans ?_
  refine (out_B c (grid1.coords t) (ms1_0 t) (hs1_0 t) (ms1_1 t) (hs1_1 t) (ms1_2 t) (hs1_2 t) (ms1_3 t) (hs1_3 t)
    (fun h => h0 ((hcond1_0 t).mp h)) (xb V c t) (db V c t) (tb V c t)
    (outsAt1 (F := Ideal) V c (t.val - 1) (Nat.lt_of_le_of_lt (Nat.sub_le _ _) t.isLt))).trans ?_
  rw [(idx_facts t).1, hprev]
  exact stepv_acc V c t

/-- After point `n` the block holds, for node block `n / 123`, the sum of the edge rows through edge block `n mod 123`. -/
theorem outsAt_eq : ∀ (n : ℕ) (h : n < cfg1.N),
    outsAt1 (F := Ideal) V c n h = acc (xsA V c) (dA V c) (tyA V c) (n / 123) ((n % 123 + 1) * 8192)
  | 0, h => outsAt_first V c ⟨0, h⟩ rfl
  | n + 1, h => by
    by_cases h0 : (n + 1) % 123 = 0
    · exact outsAt_first V c ⟨n + 1, h⟩ h0
    · refine outsAt_next V c ⟨n + 1, h⟩ h0 ?_
      show outsAt1 (F := Ideal) V c n _ = _
      rw [outsAt_eq n (Nat.lt_of_succ_lt h)]
      have e1 : n / 123 = (n + 1) / 123 := by omega
      have e2 : n % 123 + 1 = (n + 1) % 123 := by omega
      show acc _ _ _ (n / 123) ((n % 123 + 1) * 8192) = acc _ _ _ ((n + 1) / 123) ((n + 1) % 123 * 8192)
      rw [e1, e2]

/-! ## From the blocks to the array -/

/-- The full sum of terms is the spread at that entry. -/
theorem spread_apply_of (xs : Vec Ideal S1007616x32 .f32) (d ty : Vec Ideal S1007616 .i32) (k : S100352x64.Idx) (nd col : ℕ)
    (h0 : (k 0).val = nd) (h1 : (k 1).val = col) :
    spread (E := 1007616) (K := 100352) (C2 := 64) 32 (by decide) xs d ty k
      = ∑ i ∈ Finset.range 1007616, term xs d ty nd (⟨col % 32, Nat.mod_lt _ (by decide)⟩ : Fin 32) (BitVec.ofNat 32 (col / 32)) i := by
  obtain ⟨k0, k1, rfl⟩ : ∃ (k0 : Fin 100352) (k1 : Fin 64), k = ix2 k0 k1 := ⟨k 0, k 1, eq_ix2 k⟩
  subst h0
  subst h1
  unfold spread
  rw [Finset.sum_range]
  refine Finset.sum_congr rfl fun e _ => ?_
  unfold term
  rw [dif_pos e.isLt]

/-- The running sum at an entry, its coordinates named. -/
theorem acc_apply (xs : Vec Ideal S1007616x32 .f32) (d ty : Vec Ideal S1007616 .i32) (a k : ℕ) (y : S1024x64.Idx) (n col : ℕ)
    (hn : (y 0).val = n) (hc : (y 1).val = col) :
    acc xs d ty a k y = ∑ i ∈ Finset.range k, term xs d ty (a * 1024 + n) (⟨col % 32, Nat.mod_lt _ (by decide)⟩ : Fin 32)
      (BitVec.ofNat 32 (col / 32)) i := by
  subst hn; subst hc; rfl

/-- A block of the output's window written back at point `t` is a block of an array function `G` as soon as its entries
    are `G`'s at the array rows and columns the window places them at. -/
theorem flushed_of (t : Fin cfg1.N) (X : Vec Ideal S1024x64 .f32) (G : Vec Ideal S100352x64 .f32)
    (h : ∀ (y : S1024x64.Idx) (k : S100352x64.Idx), (k 0).val = win1_3.index t (0 : Fin 2) * 1024 + (y 0).val →
      (k 1).val = win1_3.index t (1 : Fin 2) * 64 + (y 1).val → X y = G k) :
    (cfg1.win 3).cut (grid1.coords t) X = ((cfg1.win 3).blk t).view.read (Elt Ideal) G := by
  funext y
  rw [View.read_apply]
  show X ((cfg1.win 3).xinj (grid1.coords t) y) = G (((cfg1.win 3).blk t).view.emb y)
  refine h _ _ ?_ ?_
  · show win1_3.index t (0 : Fin 2) * 1024 + 1 * (y 0).val = win1_3.index t (0 : Fin 2) * 1024 + (y 0).val; omega
  · show win1_3.index t (1 : Fin 2) * 64 + 1 * (y 1).val = win1_3.index t (1 : Fin 2) * 64 + (y 1).val; omega

/-- The write-back at the last edge block of a node block writes that node block of the spread. -/
theorem flushed_eq (t : Fin cfg1.N) (hf : (cfg1.win 3).flush t = true) :
    (dat1 (F := Ideal) V c).flushed 3 t
      = ((cfg1.win 3).blk t).view.read (Elt Ideal)
          (spread (E := 1007616) (K := 100352) (C2 := 64) 32 (by decide) (V c main_v22) (V c main_v7) (V c main_v8)) := by
  have h122 : t.val % 123 = 122 := (flush1_3 t).mp hf
  obtain ⟨-, -, -, -, -, i0, i1⟩ := idx_facts t
  have hK : (t.val % 123 + 1) * 8192 = 1007616 := by omega
  show (cfg1.win 3).cut (grid1.coords t) ((dat1 (F := Ideal) V c).after 3 t) = _
  rw [after1_3, outsAt_eq]
  refine flushed_of t _ _ fun y k h0 h1 => ?_
  rw [spread_apply_of (V c main_v22) (V c main_v7) (V c main_v8) k (t.val / 123 * 1024 + (y 0).val) (y 1).val
    (by rw [h0, i0]) (by rw [h1, i1]; omega)]
  rw [acc_apply (xsA V c) (dA V c) (tyA V c) (t.val / 123) _ y (y 0).val (y 1).val rfl rfl, hK]

/-- Every row of the array lies in the block of its node block's last point. -/
theorem cover (i : S100352x64.Idx) :
    ∃ t : Fin cfg1.N, (cfg1.win 3).flush t = true ∧ i ∈ ((cfg1.win 3).blk t).view.set := by
  have hi0 : (i 0).val < 100352 := (i 0).isLt
  have hi1 : (i 1).val < 64 := (i 1).isLt
  have hN : cfg1.N = 12054 := N_1
  let t : Fin cfg1.N := ⟨(i 0).val / 1024 * 123 + 122, by rw [hN]; omega⟩
  have ht : t.val = (i 0).val / 1024 * 123 + 122 := rfl
  obtain ⟨-, -, -, -, -, i0, i1⟩ := idx_facts t
  refine ⟨t, (flush1_3 t).mpr (by rw [ht]; omega), ?_⟩
  show i ∈ ((View.whole main_v23).slice (win1_3.rect t)).set
  rw [View.set_slice_whole, Rect.mem_set_unit]
  intro a
  match a with
  | ⟨0, _⟩ => show win1_3.index t (0 : Fin 2) * 1024 ≤ (i 0).val ∧ (i 0).val < win1_3.index t (0 : Fin 2) * 1024 + 1024
              rw [i0, ht]; omega
  | ⟨1, _⟩ => show win1_3.index t (1 : Fin 2) * 64 ≤ (i 1).val ∧ (i 1).val < win1_3.index t (1 : Fin 2) * 64 + 64
              rw [i1]; omega

end Run

/-- Region 1's output array (window 3, the buffer of %23) after all 12054 points. -/
theorem arr_eq (V : (c : Dev nD) → (b : Ref sig .tc) → Buf (Elt Ideal) ((c : Thread nD τ).loc b)) (c : Dev nD) :
    (dat1 (F := Ideal) V c).arrAt 3 cfg1.N
      = Cert.Spec.spread (E := 1007616) (K := 100352) (C2 := 64) 32 (by decide) (V c main_v22) (V c main_v7) (V c main_v8) :=
  (dat1 (F := Ideal) V c).arrAt_eq_of_cover 3 _ (flushed_eq V c) (cover)

end Cert.KernelIdeal.ScatterA

end
-- ==== Proof.GatherB.lean ====
/-
  The second gather region (64 feature columns, over the padded hidden rows): its result array, after the run from any entry contents `V`, holds for every edge row `e` the sum
  over ALL node rows `n` of `[src e = word n] · y n` (`Cert.Spec.pick`), the 98 node blocks of 1024 rows added in grid order.

  Point `t` of the grid (123 edge blocks of 8192 rows by 98 node blocks of 1024 rows) has edge block `t / 98` and node
  block `t % 98`. Its body builds the one-hot matrix `[src e = word (1024·(t % 98) + k)]`, multiplies it with the node
  block and adds the product onto the edge block's running rows, which the first node block starts from zero. After
  node block `j` the running rows therefore hold the sum over the node rows below `1024·(j + 1)`; the block is written
  back after the last node block, when that is the sum over all 100352 rows, and the 123 written blocks tile the array.
  Extended-real addition is associative and commutative with `0` neutral, `0 · x = 0` and `1 · x = x` for every `x`, so
  no finiteness is needed anywhere.
-/
import proofs.«420490_j128849019287_1_alg».proof.Defs
import proofs.«420490_j128849019287_1_alg».proof.Proof.Gen.KernelIdeal.Frame
import proofs.«420490_j128849019287_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.GatherB

open Cert.KernelIdeal Cert.KernelIdeal.Gen

/-! ## What each case of the body leaves in the output's staging buffer -/

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later node block: the running rows `xo` plus the product, the body's one covering store. -/
theorem out_B (c : Dev nD) (i : grid2.Coords) (a2 : Memref sig .tc .vmem S8192 .i32) (h2 : a2.IsWhole)
    (a3 : Memref sig .tc .vmem S1024x64 .f32) (h3 : a3.IsWhole) (a4 : Memref sig .tc .vmem S8192x64 .f32) (h4 : a4.IsWhole)
    (hc : ¬cond2_0 i) (x0 : Vec F S8192 .i32) (x1 : Vec F S1024x64 .f32) (xo : Vec F S8192x64 .f32) :
    out2_B_2 c i a2 h2 a3 h3 a4 h4 hc x0 x1 xo = k2_pay2 i x0 x1 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S8192x64) hz,
    View.ld_unit_zero (S := S1024x64) hz, View.ld_unit_zero (S := S8192) hz1]

/-- The first node block: the zero rows are stored, read back, and the product is added onto them. -/
theorem out_A (c : Dev nD) (i : grid2.Coords) (a2 : Memref sig .tc .vmem S8192 .i32) (h2 : a2.IsWhole)
    (a3 : Memref sig .tc .vmem S1024x64 .f32) (h3 : a3.IsWhole) (a4 : Memref sig .tc .vmem S8192x64 .f32) (h4 : a4.IsWhole)
    (hc : cond2_0 i) (x0 : Vec F S8192 .i32) (x1 : Vec F S1024x64 .f32) :
    out2_A_2 c i a2 h2 a3 h3 a4 h4 hc x0 x1 = k2_pay2 i x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S8192x64) hz, View.readCov_unit_zero (S := S8192x64) _ hz]
  simp only [View.readAt_eq_ld, h2.read_unread, h3.read_unread, View.ld_unit_zero (S := S1024x64) hz,
    View.ld_unit_zero (S := S8192) hz1]

end Cases

/-! ## The body's arithmetic at an index, on the extended reals -/

/-- The dimension numbers of the body's product: rows × 1024 by 1024 × columns. -/
abbrev D : DotDims S8192x1024 S1024x64 S8192x64 := dot_S8192x1024_S1024x64_S8192x64_1_0_0_1_n_n

theorem D_rank : D.contr.rank = 1 := rfl
theorem D_size : D.contr.size ⟨0, by rw [D_rank]; exact Nat.one_pos⟩ = 1024 := rfl

/-- The contraction index of the product is its one coordinate. -/
abbrev κ : D.contr.Idx ≃ Fin 1024 := contrEquiv1 D 1024 D_rank D_size

theorem lhsIdx_eq (p : Fin 8192) (q : Fin 64) (k : Fin 1024) : D.lhsIdx (ix2 p q) (κ.symm k) = ix2 p k := by
  refine Shape.idx_ext₂ ?_ ?_
  · simp [DotDims.lhsIdx, D, dot_S8192x1024_S1024x64_S8192x64_1_0_0_1_n_n]; rfl
  · exact (D.lhsIdx_val_of_single (cl := 1) rfl (ix2 p q) (κ.symm k)).trans (contrEquiv1_symm_val D 1024 D_rank D_size k)

theorem rhsIdx_eq (p : Fin 8192) (q : Fin 64) (k : Fin 1024) : D.rhsIdx (ix2 p q) (κ.symm k) = ix2 k q := by
  refine Shape.idx_ext₂ ?_ ?_
  · exact (D.rhsIdx_val_of_single (cr := 0) rfl (ix2 p q) (κ.symm k)).trans (contrEquiv1_symm_val D 1024 D_rank D_size k)
  · simp [DotDims.rhsIdx, D, dot_S8192x1024_S1024x64_S8192x64_1_0_0_1_n_n]; rfl

/-- The node word of column `k` of node block `j`: `j · 1024 + k` in 32-bit arithmetic is the word of that number. -/
theorem word_eq (j k : Nat) : Scalar.muli (BitVec.ofNat 32 j) 1024#32 + BitVec.ofNat 32 k = BitVec.ofNat 32 (j * 1024 + k) := by
  show BitVec.ofNat 32 j * BitVec.ofNat 32 1024 + BitVec.ofNat 32 k = _
  rw [← BitVec.ofNat_mul, ← BitVec.ofNat_add]

/-- A comparison bit widened and converted is the indicator of equality. -/
theorem sitofp_eq_ind (a b : BitVec 32) :
    (FloatOps.sitofp (F := Ideal) .f32 ((IntOp.cmpi .eq a b).setWidth 32) : EReal) = Cert.Spec.ind a b := by
  unfold Cert.Spec.ind IntOp.cmpi
  by_cases h : a = b
  · subst h
    rw [if_pos rfl]
    show (((BitVec.setWidth 32 (BitVec.ofBool (a == a))).toInt : ℝ) : EReal) = 1
    rw [beq_self_eq_true, show (BitVec.setWidth 32 (BitVec.ofBool true)).toInt = 1 from by decide]
    simp
  · rw [if_neg h]
    show (((BitVec.setWidth 32 (BitVec.ofBool (a == b))).toInt : ℝ) : EReal) = 0
    rw [beq_false_of_ne h, show (BitVec.setWidth 32 (BitVec.ofBool false)).toInt = 0 from by decide]
    simp

/-- Entry `(p, k)` of the one-hot matrix the body builds from the source words `x0` and the node words `w + k`. -/
theorem onehot_apply (w : BitVec 32) (x0 : IVec S8192 32) (p : Fin 8192) (k : Fin 1024) :
    (truncf .bf16 (sitofp .f32 (extui 32 (cmpi .eq
        (broadcastTo S8192x1024 (shapeCast S8192x1 (shapeCast S8192 x0 shapeCasts_S8192_S8192) shapeCasts_S8192_S8192x1)
          broadcasts_S8192x1_S8192x1024)
        (broadcastTo S8192x1024 (addi (broadcast S1x1024 w) (iota .tc S1x1024 32 [1] iota_S1x1024_d1_w32))
          broadcasts_S1x1024_S8192x1024))
      natLt_1_32)) bitsLt_bf16_f32 : FVec Ideal S8192x1024 .bf16) (ix2 p k)
      = Cert.Spec.ind (x0 (ix1 p)) (w + BitVec.ofNat 32 k.val) := by
  have eA : broadcastTo S8192x1024 (shapeCast S8192x1 (shapeCast S8192 x0 shapeCasts_S8192_S8192) shapeCasts_S8192_S8192x1)
      broadcasts_S8192x1_S8192x1024 (ix2 p k) = x0 (ix1 p) := by
    refine (broadcastTo_apply _ _ (ix2 p k) (ix2 p (0 : Fin 1)) (fun a => ?_)).trans ?_
    · match a with
      | ⟨0, _⟩ => rfl
      | ⟨1, _⟩ => rfl
    · rw [shapeCast_self]
      refine shapeCast_apply x0 _ (ix2 p (0 : Fin 1)) (ix1 p) ?_
      rw [Shape.rowMajor_val_one, Shape.rowMajor_val_two]
      show p.val = p.val * 1 + 0
      omega
  have eB : broadcastTo S8192x1024 (addi (broadcast S1x1024 w) (iota .tc S1x1024 32 [1] iota_S1x1024_d1_w32))
      broadcasts_S1x1024_S8192x1024 (ix2 p k) = w + BitVec.ofNat 32 k.val := by
    refine (broadcastTo_apply _ _ (ix2 p k) (ix2 (0 : Fin 1) k) (fun a => ?_)).trans ?_
    · match a with
      | ⟨0, _⟩ => rfl
      | ⟨1, _⟩ => rfl
    · show IntOp.addi w (iota .tc S1x1024 32 [1] iota_S1x1024_d1_w32 (ix2 (0 : Fin 1) k)) = _
      rw [iota_single_apply]
      rfl
  show FloatOps.sitofp (F := Ideal) .f32 ((IntOp.cmpi .eq
      (broadcastTo S8192x1024 (shapeCast S8192x1 (shapeCast S8192 x0 shapeCasts_S8192_S8192) shapeCasts_S8192_S8192x1)
          broadcasts_S8192x1_S8192x1024 (ix2 p k))
      (broadcastTo S8192x1024 (addi (broadcast S1x1024 w) (iota .tc S1x1024 32 [1] iota_S1x1024_d1_w32))
          broadcasts_S1x1024_S8192x1024 (ix2 p k))).setWidth 32) = _
  rw [eA, eB]
  exact sitofp_eq_ind _ _

theorem pay2_apply (i : grid2.Coords) (x0 : Vec Ideal S8192 .i32) (x1 : Vec Ideal S1024x64 .f32) (acc : Vec Ideal S8192x64 .f32)
    (p : Fin 8192) (q : Fin 64) :
    k2_pay2 (F := Ideal) i x0 x1 acc (ix2 p q)
      = acc (ix2 p q) + ∑ k : Fin 1024, Cert.Spec.ind (x0 (ix1 p)) (BitVec.ofNat 32 ((i 1).val * 1024 + k.val)) * x1 (ix2 k q) := by
  unfold k2_pay2
  dsimp only
  refine (addf_apply _ _ (ix2 p q)).trans ?_
  rw [shapeCast_self]
  refine congrArg (acc (ix2 p q) + ·) ?_
  refine (Ideal.matmul_constant_zero_apply D none _ _ (ix2 p q)).trans ?_
  rw [← Equiv.sum_comp κ.symm]
  refine Finset.sum_congr rfl fun k _ => ?_
  rw [lhsIdx_eq, rhsIdx_eq, onehot_apply, word_eq]
  refine congrArg (fun z : EReal => Cert.Spec.ind (x0 (ix1 p)) (BitVec.ofNat 32 ((i 1).val * 1024 + k.val)) * z) ?_
  show shapeCast S1024x64 x1 shapeCasts_S1024x64_S1024x64 (ix2 k q) = x1 (ix2 k q)
  rw [shapeCast_self]

/-! ## The windows' blocks as rows of the arrays -/

section Region
variable (V : (c : Dev nD) → (b : Ref sig .tc) → Buf (Elt Ideal) ((c : Thread nD τ).loc b))

/-- The padded source words and the padded node features as the region finds them. -/
abbrev src (c : Dev nD) : (⟨1, ![1007616]⟩ : Shape).Idx → BitVec 32 := V c main_v6
abbrev feat (c : Dev nD) : (⟨2, ![100352, 64]⟩ : Shape).Idx → EReal := V c main_v50

/-- The two input blocks at a point, at their literal types. -/
abbrev sblk (c : Dev nD) (t : Fin cfg2.N) : Vec Ideal S8192 .i32 := iblk2 V c 0 t
abbrev yblk (c : Dev nD) (t : Fin cfg2.N) : Vec Ideal S1024x64 .f32 := iblk2 V c 1 t

/-- The printed index maps over the grid: point `t` is edge block `t / 98` and node block `t % 98`. -/
theorem idx_facts : ∀ t : Fin cfg2.N, win2_0.index t (0 : Fin 1) = t.val / 98
    ∧ win2_1.index t (0 : Fin 2) = t.val % 98 ∧ win2_1.index t (1 : Fin 2) = 0
    ∧ win2_2.index t (0 : Fin 2) = t.val / 98 ∧ win2_2.index t (1 : Fin 2) = 0
    ∧ ((grid2.coords t) 1).val = t.val % 98 :=
  (by decide +kernel : ∀ t : Fin grid2.N, _)

theorem sblk_apply (c : Dev nD) (t : Fin cfg2.N) (p : Fin 8192) (he : t.val / 98 * 8192 + p.val < 1007616) :
    sblk V c t (ix1 p) = src V c (ix1 ⟨t.val / 98 * 8192 + p.val, he⟩) := by
  obtain ⟨e0, -⟩ := idx_facts t
  unfold sblk iblk2
  rw [View.read_apply]
  show V c main_v6 _ = V c main_v6 _
  congr 1
  funext a
  apply Fin.ext
  match a with
  | ⟨0, _⟩ => show win2_0.index t (0 : Fin 1) * 8192 + 1 * p.val = t.val / 98 * 8192 + p.val; rw [e0]; omega

theorem yblk_apply (c : Dev nD) (t : Fin cfg2.N) (k : Fin 1024) (q : Fin 64) (hn : t.val % 98 * 1024 + k.val < 100352) :
    yblk V c t (ix2 k q) = feat V c (ix2 ⟨t.val % 98 * 1024 + k.val, hn⟩ q) := by
  obtain ⟨-, e0, e1, -⟩ := idx_facts t
  unfold yblk iblk2
  rw [View.read_apply]
  show V c main_v50 _ = V c main_v50 _
  congr 1
  funext a
  apply Fin.ext
  match a with
  | ⟨0, _⟩ => show win2_1.index t (0 : Fin 2) * 1024 + 1 * k.val = t.val % 98 * 1024 + k.val; rw [e0]; omega
  | ⟨1, _⟩ => show win2_1.index t (1 : Fin 2) * 64 + 1 * q.val = q.val; rw [e1]; omega

/-! ## The accumulation over the node blocks -/

/-- Node row `n`'s contribution to edge row `e`, column `f`: `[src e = word n] · y (n, f)`; zero outside the arrays. -/
def term (c : Dev nD) (e : ℕ) (f : Fin 64) (n : ℕ) : EReal :=
  if h : e < 1007616 ∧ n < 100352 then
    Cert.Spec.ind (src V c (ix1 ⟨e, h.1⟩)) (BitVec.ofNat 32 n) * feat V c (ix2 ⟨n, h.2⟩ f)
  else 0

/-- The zero rows the first node block starts from. -/
theorem zero_apply (j : S8192x64.Idx) : k2_pay1 (F := Ideal) j = 0 := by
  show Ideal.ofBits .f32 0x00000000#32 = 0
  exact Ideal.ofBits_zero_f32

/-- One point's body adds, onto whatever rows `acc` it finds, the 1024 contributions of its node block. -/
theorem step_apply (c : Dev nD) (t : Fin cfg2.N) (acc : Vec Ideal S8192x64 .f32) (p : Fin 8192) (q : Fin 64) :
    k2_pay2 (F := Ideal) (grid2.coords t) (sblk V c t) (yblk V c t) acc (ix2 p q)
      = acc (ix2 p q) + ∑ s ∈ Finset.range 1024, term V c (t.val / 98 * 8192 + p.val) q (t.val % 98 * 1024 + s) := by
  have hN : t.val < 12054 := lt_of_lt_of_eq t.isLt (show cfg2.N = 12054 from N_2)
  have he : t.val / 98 * 8192 + p.val < 1007616 := by have := p.isLt; omega
  obtain ⟨-, -, -, -, -, ej⟩ := idx_facts t
  refine (pay2_apply (grid2.coords t) (sblk V c t) (yblk V c t) acc p q).trans ?_
  refine congrArg (fun z : EReal => acc (ix2 p q) + z) ?_
  rw [← Fin.sum_univ_eq_sum_range (fun s => term V c (t.val / 98 * 8192 + p.val) q (t.val % 98 * 1024 + s)) 1024]
  refine Finset.sum_congr rfl fun k _ => ?_
  have hk : t.val % 98 * 1024 + k.val < 100352 := by have := k.isLt; omega
  rw [sblk_apply V c t p he, yblk_apply V c t k q hk, ej]
  unfold term
  rw [dif_pos ⟨he, hk⟩]

/-- At a first node block the running rows are that block's 1024 contributions. -/
theorem outsAt_first (c : Dev nD) (t : Fin cfg2.N) (h0 : t.val % 98 = 0) (p : Fin 8192) (q : Fin 64) :
    outsAt2 V c t.val t.isLt (ix2 p q) = ∑ s ∈ Finset.range 1024, term V c (t.val / 98 * 8192 + p.val) q s := by
  rw [outsAt2_A V c t h0,
    out_A c (grid2.coords t) (ms2_0 t) (hs2_0 t) (ms2_1 t) (hs2_1 t) (ms2_2 t) (hs2_2 t) ((hcond2_0 t).mpr h0) (iblk2 V c 0 t) (iblk2 V c 1 t)]
  refine (step_apply V c t (k2_pay1 (F := Ideal)) p q).trans ?_
  rw [zero_apply, zero_add, h0]
  simp only [Nat.zero_mul, Nat.zero_add]

/-- THE INVARIANT. After point `n` (edge block `n / 98`, node block `n % 98`) the running rows hold the contributions of
    the node rows below `1024 · (n % 98 + 1)`. -/
theorem outsAt_apply (c : Dev nD) (n : ℕ) : ∀ (h : n < cfg2.N) (p : Fin 8192) (q : Fin 64),
    outsAt2 V c n h (ix2 p q) = ∑ s ∈ Finset.range ((n % 98 + 1) * 1024), term V c (n / 98 * 8192 + p.val) q s := by
  induction n with
  | zero => intro h p q; exact outsAt_first V c ⟨0, h⟩ rfl p q
  | succ n ih =>
    intro h p q
    by_cases h0 : (n + 1) % 98 = 0
    · rw [h0]
      exact outsAt_first V c ⟨n + 1, h⟩ h0 p q
    · have hd : n / 98 = (n + 1) / 98 := by omega
      have hm : n % 98 + 1 = (n + 1) % 98 := by omega
      rw [outsAt2_B V c ⟨n + 1, h⟩ h0]
      dsimp only
      rw [out_B c (grid2.coords ⟨n + 1, h⟩) (ms2_0 ⟨n + 1, h⟩) (hs2_0 ⟨n + 1, h⟩) (ms2_1 ⟨n + 1, h⟩) (hs2_1 ⟨n + 1, h⟩)
        (ms2_2 ⟨n + 1, h⟩) (hs2_2 ⟨n + 1, h⟩) (fun hc => h0 ((hcond2_0 ⟨n + 1, h⟩).mp hc)) (iblk2 V c 0 ⟨n + 1, h⟩) (iblk2 V c 1 ⟨n + 1, h⟩)]
      refine (step_apply V c ⟨n + 1, h⟩ (outsAt2 V c n (Nat.lt_of_succ_lt h)) p q).trans ?_
      show outsAt2 V c n _ (ix2 p q) + ∑ s ∈ Finset.range 1024, term V c ((n + 1) / 98 * 8192 + p.val) q ((n + 1) % 98 * 1024 + s) = _
      rw [ih (Nat.lt_of_succ_lt h) p q, hd, hm]
      generalize (n + 1) % 98 = J
      rw [Nat.add_mul, Nat.one_mul, Finset.sum_range_add]

/-! ## The write-back, the cover, the array -/

/-- A point's output block, read off any contents `G` of the array, at row `p`: row `8192 · (t / 98) + p` of `G`. -/
theorem read_out_blk (t : Fin cfg2.N) (p : Fin 8192) (q : Fin 64) (he : t.val / 98 * 8192 + p.val < 1007616)
    (G : (⟨2, ![1007616, 64]⟩ : Shape).Idx → EReal) :
    ((cfg2.win 2).blk t).view.read (Elt Ideal) G (ix2 p q) = G (ix2 ⟨t.val / 98 * 8192 + p.val, he⟩ q) := by
  obtain ⟨-, -, -, e0, e1, -⟩ := idx_facts t
  rw [View.read_apply]
  refine (cast_eq _ _).trans (congrArg G ?_)
  funext a
  apply Fin.ext
  match a with
  | ⟨0, _⟩ => show win2_2.index t (0 : Fin 2) * 8192 + 1 * p.val = t.val / 98 * 8192 + p.val; rw [e0]; omega
  | ⟨1, _⟩ => show win2_2.index t (1 : Fin 2) * 64 + 1 * q.val = q.val; rw [e1]; omega

/-- The one-hot sum at an entry named by its coordinates. -/
theorem pick_apply (s : (⟨1, ![1007616]⟩ : Shape).Idx → BitVec 32) (y : (⟨2, ![100352, 64]⟩ : Shape).Idx → EReal)
    (e : Fin 1007616) (f : Fin 64) :
    Cert.Spec.pick (E := 1007616) (K := 100352) (C := 64) s y (ix2 e f)
      = ∑ n : Fin 100352, Cert.Spec.ind (s (ix1 e)) (BitVec.ofNat 32 n.val) * y (ix2 n f) := rfl

/-- What a point writes back — it is a last node block — is its edge block of the one-hot sums over ALL node rows: all 98
    node blocks are in. -/
theorem flushed_eq (c : Dev nD) (t : Fin cfg2.N) (hf : (cfg2.win 2).flush t = true) :
    (dat2 V c).flushed 2 t = ((cfg2.win 2).blk t).view.read (Elt Ideal)
      (Cert.Spec.pick (E := 1007616) (K := 100352) (C := 64) (V c main_v6) (V c main_v50)) := by
  have hN : t.val < 12054 := lt_of_lt_of_eq t.isLt (show cfg2.N = 12054 from N_2)
  have h97 : t.val % 98 = 97 := (flush2_2 t).mp hf
  show (cfg2.win 2).cut (grid2.coords t) ((dat2 V c).after 2 t) = _
  rw [after2_2]
  funext j
  obtain ⟨p, q, rfl⟩ : ∃ (p : Fin 8192) (q : Fin 64), j = ix2 p q := ⟨j 0, j 1, eq_ix2 j⟩
  have he : t.val / 98 * 8192 + p.val < 1007616 := by have := p.isLt; omega
  refine Eq.trans ?_ (read_out_blk t p q he _).symm
  refine Eq.trans ?_ (pick_apply (V c main_v6) (V c main_v50) ⟨t.val / 98 * 8192 + p.val, he⟩ q).symm
  show outsAt2 V c t.val t.isLt (ix2 p q) = _
  rw [outsAt_apply V c t.val t.isLt p q, h97, show ((97 : ℕ) + 1) * 1024 = 100352 from rfl, Finset.sum_range]
  refine Finset.sum_congr rfl fun n _ => ?_
  unfold term
  rw [dif_pos ⟨he, n.isLt⟩]

/-- Every row of the array is in the block some last node block's point writes back. -/
theorem cover (i : S1007616x64.Idx) :
    ∃ t : Fin cfg2.N, (cfg2.win 2).flush t = true ∧ i ∈ ((cfg2.win 2).blk t).view.set := by
  have hi0 : (i 0).val < 1007616 := idx2_lt0 i
  have hi1 : (i 1).val < 64 := idx2_lt1 i
  have hN : cfg2.N = 12054 := N_2
  have ht : (i 0).val / 8192 * 98 + 97 < cfg2.N := by rw [hN]; omega
  obtain ⟨-, -, -, e0, e1, -⟩ := idx_facts ⟨(i 0).val / 8192 * 98 + 97, ht⟩
  have e0' : win2_2.index ⟨(i 0).val / 8192 * 98 + 97, ht⟩ (0 : Fin 2) = (i 0).val / 8192 := by rw [e0]; dsimp only; omega
  refine ⟨⟨(i 0).val / 8192 * 98 + 97, ht⟩, (flush2_2 _).mpr (by dsimp only; omega), ?_⟩
  show i ∈ ((View.whole main_v51).slice (win2_2.rect ⟨(i 0).val / 8192 * 98 + 97, ht⟩)).set
  rw [View.set_slice_whole, Rect.mem_set_unit]
  intro a
  match a with
  | ⟨0, _⟩ =>
    show win2_2.index ⟨(i 0).val / 8192 * 98 + 97, ht⟩ (0 : Fin 2) * 8192 ≤ (i 0).val
      ∧ (i 0).val < win2_2.index ⟨(i 0).val / 8192 * 98 + 97, ht⟩ (0 : Fin 2) * 8192 + 8192
    rw [e0']; omega
  | ⟨1, _⟩ =>
    show win2_2.index ⟨(i 0).val / 8192 * 98 + 97, ht⟩ (1 : Fin 2) * 64 ≤ (i 1).val
      ∧ (i 1).val < win2_2.index ⟨(i 0).val / 8192 * 98 + 97, ht⟩ (1 : Fin 2) * 64 + 64
    rw [e1]; omega

end Region

/-- Region 2's output array (window 2, the buffer of %51) after all 12054 points. -/
theorem arr_eq (V : (c : Dev nD) → (b : Ref sig .tc) → Buf (Elt Ideal) ((c : Thread nD τ).loc b)) (c : Dev nD) :
    (dat2 (F := Ideal) V c).arrAt 2 cfg2.N
      = Cert.Spec.pick (E := 1007616) (K := 100352) (C := 64) (V c main_v6) (V c main_v50) :=
  (dat2 (F := Ideal) V c).arrAt_eq_of_cover 2 _ (flushed_eq V c) cover

end Cert.KernelIdeal.GatherB

end
-- ==== Proof.ScatterB.lean ====
/-
  The second scatter region: its result array, after the run from any entry contents `V`, holds at `(n, r·64 + f)` the sum over
  ALL edge rows `e` of `[word n = dst e] · (xs e f · [type e = word r])` (`Cert.Spec.spread`), the 123 edge blocks of 8192 rows
  added in grid order.
-/
import proofs.«420490_j128849019287_1_alg».proof.Defs
import proofs.«420490_j128849019287_1_alg».proof.Proof.Gen.KernelIdeal.Frame
import proofs.«420490_j128849019287_1_alg».proof.Proof.Spec
import Idealize.ShloMosaic.Lib.Pipeline.Value
import Idealize.ShloMosaic.Lib.WritesUnit
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.Tactic Idealize.ShloMosaic.ValueIdx

namespace Cert.KernelIdeal.ScatterB

open Cert.KernelIdeal Cert.KernelIdeal.Gen Cert.Spec

/-! ## Words -/

/-- The float of a zero-extended equality bit is the indicator of the equality. -/
theorem sitofp_eq_ind (x y : BitVec 32) :
    FloatOps.sitofp (F := Ideal) .f32 ((IntOp.cmpi .eq x y).setWidth 32) = ind x y := by
  show ((((IntOp.cmpi .eq x y).setWidth 32).toInt : ℝ) : EReal) = ind x y
  unfold IntOp.cmpi ind
  by_cases h : x = y
  · subst h; simp
  · have hb : (x == y) = false := beq_eq_false_iff_ne.mpr h
    simp [h, hb]

/-- Row `n` of node block `a` has the word of `a·1024 + n`: the product and the sum are taken modulo `2^32` on both sides. -/
theorem node_word (a n : ℕ) :
    IntOp.addi (Scalar.muli (BitVec.ofNat 32 a) 1024#32) (BitVec.ofNat 32 n) = BitVec.ofNat 32 (a * 1024 + n) := by
  show BitVec.ofNat 32 a * BitVec.ofNat 32 1024 + BitVec.ofNat 32 n = _
  rw [← BitVec.ofNat_mul, ← BitVec.ofNat_add]

/-! ## The payloads at an index -/

/-- The one-hot matrix of a point: entry `(n, e)` is `1` where the block's destination word `e` is node `a·1024 + n`'s. -/
theorem pay3_apply (i : grid3.Coords) (v7 : Vec Ideal S8192 .i32) (n : Fin 1024) (e : Fin 8192) :
    k3_pay3 (F := Ideal) i v7 (ix2 n e) = ind (BitVec.ofNat 32 ((i 0).val * 1024 + n.val)) (v7 (ix1 e)) := by
  unfold k3_pay3
  simp only [truncf_apply, sitofp_apply, extui_apply]
  refine Eq.trans ?_ (sitofp_eq_ind _ _)
  refine congrArg (fun b => FloatOps.sitofp (F := Ideal) FTy.f32 (BitVec.setWidth 32 b)) ?_
  show IntOp.cmpi .eq _ _ = IntOp.cmpi .eq _ _
  refine congrArg₂ (IntOp.cmpi .eq) ?_ ?_
  · refine (broadcastTo_apply _ _ (ix2 n e) (ix2 n (0 : Fin 1)) ?_).trans ?_
    · intro a; match a with | ⟨0, _⟩ => rfl | ⟨1, _⟩ => rfl
    · show IntOp.addi _ (iota .tc S1024x1 32 [0] _ (ix2 n 0)) = _
      rw [iota_single_apply]; exact node_word _ _
  · refine (broadcastTo_apply _ _ (ix2 n e) (ix2 (0 : Fin 1) e) ?_).trans ?_
    · intro a; match a with | ⟨0, _⟩ => rfl | ⟨1, _⟩ => rfl
    · refine (shapeCast_apply _ _ (ix2 (0 : Fin 1) e) (ix1 e) ?_).trans ?_
      · rw [Shape.rowMajor_val_one, Shape.rowMajor_val_two]; show e.val = 0 * 8192 + e.val; omega
      · exact congrFun (shapeCast_self _ _) _

/-- The gathered rows, cast to the product's format: themselves. -/
theorem pay4_apply (v16 : Vec Ideal S8192x64 .f32) (j : S8192x64.Idx) : k3_pay4 (F := Ideal) v16 j = v16 j := by
  unfold k3_pay4
  exact congrFun (shapeCast_self _ _) _

/-- The type words as a column. -/
theorem pay5_apply (v19 : Vec Ideal S8192 .i32) (e : Fin 8192) : k3_pay5 (F := Ideal) v19 (ix2 e (0 : Fin 1)) = v19 (ix1 e) := by
  unfold k3_pay5
  refine (shapeCast_apply _ _ (ix2 e (0 : Fin 1)) (ix1 e) ?_).trans ?_
  · rw [Shape.rowMajor_val_one, Shape.rowMajor_val_two]; show e.val = e.val * 1 + 0; omega
  · exact congrFun (shapeCast_self _ _) _

/-- The rows of one relation: row `e` times the indicator that its type word is `r`. -/
theorem masked_apply (v16 : Vec Ideal S8192x64 .f32) (v19 : Vec Ideal S8192 .i32) (r : BitVec 32) (e : Fin 8192) (f : Fin 64) :
    mulf (k3_pay4 (F := Ideal) v16)
        (broadcastTo S8192x64 (truncf .bf16 (sitofp .f32 (extui 32 (cmpi .eq (k3_pay5 (F := Ideal) v19) (broadcast S8192x1 r)) natLt_1_32)) bitsLt_bf16_f32)
          broadcasts_S8192x1_S8192x64) (ix2 e f)
      = v16 (ix2 e f) * ind (v19 (ix1 e)) r := by
  rw [mulf_apply, pay4_apply]
  refine congrArg (v16 (ix2 e f) * ·) ?_
  refine (broadcastTo_apply _ _ (ix2 e f) (ix2 e (0 : Fin 1)) ?_).trans ?_
  · intro a; match a with | ⟨0, _⟩ => rfl | ⟨1, _⟩ => rfl
  · rw [truncf_apply, sitofp_apply, extui_apply]
    show FloatOps.sitofp (F := Ideal) .f32 (BitVec.setWidth 32 (IntOp.cmpi .eq (k3_pay5 (F := Ideal) v19 (ix2 e (0 : Fin 1))) r)) = _
    rw [pay5_apply, sitofp_eq_ind]

theorem pay7_apply (v16 : Vec Ideal S8192x64 .f32) (v19 : Vec Ideal S8192 .i32) (e : Fin 8192) (f : Fin 64) :
    k3_pay7 (F := Ideal) v16 v19 (ix2 e f) = v16 (ix2 e f) * ind (v19 (ix1 e)) 1#32 := by
  unfold k3_pay7
  exact masked_apply v16 v19 1#32 e f

/-- The product into a zero accumulator: entry `(n, f)` sums, over the 8192 rows of the block, the one-hot entry times the
    masked row. -/
theorem dot_apply (A : FVec Ideal S1024x8192 .bf16) (B : FVec Ideal S8192x64 .bf16) (n : Fin 1024) (f : Fin 64) :
    matmul dot_S1024x8192_S8192x64_S1024x64_1_0_0_1_n_n none A B (constant S1024x64 .f32 0x00000000#32) (ix2 n f)
      = ∑ e : Fin 8192, A (ix2 n e) * B (ix2 e f) := by
  refine (Ideal.matmul_constant_zero_apply _ none A B (ix2 n f)).trans ?_
  rw [← Equiv.sum_comp (contrEquiv1 dot_S1024x8192_S8192x64_S1024x64_1_0_0_1_n_n 8192 rfl rfl).symm]
  refine Finset.sum_congr rfl fun e _ => ?_
  have ce := contrEquiv1_symm_val dot_S1024x8192_S8192x64_S1024x64_1_0_0_1_n_n 8192 rfl rfl e
  have hl : dot_S1024x8192_S8192x64_S1024x64_1_0_0_1_n_n.lhsIdx (ix2 n f)
      ((contrEquiv1 dot_S1024x8192_S8192x64_S1024x64_1_0_0_1_n_n 8192 rfl rfl).symm e) = ix2 n e := by
    funext ax; apply Fin.ext
    match ax with
    | ⟨0, _⟩ => simp [DotDims.lhsIdx, dot_S1024x8192_S8192x64_S1024x64_1_0_0_1_n_n]; rfl
    | ⟨1, _⟩ => simp [DotDims.lhsIdx, dot_S1024x8192_S8192x64_S1024x64_1_0_0_1_n_n]; exact ce
  have hr : dot_S1024x8192_S8192x64_S1024x64_1_0_0_1_n_n.rhsIdx (ix2 n f)
      ((contrEquiv1 dot_S1024x8192_S8192x64_S1024x64_1_0_0_1_n_n 8192 rfl rfl).symm e) = ix2 e f := by
    funext ax; apply Fin.ext
    match ax with
    | ⟨0, _⟩ => simp [DotDims.rhsIdx, dot_S1024x8192_S8192x64_S1024x64_1_0_0_1_n_n]; exact ce
    | ⟨1, _⟩ => simp [DotDims.rhsIdx, dot_S1024x8192_S8192x64_S1024x64_1_0_0_1_n_n]; rfl
  rw [hl, hr]

/-- What one edge block adds at row `n` of node block `a`, feature column `f` of the relation whose word is `r`: the sum over the
    block's 8192 rows `e` of `[word (a·1024 + n) = dst e] · (xs e f · [type e = r])`. -/
def contrib (a : ℕ) (xs : Vec Ideal S8192x64 .f32) (d ty : Vec Ideal S8192 .i32) (n : Fin 1024) (f : Fin 64) (r : BitVec 32) : EReal :=
  ∑ e : Fin 8192, ind (BitVec.ofNat 32 (a * 1024 + n.val)) (d (ix1 e)) * (xs (ix2 e f) * ind (ty (ix1 e)) r)

/-- The update of relation 0's columns: what was loaded plus the block's contribution. -/
theorem pay6_apply (i : grid3.Coords) (v7 : Vec Ideal S8192 .i32) (v16 : Vec Ideal S8192x64 .f32) (v19 : Vec Ideal S8192 .i32)
    (v30 : Vec Ideal S1024x64 .f32) (n : Fin 1024) (f : Fin 64) :
    k3_pay6 (F := Ideal) i v7 v16 v19 v30 (ix2 n f)
      = v30 (ix2 n f) + contrib (i 0).val v16 v7 v19 n f 0#32 := by
  unfold k3_pay6 contrib
  dsimp only
  rw [addf_apply]
  refine congrArg₂ (· + ·) (congrFun (shapeCast_self _ _) _) ?_
  refine (dot_apply _ _ n f).trans ?_
  refine Finset.sum_congr rfl fun e _ => ?_
  rw [pay3_apply, masked_apply]

/-- The update of relation 1's columns, over the one-hot matrix and the masked rows the first part hands on. -/
theorem pay1_apply (i : grid3.Coords) (v7 : Vec Ideal S8192 .i32) (v16 : Vec Ideal S8192x64 .f32) (v19 : Vec Ideal S8192 .i32)
    (v42 : Vec Ideal S1024x64 .f32) (n : Fin 1024) (f : Fin 64) :
    k3_pay1 (F := Ideal) (k3_pay3 (F := Ideal) i v7) (k3_pay7 (F := Ideal) v16 v19) (constant S1024x64 .f32 0x00000000#32) v42 (ix2 n f)
      = v42 (ix2 n f) + contrib (i 0).val v16 v7 v19 n f 1#32 := by
  unfold k3_pay1 contrib
  dsimp only
  rw [addf_apply]
  refine congrArg₂ (· + ·) (congrFun (shapeCast_self _ _) _) ?_
  refine (dot_apply _ _ n f).trans ?_
  refine Finset.sum_congr rfl fun e _ => ?_
  rw [pay3_apply, pay7_apply]

/-- The reset's payload is the zero block. -/
theorem pay2_apply (y : S1024x128.Idx) : k3_pay2 (F := Ideal) y = 0 := by
  unfold k3_pay2
  exact Ideal.ofBits_zero_f32

/-! ## A block written as two halves

The body's last two stores write columns `[64, 128)` and then (earlier) columns `[0, 64)` of the `[1024, 128]` block: whatever
was stored before them, an entry of the block reads the payload of the half its column lies in. -/

section Halves
variable {sg : RefSig} {κ : Kind} {sp : Space} (v : View sg κ sp S1024x128 .f32) (g : v.ty.Contents (Elt Ideal))
  (inb1 : ∀ a, (![0, 64] : Fin 2 → ℕ) a + (![1024, 64] : Fin 2 → ℕ) a ≤ S1024x128.size a)
  (inb0 : ∀ a, (![0, 0] : Fin 2 → ℕ) a + (![1024, 64] : Fin 2 → ℕ) a ≤ S1024x128.size a)
  (w1 : (Rect.unit (s := S1024x128) ![0, 64] ![1024, 64] inb1).shape.Idx → Elt Ideal .f32)
  (w0 : (Rect.unit (s := S1024x128) ![0, 0] ![1024, 64] inb0).shape.Idx → Elt Ideal .f32)
  (L : List (View.Piece (Elt Ideal) S1024x128 .f32)) (n : Fin 1024) (col : Fin 128)

theorem read_low (h : col.val < 64) :
    v.read (Elt Ideal) (v.writes (Elt Ideal) g (⟨Rect.unit ![0, 64] ![1024, 64] inb1, w1⟩ :: ⟨Rect.unit ![0, 0] ![1024, 64] inb0, w0⟩ :: L)) (ix2 n col)
      = w0 (ix2 n (⟨col.val, h⟩ : Fin 64)) :=
  (View.read_writes_cons_unit_of_not_mem v g inb1 w1 _ (ix2 n col) rfl 1 (Or.inl h)).trans
    (View.read_writes_cons_unit_of_mem v g inb0 w0 L (ix2 n col) (ix2 n (⟨col.val, h⟩ : Fin 64)) rfl
      (fun a => match a with | ⟨0, _⟩ => (Nat.zero_add _).symm | ⟨1, _⟩ => (Nat.zero_add _).symm))

theorem read_high (h : ¬col.val < 64) :
    v.read (Elt Ideal) (v.writes (Elt Ideal) g (⟨Rect.unit ![0, 64] ![1024, 64] inb1, w1⟩ :: ⟨Rect.unit ![0, 0] ![1024, 64] inb0, w0⟩ :: L)) (ix2 n col)
      = w1 (ix2 n (⟨col.val - 64, by have := col.isLt; omega⟩ : Fin 64)) :=
  View.read_writes_cons_unit_of_mem v g inb1 w1 _ (ix2 n col) (ix2 n (⟨col.val - 64, by have := col.isLt; omega⟩ : Fin 64)) rfl
    (fun a => match a with
      | ⟨0, _⟩ => (Nat.zero_add _).symm
      | ⟨1, _⟩ => by show col.val = 64 + (col.val - 64); omega)

end Halves

/-! ## What a point leaves in the block -/

/-- One point's step on the `[1024, 128]` block of node block `a`: entry `(n, col)` gains the edge block's contribution to
    feature column `col mod 64` of relation `col / 64`. -/
def stepv (a : ℕ) (xs : Vec Ideal S8192x64 .f32) (d ty : Vec Ideal S8192 .i32) (acc : Vec Ideal S1024x128 .f32) :
    Vec Ideal S1024x128 .f32 :=
  fun y => acc y + contrib a xs d ty (y 0) (⟨(y 1).val % 64, Nat.mod_lt _ (by decide)⟩ : Fin 64) (BitVec.ofNat 32 ((y 1).val / 64))

theorem hz1 : (![0] : Fin 1 → ℕ) = fun _ => 0 := funext fun a => by fin_cases a; rfl
theorem hz2 : (![0, 0] : Fin 2 → ℕ) = fun _ => 0 := funext fun a => by fin_cases a <;> rfl

/-- Column `col < 64` is feature column `col` of relation 0; -/
theorem contrib_low (a : ℕ) (xs : Vec Ideal S8192x64 .f32) (d ty : Vec Ideal S8192 .i32) (n : Fin 1024) (col : Fin 128) (h : col.val < 64) :
    contrib a xs d ty n (⟨col.val, h⟩ : Fin 64) 0#32
      = contrib a xs d ty n (⟨col.val % 64, Nat.mod_lt _ (by decide)⟩ : Fin 64) (BitVec.ofNat 32 (col.val / 64)) :=
  congrArg₂ (contrib a xs d ty n) (Fin.ext (Nat.mod_eq_of_lt h).symm) (by rw [Nat.div_eq_of_lt h])

/-- column `col ≥ 64` is feature column `col - 64` of relation 1. -/
theorem contrib_high (a : ℕ) (xs : Vec Ideal S8192x64 .f32) (d ty : Vec Ideal S8192 .i32) (n : Fin 1024) (col : Fin 128) (h : ¬col.val < 64) :
    contrib a xs d ty n (⟨col.val - 64, by have := col.isLt; omega⟩ : Fin 64) 1#32
      = contrib a xs d ty n (⟨col.val % 64, Nat.mod_lt _ (by decide)⟩ : Fin 64) (BitVec.ofNat 32 (col.val / 64)) :=
  congrArg₂ (contrib a xs d ty n) (Fin.ext (by show col.val - 64 = col.val % 64; have := col.isLt; omega))
    (by rw [show col.val / 64 = 1 from by have := col.isLt; omega])

/-- AWAY FROM THE FIRST EDGE BLOCK the body leaves, in the block holding `xo`, `xo` plus the edge block's contributions: each
    half's store adds to what a load of that half read, and the second half's load comes after the first half's store
    only, which leaves it alone. -/
theorem out_B (c : Dev nD) (i : grid3.Coords) (a2 : Memref sig .tc .vmem S8192x64 .f32) (h2 : a2.IsWhole)
    (a3 : Memref sig .tc .vmem S8192 .i32) (h3 : a3.IsWhole) (a4 : Memref sig .tc .vmem S8192 .i32) (h4 : a4.IsWhole)
    (a5 : Memref sig .tc .vmem S1024x128 .f32) (h5 : a5.IsWhole) (hc : ¬cond3_0 i)
    (x0 : Vec Ideal S8192x64 .f32) (x1 : Vec Ideal S8192 .i32) (x2 : Vec Ideal S8192 .i32) (xo : Vec Ideal S1024x128 .f32) :
    out3_B_3 (F := Ideal) c i a2 h2 a3 h3 a4 h4 a5 h5 hc x0 x1 x2 xo = stepv (i 0).val x0 x1 x2 xo := by
  funext y
  obtain ⟨n, col, rfl⟩ : ∃ (n : Fin 1024) (col : Fin 128), y = ix2 n col := ⟨y 0, y 1, eq_ix2 y⟩
  unfold out3_B_3 kernelRun3_B
  dsimp only
  sl_unfold_words
  simp only [View.readAt_eq_ld, h2.read_unread, h3.read_unread, h4.read_unread, h5.read_unread,
    View.ld_unit_zero (S := S8192) hz1, View.ld_unit_zero (S := S8192x64) hz2]
  by_cases h : col.val < 64
  · refine (read_low VO3_3 _ _ _ _ _ _ n col h).trans ?_
    refine (pay6_apply i x1 x0 x2 _ n ⟨col.val, h⟩).trans ?_
    refine congrArg₂ (· + ·) ?_ (contrib_low _ _ _ _ n col h)
    exact congrArg xo (funext fun a => Fin.ext (match a with
      | ⟨0, _⟩ => by show 0 + 1 * n.val = n.val; omega
      | ⟨1, _⟩ => by show 0 + 1 * col.val = col.val; omega))
  · refine (read_high VO3_3 _ _ _ _ _ _ n col h).trans ?_
    refine (pay1_apply i x1 x0 x2 _ n ⟨col.val - 64, by have := col.isLt; omega⟩).trans ?_
    refine congrArg₂ (· + ·) ?_ (contrib_high _ _ _ _ n col h)
    exact congrArg xo (funext fun a => Fin.ext (match a with
      | ⟨0, _⟩ => by show 0 + 1 * n.val = n.val; omega
      | ⟨1, _⟩ => by show 64 + 1 * (col.val - 64) = col.val; omega))

/-- A load of the first half after the reset alone reads zeros; -/
theorem readCov_reset_low {sg : RefSig} {κ : Kind} {sp : Space} (v : View sg κ sp S1024x128 .f32)
    (inbw : ∀ a, (![0, 0] : Fin 2 → ℕ) a + S1024x128.size a ≤ S1024x128.size a)
    (inb0 : ∀ a, (![0, 0] : Fin 2 → ℕ) a + S1024x64.size a ≤ S1024x128.size a) (j : S1024x64.Idx) :
    v.readCov [(⟨Rect.unit ![0, 0] S1024x128.size inbw, k3_pay2 (F := Ideal)⟩ : View.Piece (Elt Ideal) S1024x128 .f32)]
      (Rect.unit (s := S1024x128) ![0, 0] S1024x64.size inb0).toLoadRect j = 0 := by
  rw [View.readCov_eq_canon', View.canon_unit_zero hz2]
  exact pay2_apply _

/-- a load of the second half after the reset and the first half's store reads zeros too: that store does not reach it. -/
theorem readCov_reset_high {sg : RefSig} {κ : Kind} {sp : Space} (v : View sg κ sp S1024x128 .f32)
    (inbw : ∀ a, (![0, 0] : Fin 2 → ℕ) a + S1024x128.size a ≤ S1024x128.size a)
    (inb0 : ∀ a, (![0, 0] : Fin 2 → ℕ) a + S1024x64.size a ≤ S1024x128.size a)
    (inb1 : ∀ a, (![0, 64] : Fin 2 → ℕ) a + (![1024, 64] : Fin 2 → ℕ) a ≤ S1024x128.size a)
    (w0 : (Rect.unit (s := S1024x128) ![0, 0] S1024x64.size inb0).shape.Idx → Elt Ideal .f32) (j : S1024x64.Idx) :
    v.readCov [(⟨Rect.unit ![0, 0] S1024x64.size inb0, w0⟩ : View.Piece (Elt Ideal) S1024x128 .f32),
        ⟨Rect.unit ![0, 0] S1024x128.size inbw, k3_pay2 (F := Ideal)⟩]
      (Rect.unit (s := S1024x128) ![0, 64] ![1024, 64] inb1).toLoadRect j = 0 := by
  rw [View.readCov_eq_canon']
  show View.canon _ ((Rect.unit (s := S1024x128) ![0, 64] ![1024, 64] inb1).toLoadRect.idx j) = 0
  rw [View.canon_cons_of_not_mem _ _ (by
    rw [Rect.mem_set_unit]
    intro hh
    have := (hh 1).2
    have e : (((Rect.unit (s := S1024x128) ![0, 64] ![1024, 64] inb1).toLoadRect.idx j) 1).val = 64 + 1 * (j 1).val := rfl
    rw [e] at this
    have h32 : (![0, 0] : Fin 2 → ℕ) 1 + S1024x64.size 1 = 64 := rfl
    omega), View.canon_unit_zero hz2]
  exact pay2_apply _

/-- AT THE FIRST EDGE BLOCK of a node block the body zeroes the block first: it leaves the edge block's contributions
    alone. -/
theorem out_A (c : Dev nD) (i : grid3.Coords) (a2 : Memref sig .tc .vmem S8192x64 .f32) (h2 : a2.IsWhole)
    (a3 : Memref sig .tc .vmem S8192 .i32) (h3 : a3.IsWhole) (a4 : Memref sig .tc .vmem S8192 .i32) (h4 : a4.IsWhole)
    (a5 : Memref sig .tc .vmem S1024x128 .f32) (h5 : a5.IsWhole) (hc : cond3_0 i)
    (x0 : Vec Ideal S8192x64 .f32) (x1 : Vec Ideal S8192 .i32) (x2 : Vec Ideal S8192 .i32) :
    out3_A_3 (F := Ideal) c i a2 h2 a3 h3 a4 h4 a5 h5 hc x0 x1 x2 = stepv (i 0).val x0 x1 x2 (fun _ => 0) := by
  funext y
  obtain ⟨n, col, rfl⟩ : ∃ (n : Fin 1024) (col : Fin 128), y = ix2 n col := ⟨y 0, y 1, eq_ix2 y⟩
  unfold out3_A_3 kernelRun3_A
  dsimp only
  sl_unfold_words
  simp only [View.readAt_eq_ld, h2.read_unread, h3.read_unread, h4.read_unread,
    View.ld_unit_zero (S := S8192) hz1, View.ld_unit_zero (S := S8192x64) hz2]
  by_cases h : col.val < 64
  · refine (read_low VO3_3 _ _ _ _ _ _ n col h).trans ?_
    refine (pay6_apply i x1 x0 x2 _ n ⟨col.val, h⟩).trans ?_
    exact congrArg₂ (· + ·) (readCov_reset_low _ _ _ _) (contrib_low _ _ _ _ n col h)
  · refine (read_high VO3_3 _ _ _ _ _ _ n col h).trans ?_
    refine (pay1_apply i x1 x0 x2 _ n ⟨col.val - 64, by have := col.isLt; omega⟩).trans ?_
    exact congrArg₂ (· + ·) (readCov_reset_high _ _ _ _ _ _) (contrib_high _ _ _ _ n col h)

/-! ## The grid's index maps, decided once -/

/-- Point `t` is node block `t / 123`, edge block `t mod 123`: the three inputs' windows sit at edge block `t mod 123`, the
    output's at node block `t / 123`. -/
theorem idx_facts : ∀ t : Fin cfg3.N,
    (grid3.coords t 0).val = t.val / 123
    ∧ win3_0.index t (0 : Fin 2) = t.val % 123 ∧ win3_0.index t (1 : Fin 2) = 0
    ∧ win3_1.index t (0 : Fin 1) = t.val % 123
    ∧ win3_2.index t (0 : Fin 1) = t.val % 123
    ∧ win3_3.index t (0 : Fin 2) = t.val / 123 ∧ win3_3.index t (1 : Fin 2) = 0 :=
  (by decide +kernel : ∀ t : Fin grid3.N,
    (grid3.coords t 0).val = t.val / 123
    ∧ win3_0.index t (0 : Fin 2) = t.val % 123 ∧ win3_0.index t (1 : Fin 2) = 0
    ∧ win3_1.index t (0 : Fin 1) = t.val % 123
    ∧ win3_2.index t (0 : Fin 1) = t.val % 123
    ∧ win3_3.index t (0 : Fin 2) = t.val / 123 ∧ win3_3.index t (1 : Fin 2) = 0)

/-! ## The arrays and their blocks -/

section Arrays
variable (V : (c : Dev nD) → (b : Ref sig .tc) → Buf (Elt Ideal) ((c : Thread nD τ).loc b)) (c : Dev nD)

/-- The gathered rows, the destination words and the type words as the region finds them. -/
abbrev xsA : Vec Ideal S1007616x64 .f32 := V c main_v51
abbrev dA : Vec Ideal S1007616 .i32 := V c main_v7
abbrev tyA : Vec Ideal S1007616 .i32 := V c main_v8
/-- Their blocks at a point. -/
abbrev xb (t : Fin cfg3.N) : Vec Ideal S8192x64 .f32 := iblk3 (F := Ideal) V c 0 t
abbrev db (t : Fin cfg3.N) : Vec Ideal S8192 .i32 := iblk3 (F := Ideal) V c 1 t
abbrev tb (t : Fin cfg3.N) : Vec Ideal S8192 .i32 := iblk3 (F := Ideal) V c 2 t

theorem row_lt (t : Fin cfg3.N) (e : Fin 8192) : t.val % 123 * 8192 + e.val < 1007616 := by
  have := Nat.mod_lt t.val (show 0 < 123 by decide); have := e.isLt; omega

/-- Row `e` of the rows' block at point `t` is row `(t mod 123)·8192 + e` of the array; -/
theorem xb_apply (t : Fin cfg3.N) (e : Fin 8192) (f : Fin 64) :
    xb V c t (ix2 e f) = xsA V c (ix2 ⟨t.val % 123 * 8192 + e.val, row_lt t e⟩ f) := by
  obtain ⟨-, i0, i1, -, -, -, -⟩ := idx_facts t
  unfold xb iblk3
  rw [View.read_apply]
  show V c main_v51 _ = V c main_v51 _
  congr 1
  funext a
  apply Fin.ext
  match a with
  | ⟨0, _⟩ => show win3_0.index t (0 : Fin 2) * 8192 + 1 * e.val = t.val % 123 * 8192 + e.val; rw [i0]; omega
  | ⟨1, _⟩ => show win3_0.index t (1 : Fin 2) * 64 + 1 * f.val = f.val; rw [i1]; omega

/-- the same of the destination words -/
theorem db_apply (t : Fin cfg3.N) (e : Fin 8192) :
    db V c t (ix1 e) = dA V c (ix1 ⟨t.val % 123 * 8192 + e.val, row_lt t e⟩) := by
  obtain ⟨-, -, -, i0, -, -, -⟩ := idx_facts t
  unfold db iblk3
  rw [View.read_apply]
  show V c main_v7 _ = V c main_v7 _
  congr 1
  funext a
  apply Fin.ext
  match a with
  | ⟨0, _⟩ => show win3_1.index t (0 : Fin 1) * 8192 + 1 * e.val = t.val % 123 * 8192 + e.val; rw [i0]; omega

/-- and of the type words. -/
theorem tb_apply (t : Fin cfg3.N) (e : Fin 8192) :
    tb V c t (ix1 e) = tyA V c (ix1 ⟨t.val % 123 * 8192 + e.val, row_lt t e⟩) := by
  obtain ⟨-, -, -, -, i0, -, -⟩ := idx_facts t
  unfold tb iblk3
  rw [View.read_apply]
  show V c main_v8 _ = V c main_v8 _
  congr 1
  funext a
  apply Fin.ext
  match a with
  | ⟨0, _⟩ => show win3_2.index t (0 : Fin 1) * 8192 + 1 * e.val = t.val % 123 * 8192 + e.val; rw [i0]; omega

end Arrays

/-! ## The running sum -/

/-- Edge row `i`'s term at node `nd`, feature column `f`, relation word `r`; `0` past the last row. -/
def term (xs : Vec Ideal S1007616x64 .f32) (d ty : Vec Ideal S1007616 .i32) (nd : ℕ) (f : Fin 64) (r : BitVec 32) (i : ℕ) : EReal :=
  if h : i < 1007616 then ind (BitVec.ofNat 32 nd) (d (ix1 ⟨i, h⟩)) * (xs (ix2 ⟨i, h⟩ f) * ind (ty (ix1 ⟨i, h⟩)) r) else 0

/-- The block of node block `a` with the first `k` edge rows added. -/
def acc (xs : Vec Ideal S1007616x64 .f32) (d ty : Vec Ideal S1007616 .i32) (a k : ℕ) : Vec Ideal S1024x128 .f32 :=
  fun y => ∑ i ∈ Finset.range k, term xs d ty (a * 1024 + (y 0).val) (⟨(y 1).val % 64, Nat.mod_lt _ (by decide)⟩ : Fin 64)
    (BitVec.ofNat 32 ((y 1).val / 64)) i

section Sum
variable (V : (c : Dev nD) → (b : Ref sig .tc) → Buf (Elt Ideal) ((c : Thread nD τ).loc b)) (c : Dev nD)

/-- An edge block's contribution is the sum of its 8192 rows' terms. -/
theorem contrib_eq (t : Fin cfg3.N) (a : ℕ) (n : Fin 1024) (f : Fin 64) (r : BitVec 32) :
    contrib a (xb V c t) (db V c t) (tb V c t) n f r
      = ∑ i ∈ Finset.range 8192, term (xsA V c) (dA V c) (tyA V c) (a * 1024 + n.val) f r (t.val % 123 * 8192 + i) := by
  rw [← Fin.sum_univ_eq_sum_range (fun i => term (xsA V c) (dA V c) (tyA V c) (a * 1024 + n.val) f r (t.val % 123 * 8192 + i)) 8192]
  unfold contrib
  refine Finset.sum_congr rfl fun e _ => ?_
  unfold term
  rw [dif_pos (row_lt t e), xb_apply, db_apply, tb_apply]

/-- One point's step takes the sum of the rows before edge block `t mod 123` to the sum of the rows through it. -/
theorem stepv_acc (t : Fin cfg3.N) :
    stepv (t.val / 123) (xb V c t) (db V c t) (tb V c t) (acc (xsA V c) (dA V c) (tyA V c) (t.val / 123) (t.val % 123 * 8192))
      = acc (xsA V c) (dA V c) (tyA V c) (t.val / 123) ((t.val % 123 + 1) * 8192) := by
  funext y
  obtain ⟨n, col, rfl⟩ : ∃ (n : Fin 1024) (col : Fin 128), y = ix2 n col := ⟨y 0, y 1, eq_ix2 y⟩
  show acc (xsA V c) (dA V c) (tyA V c) (t.val / 123) (t.val % 123 * 8192) (ix2 n col)
      + contrib (t.val / 123) (xb V c t) (db V c t) (tb V c t) n (⟨col.val % 64, Nat.mod_lt _ (by decide)⟩ : Fin 64) (BitVec.ofNat 32 (col.val / 64))
    = acc (xsA V c) (dA V c) (tyA V c) (t.val / 123) ((t.val % 123 + 1) * 8192) (ix2 n col)
  rw [contrib_eq, show (t.val % 123 + 1) * 8192 = t.val % 123 * 8192 + 8192 from by ring]
  unfold acc
  rw [Finset.sum_range_add]

end Sum

/-! ## The block after every point -/

section Run
variable (V : (c : Dev nD) → (b : Ref sig .tc) → Buf (Elt Ideal) ((c : Thread nD τ).loc b)) (c : Dev nD)

/-- At the first edge block of a node block: the zeroed block plus that edge block. -/
theorem outsAt_first (t : Fin cfg3.N) (h0 : t.val % 123 = 0) :
    outsAt3 (F := Ideal) V c t.val t.isLt = acc (xsA V c) (dA V c) (tyA V c) (t.val / 123) ((t.val % 123 + 1) * 8192) := by
  refine (outsAt3_A V c t h0).trans ?_
  refine (out_A c (grid3.coords t) (ms3_0 t) (hs3_0 t) (ms3_1 t) (hs3_1 t) (ms3_2 t) (hs3_2 t) (ms3_3 t) (hs3_3 t)
    ((hcond3_0 t).mpr h0) (xb V c t) (db V c t) (tb V c t)).trans ?_
  rw [(idx_facts t).1]
  refine Eq.trans ?_ (stepv_acc V c t)
  refine congrArg (stepv (t.val / 123) (xb V c t) (db V c t) (tb V c t)) ?_
  funext y
  unfold acc
  rw [h0, Nat.zero_mul, Finset.sum_range_zero]

/-- At a later edge block: what the point before left plus that edge block. -/
theorem outsAt_next (t : Fin cfg3.N) (h0 : ¬t.val % 123 = 0)
    (hprev : outsAt3 (F := Ideal) V c (t.val - 1) (Nat.lt_of_le_of_lt (Nat.sub_le _ _) t.isLt)
      = acc (xsA V c) (dA V c) (tyA V c) (t.val / 123) (t.val % 123 * 8192)) :
    outsAt3 (F := Ideal) V c t.val t.isLt = acc (xsA V c) (dA V c) (tyA V c) (t.val / 123) ((t.val % 123 + 1) * 8192) := by
  refine (outsAt3_B V c t h0).trans ?_
  refine (out_B c (grid3.coords t) (ms3_0 t) (hs3_0 t) (ms3_1 t) (hs3_1 t) (ms3_2 t) (hs3_2 t) (ms3_3 t) (hs3_3 t)
    (fun h => h0 ((hcond3_0 t).mp h)) (xb V c t) (db V c t) (tb V c t)
    (outsAt3 (F := Ideal) V c (t.val - 1) (Nat.lt_of_le_of_lt (Nat.sub_le _ _) t.isLt))).trans ?_
  rw [(idx_facts t).1, hprev]
  exact stepv_acc V c t

/-- After point `n` the block holds, for node block `n / 123`, the sum of the edge rows through edge block `n mod 123`. -/
theorem outsAt_eq : ∀ (n : ℕ) (h : n < cfg3.N),
    outsAt3 (F := Ideal) V c n h = acc (xsA V c) (dA V c) (tyA V c) (n / 123) ((n % 123 + 1) * 8192)
  | 0, h => outsAt_first V c ⟨0, h⟩ rfl
  | n + 1, h => by
    by_cases h0 : (n + 1) % 123 = 0
    · exact outsAt_first V c ⟨n + 1, h⟩ h0
    · refine outsAt_next V c ⟨n + 1, h⟩ h0 ?_
      show outsAt3 (F := Ideal) V c n _ = _
      rw [outsAt_eq n (Nat.lt_of_succ_lt h)]
      have e1 : n / 123 = (n + 1) / 123 := by omega
      have e2 : n % 123 + 1 = (n + 1) % 123 := by omega
      show acc _ _ _ (n / 123) ((n % 123 + 1) * 8192) = acc _ _ _ ((n + 1) / 123) ((n + 1) % 123 * 8192)
      rw [e1, e2]

/-! ## From the blocks to the array -/

/-- The full sum of terms is the spread at that entry. -/
theorem spread_apply_of (xs : Vec Ideal S1007616x64 .f32) (d ty : Vec Ideal S1007616 .i32) (k : S100352x128.Idx) (nd col : ℕ)
    (h0 : (k 0).val = nd) (h1 : (k 1).val = col) :
    spread (E := 1007616) (K := 100352) (C2 := 128) 64 (by decide) xs d ty k
      = ∑ i ∈ Finset.range 1007616, term xs d ty nd (⟨col % 64, Nat.mod_lt _ (by decide)⟩ : Fin 64) (BitVec.ofNat 32 (col / 64)) i := by
  obtain ⟨k0, k1, rfl⟩ : ∃ (k0 : Fin 100352) (k1 : Fin 128), k = ix2 k0 k1 := ⟨k 0, k 1, eq_ix2 k⟩
  subst h0
  subst h1
  unfold spread
  rw [Finset.sum_range]
  refine Finset.sum_congr rfl fun e _ => ?_
  unfold term
  rw [dif_pos e.isLt]

/-- The running sum at an entry, its coordinates named. -/
theorem acc_apply (xs : Vec Ideal S1007616x64 .f32) (d ty : Vec Ideal S1007616 .i32) (a k : ℕ) (y : S1024x128.Idx) (n col : ℕ)
    (hn : (y 0).val = n) (hc : (y 1).val = col) :
    acc xs d ty a k y = ∑ i ∈ Finset.range k, term xs d ty (a * 1024 + n) (⟨col % 64, Nat.mod_lt _ (by decide)⟩ : Fin 64)
      (BitVec.ofNat 32 (col / 64)) i := by
  subst hn; subst hc; rfl

/-- A block of the output's window written back at point `t` is a block of an array function `G` as soon as its entries
    are `G`'s at the array rows and columns the window places them at. -/
theorem flushed_of (t : Fin cfg3.N) (X : Vec Ideal S1024x128 .f32) (G : Vec Ideal S100352x128 .f32)
    (h : ∀ (y : S1024x128.Idx) (k : S100352x128.Idx), (k 0).val = win3_3.index t (0 : Fin 2) * 1024 + (y 0).val →
      (k 1).val = win3_3.index t (1 : Fin 2) * 128 + (y 1).val → X y = G k) :
    (cfg3.win 3).cut (grid3.coords t) X = ((cfg3.win 3).blk t).view.read (Elt Ideal) G := by
  funext y
  rw [View.read_apply]
  show X ((cfg3.win 3).xinj (grid3.coords t) y) = G (((cfg3.win 3).blk t).view.emb y)
  refine h _ _ ?_ ?_
  · show win3_3.index t (0 : Fin 2) * 1024 + 1 * (y 0).val = win3_3.index t (0 : Fin 2) * 1024 + (y 0).val; omega
  · show win3_3.index t (1 : Fin 2) * 128 + 1 * (y 1).val = win3_3.index t (1 : Fin 2) * 128 + (y 1).val; omega

/-- The write-back at the last edge block of a node block writes that node block of the spread. -/
theorem flushed_eq (t : Fin cfg3.N) (hf : (cfg3.win 3).flush t = true) :
    (dat3 (F := Ideal) V c).flushed 3 t
      = ((cfg3.win 3).blk t).view.read (Elt Ideal)
          (spread (E := 1007616) (K := 100352) (C2 := 128) 64 (by decide) (V c main_v51) (V c main_v7) (V c main_v8)) := by
  have h122 : t.val % 123 = 122 := (flush3_3 t).mp hf
  obtain ⟨-, -, -, -, -, i0, i1⟩ := idx_facts t
  have hK : (t.val % 123 + 1) * 8192 = 1007616 := by omega
  show (cfg3.win 3).cut (grid3.coords t) ((dat3 (F := Ideal) V c).after 3 t) = _
  rw [after3_3, outsAt_eq]
  refine flushed_of t _ _ fun y k h0 h1 => ?_
  rw [spread_apply_of (V c main_v51) (V c main_v7) (V c main_v8) k (t.val / 123 * 1024 + (y 0).val) (y 1).val
    (by rw [h0, i0]) (by rw [h1, i1]; omega)]
  rw [acc_apply (xsA V c) (dA V c) (tyA V c) (t.val / 123) _ y (y 0).val (y 1).val rfl rfl, hK]

/-- Every row of the array lies in the block of its node block's last point. -/
theorem cover (i : S100352x128.Idx) :
    ∃ t : Fin cfg3.N, (cfg3.win 3).flush t = true ∧ i ∈ ((cfg3.win 3).blk t).view.set := by
  have hi0 : (i 0).val < 100352 := (i 0).isLt
  have hi1 : (i 1).val < 128 := (i 1).isLt
  have hN : cfg3.N = 12054 := N_3
  let t : Fin cfg3.N := ⟨(i 0).val / 1024 * 123 + 122, by rw [hN]; omega⟩
  have ht : t.val = (i 0).val / 1024 * 123 + 122 := rfl
  obtain ⟨-, -, -, -, -, i0, i1⟩ := idx_facts t
  refine ⟨t, (flush3_3 t).mpr (by rw [ht]; omega), ?_⟩
  show i ∈ ((View.whole main_v52).slice (win3_3.rect t)).set
  rw [View.set_slice_whole, Rect.mem_set_unit]
  intro a
  match a with
  | ⟨0, _⟩ => show win3_3.index t (0 : Fin 2) * 1024 ≤ (i 0).val ∧ (i 0).val < win3_3.index t (0 : Fin 2) * 1024 + 1024
              rw [i0, ht]; omega
  | ⟨1, _⟩ => show win3_3.index t (1 : Fin 2) * 128 ≤ (i 1).val ∧ (i 1).val < win3_3.index t (1 : Fin 2) * 128 + 128
              rw [i1]; omega

end Run

/-- Region 3's output array (window 3, the buffer of %52) after all 12054 points. -/
theorem arr_eq (V : (c : Dev nD) → (b : Ref sig .tc) → Buf (Elt Ideal) ((c : Thread nD τ).loc b)) (c : Dev nD) :
    (dat3 (F := Ideal) V c).arrAt 3 cfg3.N
      = Cert.Spec.spread (E := 1007616) (K := 100352) (C2 := 128) 64 (by decide) (V c main_v51) (V c main_v7) (V c main_v8) :=
  (dat3 (F := Ideal) V c).arrAt_eq_of_cover 3 _ (flushed_eq V c) (cover)

end Cert.KernelIdeal.ScatterB

end
-- ==== Proof.KVal.lean ====
/-
  The kernel program's result as one function of its eleven argument arrays.

  The program is a two-layer relational graph convolution followed by a linear classifier. Per layer, with node table
  `y`, source, destination and type words `s`, `d`, `t` of the edges, and per-type in-degrees `c₀`, `c₁`
  (the number of edges of type `r` arriving at each node, counted once for both layers):
      h = max(0, ((y · root + b) + (S₀ / max(c₀, 1)) · W₀) + (S₁ / max(c₁, 1)) · W₁)
  where `S_r` holds, per node, the sum of the rows `y (s e)` over the edges `e` of type `r` arriving at it. The two
  sums are computed together as ONE table of twice the width (type `r` in columns `r·C … r·C + C - 1`), by a one-hot
  row gather (`pick`) followed by a one-hot masked scatter-add (`spread`), both on arrays padded to whole blocks: the edge
  vectors to 1007616 entries (sources with the word 0, destinations and types with the all-ones word), the node table
  to 100352 rows of zeros. The classifier is `h₂ · Wc + bc`.

  Below, each stage is a definition made of the program's own operations in the program's order, and the theorem reads
  the result buffer back through the program's stretches of host operations and its four pipelined regions: a host
  stretch rewrites exactly the buffers its operations bind, a region rewrites exactly its output array, and every other
  buffer is carried along unchanged.
-/
import proofs.«420490_j128849019287_1_alg».proof.Defs
import proofs.«420490_j128849019287_1_alg».proof.Proof.Gen.KernelIdeal.Frame
import proofs.«420490_j128849019287_1_alg».proof.Proof.Spec
import proofs.«420490_j128849019287_1_alg».proof.Proof.KRead
import proofs.«420490_j128849019287_1_alg».proof.Proof.GatherA
import proofs.«420490_j128849019287_1_alg».proof.Proof.ScatterA
import proofs.«420490_j128849019287_1_alg».proof.Proof.GatherB
import proofs.«420490_j128849019287_1_alg».proof.Proof.ScatterB
import Idealize.ShloMosaic.Lib.StableHlo.Run

set_option maxRecDepth 16384

noncomputable section

namespace Cert.KernelIdeal.KVal

open Idealize.ShloMosaic Idealize.ShloMosaic.TcCoe Idealize.SL.Sem
open Cert.KernelIdeal Cert.KernelIdeal.KRead

/-! ## The stages -/

section Stages
open Cert.KernelIdeal.Facts₀ Cert.KernelIdeal.Facts
variable {F : FTy → Type} [FloatOps F]

/-- The in-degree per node among the edges whose type word is `r`: a scatter-add, into a zero vector, of the indicator
    `[t e = r]` (as a float) at the destination word of each edge. -/
def cntK (r : BitVec 32) (d t : IVec S1000000 32) : FVec F S100000 .f32 :=
  Host.scatterAdd (F := F) scatter_S100000_S1000000x1_S1000000_n_0_0_1
    (broadcastInDim S100000 ![] bcast_S_S100000 (constant (F := F) S_ .f32 0x00000000#32))
    (broadcastInDim S1000000x1 ![0] bcast_S1000000_S1000000x1_0 d)
    (uitofp (F := F) .f32 (cmpi .eq t (broadcastInDim S1000000 ![] bcast_S_S1000000 (constantI S_ 32 r))))

/-- One 32-to-64 layer from the node table `y`, the two per-type neighbour sums `S0`, `S1` and the two in-degrees:
    `max(0, ((y · root + b) + (S0 / max(c0, 1)) · W[0]) + (S1 / max(c1, 1)) · W[1])`. -/
def core32 (y S0 S1 : FVec F S100000x32 .f32) (c0 c1 : FVec F S100000 .f32) (W : FVec F S2x32x64 .f32)
    (root : FVec F S32x64 .f32) (b : FVec F S64 .f32) : FVec F S100000x64 .f32 :=
  maximumf (F := F)
    (addf (F := F)
      (addf (F := F)
        (addf (F := F)
          (Host.dotGeneral (F := F) dot_S100000x32_S32x64_S100000x64_1_0_0_1_n_n none y root)
          (broadcastInDim S100000x64 ![0, 1] bcast_S1x64_S100000x64_0_1 (broadcastInDim S1x64 ![1] bcast_S64_S1x64_1 b)))
        (Host.dotGeneral (F := F) dot_S100000x32_S32x64_S100000x64_1_0_0_1_n_n none
          (Host.divf (F := F) S0
            (broadcastInDim S100000x32 ![0, 1] bcast_S100000x1_S100000x32_0_1
              (broadcastInDim S100000x1 ![0] bcast_S100000_S100000x1_0
                (maximumf (F := F) c0 (broadcastInDim S100000 ![] bcast_S_S100000 (constant (F := F) S_ .f32 0x3F800000#32))))))
          (shapeCast S32x64 (extractStridedSlice S1x32x64 ![0, 0, 0] W slices_S2x32x64_S1x32x64_0_0_0) shapeCasts_S1x32x64_S32x64)))
      (Host.dotGeneral (F := F) dot_S100000x32_S32x64_S100000x64_1_0_0_1_n_n none
        (Host.divf (F := F) S1
          (broadcastInDim S100000x32 ![0, 1] bcast_S100000x1_S100000x32_0_1
            (broadcastInDim S100000x1 ![0] bcast_S100000_S100000x1_0
              (maximumf (F := F) c1 (broadcastInDim S100000 ![] bcast_S_S100000 (constant (F := F) S_ .f32 0x3F800000#32))))))
        (shapeCast S32x64 (extractStridedSlice S1x32x64 ![1, 0, 0] W slices_S2x32x64_S1x32x64_1_0_0) shapeCasts_S1x32x64_S32x64)))
    (broadcastInDim S100000x64 ![] bcast_S_S100000x64 (constant (F := F) S_ .f32 0x00000000#32))

/-- One 64-to-64 layer, the same expression at width 64. -/
def core64 (h S0 S1 : FVec F S100000x64 .f32) (c0 c1 : FVec F S100000 .f32) (W : FVec F S2x64x64 .f32)
    (root : FVec F S64x64 .f32) (b : FVec F S64 .f32) : FVec F S100000x64 .f32 :=
  maximumf (F := F)
    (addf (F := F)
      (addf (F := F)
        (addf (F := F)
          (Host.dotGeneral (F := F) dot_S100000x64_S64x64_S100000x64_1_0_0_1_n_n none h root)
          (broadcastInDim S100000x64 ![0, 1] bcast_S1x64_S100000x64_0_1 (broadcastInDim S1x64 ![1] bcast_S64_S1x64_1 b)))
        (Host.dotGeneral (F := F) dot_S100000x64_S64x64_S100000x64_1_0_0_1_n_n none
          (Host.divf (F := F) S0
            (broadcastInDim S100000x64 ![0, 1] bcast_S100000x1_S100000x64_0_1
              (broadcastInDim S100000x1 ![0] bcast_S100000_S100000x1_0
                (maximumf (F := F) c0 (broadcastInDim S100000 ![] bcast_S_S100000 (constant (F := F) S_ .f32 0x3F800000#32))))))
          (shapeCast S64x64 (extractStridedSlice S1x64x64 ![0, 0, 0] W slices_S2x64x64_S1x64x64_0_0_0) shapeCasts_S1x64x64_S64x64)))
      (Host.dotGeneral (F := F) dot_S100000x64_S64x64_S100000x64_1_0_0_1_n_n none
        (Host.divf (F := F) S1
          (broadcastInDim S100000x64 ![0, 1] bcast_S100000x1_S100000x64_0_1
            (broadcastInDim S100000x1 ![0] bcast_S100000_S100000x1_0
              (maximumf (F := F) c1 (broadcastInDim S100000 ![] bcast_S_S100000 (constant (F := F) S_ .f32 0x3F800000#32))))))
        (shapeCast S64x64 (extractStridedSlice S1x64x64 ![1, 0, 0] W slices_S2x64x64_S1x64x64_1_0_0) shapeCasts_S1x64x64_S64x64)))
    (broadcastInDim S100000x64 ![] bcast_S_S100000x64 (constant (F := F) S_ .f32 0x00000000#32))

/-- The linear classifier: `h · Wc + bc`, the bias repeated along the rows. -/
def tailK (h : FVec F S100000x64 .f32) (Wc : FVec F S64x2 .f32) (bc : FVec F S2 .f32) : FVec F S100000x2 .f32 :=
  addf (F := F)
    (Host.dotGeneral (F := F) dot_S100000x64_S64x2_S100000x2_1_0_0_1_n_n none h Wc)
    (broadcastInDim S100000x2 ![0, 1] bcast_S1x2_S100000x2_0_1 (broadcastInDim S1x2 ![1] bcast_S2_S1x2_1 bc))

end Stages

/-- The first layer: the 32-to-64 expression at the node table `a0`, its two neighbour sums the two column halves of
    the one-hot gather and scatter-add of the padded table over the padded edge words, cut back to the real rows. -/
def layer1 (a0 : FVec Ideal S100000x32 .f32) (a1 : IVec S2x1000000 32) (a2 : IVec S1000000x2 32)
    (a3 : FVec Ideal S2x32x64 .f32) (a4 : FVec Ideal S32x64 .f32) (a5 : FVec Ideal S64 .f32) : FVec Ideal S100000x64 .f32 :=
  core32 (F := Ideal) a0
    (colsA32 (rows64 (Cert.Spec.spread (E := 1007616) (K := 100352) (C2 := 64) 32 (by decide)
      (Cert.Spec.pick (E := 1007616) (K := 100352) (C := 32) (padw (srcw a1) 0#32) (xpad32 a0))
      (padw (dstw a1) 4294967295#32) (padw (typw a2) 4294967295#32))))
    (colsB32 (rows64 (Cert.Spec.spread (E := 1007616) (K := 100352) (C2 := 64) 32 (by decide)
      (Cert.Spec.pick (E := 1007616) (K := 100352) (C := 32) (padw (srcw a1) 0#32) (xpad32 a0))
      (padw (dstw a1) 4294967295#32) (padw (typw a2) 4294967295#32))))
    (cntK (F := Ideal) 0#32 (dstw a1) (typw a2)) (cntK (F := Ideal) 1#32 (dstw a1) (typw a2)) a3 a4 a5

/-- The second layer: the 64-to-64 expression at the first layer's output `h`, over the same edge words. -/
def layer2 (h : FVec Ideal S100000x64 .f32) (a1 : IVec S2x1000000 32) (a2 : IVec S1000000x2 32)
    (a6 : FVec Ideal S2x64x64 .f32) (a7 : FVec Ideal S64x64 .f32) (a8 : FVec Ideal S64 .f32) : FVec Ideal S100000x64 .f32 :=
  core64 (F := Ideal) h
    (colsA64 (rows128 (Cert.Spec.spread (E := 1007616) (K := 100352) (C2 := 128) 64 (by decide)
      (Cert.Spec.pick (E := 1007616) (K := 100352) (C := 64) (padw (srcw a1) 0#32) (xpad64 h))
      (padw (dstw a1) 4294967295#32) (padw (typw a2) 4294967295#32))))
    (colsB64 (rows128 (Cert.Spec.spread (E := 1007616) (K := 100352) (C2 := 128) 64 (by decide)
      (Cert.Spec.pick (E := 1007616) (K := 100352) (C := 64) (padw (srcw a1) 0#32) (xpad64 h))
      (padw (dstw a1) 4294967295#32) (padw (typw a2) 4294967295#32))))
    (cntK (F := Ideal) 0#32 (dstw a1) (typw a2)) (cntK (F := Ideal) 1#32 (dstw a1) (typw a2)) a6 a7 a8

/-- The program's result: the classifier on the second layer on the first layer. -/
def result (a0 : FVec Ideal S100000x32 .f32) (a1 : IVec S2x1000000 32) (a2 : IVec S1000000x2 32)
    (a3 : FVec Ideal S2x32x64 .f32) (a4 : FVec Ideal S32x64 .f32) (a5 : FVec Ideal S64 .f32)
    (a6 : FVec Ideal S2x64x64 .f32) (a7 : FVec Ideal S64x64 .f32) (a8 : FVec Ideal S64 .f32)
    (a9 : FVec Ideal S64x2 .f32) (a10 : FVec Ideal S2 .f32) : FVec Ideal S100000x2 .f32 :=
  tailK (F := Ideal) (layer2 (layer1 a0 a1 a2 a3 a4 a5) a1 a2 a6 a7 a8) a9 a10

/-! ## The buffers at the entry of the first region

  The eight host stretches before the first region cut the edge table and the attribute table into the source,
  destination and type words, pad each, count the in-degrees per type, and pad the node table. Each buffer below is read
  as the composition of the operations that bind it, down to the launch contents of the arguments. -/

section Run
open Cert.KernelIdeal.Gen

variable (m : (ℓ : Loc nD τ sig) → Buf (Elt Ideal) ℓ) (ρ : Dev nD → PrngReg) (c : Dev nD)

/-- The padded source words. -/
theorem W8_v6 :
    (W8 (F := Ideal) m ρ c (Proc.devRef .tc main_v6) : IVec S1007616 32) = padw (srcw (m ((c : Thread nD τ).loc main_arg1))) 0#32 := by
  dsimp only [W8, W7, W6, W5, W4, W3, W2, W1, W0]
  simp only [hostOps0, hostOps0_1, hostOps0_2, hostOps0_3, hostOps0_4, hostOps0_5, hostOps0_6, hostOps0_7]
  after_results_simp
  rfl

/-- The padded destination words. -/
theorem W8_v7 :
    (W8 (F := Ideal) m ρ c (Proc.devRef .tc main_v7) : IVec S1007616 32) = padw (dstw (m ((c : Thread nD τ).loc main_arg1))) 4294967295#32 := by
  dsimp only [W8, W7, W6, W5, W4, W3, W2, W1, W0]
  simp only [hostOps0, hostOps0_1, hostOps0_2, hostOps0_3, hostOps0_4, hostOps0_5, hostOps0_6, hostOps0_7]
  after_results_simp
  rfl

/-- The padded type words. -/
theorem W8_v8 :
    (W8 (F := Ideal) m ρ c (Proc.devRef .tc main_v8) : IVec S1007616 32) = padw (typw (m ((c : Thread nD τ).loc main_arg2))) 4294967295#32 := by
  dsimp only [W8, W7, W6, W5, W4, W3, W2, W1, W0]
  simp only [hostOps0, hostOps0_1, hostOps0_2, hostOps0_3, hostOps0_4, hostOps0_5, hostOps0_6, hostOps0_7]
  after_results_simp
  rfl

/-- The in-degrees among the edges of type word 0. -/
theorem W8_v14 :
    (W8 (F := Ideal) m ρ c (Proc.devRef .tc main_v14) : FVec Ideal S100000 .f32) = cntK (F := Ideal) 0#32 (dstw (m ((c : Thread nD τ).loc main_arg1))) (typw (m ((c : Thread nD τ).loc main_arg2))) := by
  dsimp only [W8, W7, W6, W5, W4, W3, W2, W1, W0]
  simp only [hostOps0, hostOps0_1, hostOps0_2, hostOps0_3, hostOps0_4, hostOps0_5, hostOps0_6, hostOps0_7]
  after_results_simp
  rfl

/-- The in-degrees among the edges of type word 1. -/
theorem W8_v20 :
    (W8 (F := Ideal) m ρ c (Proc.devRef .tc main_v20) : FVec Ideal S100000 .f32) = cntK (F := Ideal) 1#32 (dstw (m ((c : Thread nD τ).loc main_arg1))) (typw (m ((c : Thread nD τ).loc main_arg2))) := by
  dsimp only [W8, W7, W6, W5, W4, W3, W2, W1, W0]
  simp only [hostOps0, hostOps0_1, hostOps0_2, hostOps0_3, hostOps0_4, hostOps0_5, hostOps0_6, hostOps0_7]
  after_results_simp
  rfl

/-- The padded node table. -/
theorem W8_v21 :
    (W8 (F := Ideal) m ρ c (Proc.devRef .tc main_v21) : FVec Ideal S100352x32 .f32) = xpad32 (F := Ideal) (m ((c : Thread nD τ).loc main_arg0)) := by
  dsimp only [W8, W7, W6, W5, W4, W3, W2, W1, W0]
  simp only [hostOps0, hostOps0_1, hostOps0_2, hostOps0_3, hostOps0_4, hostOps0_5, hostOps0_6, hostOps0_7]
  after_results_simp
  rfl

/-- No host operation before the first region binds argument 0. -/
theorem W8_arg0 : W8 (F := Ideal) m ρ c (Proc.devRef .tc main_arg0) = m ((c : Thread nD τ).loc main_arg0) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 3. -/
theorem W8_arg3 : W8 (F := Ideal) m ρ c (Proc.devRef .tc main_arg3) = m ((c : Thread nD τ).loc main_arg3) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 4. -/
theorem W8_arg4 : W8 (F := Ideal) m ρ c (Proc.devRef .tc main_arg4) = m ((c : Thread nD τ).loc main_arg4) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 5. -/
theorem W8_arg5 : W8 (F := Ideal) m ρ c (Proc.devRef .tc main_arg5) = m ((c : Thread nD τ).loc main_arg5) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 6. -/
theorem W8_arg6 : W8 (F := Ideal) m ρ c (Proc.devRef .tc main_arg6) = m ((c : Thread nD τ).loc main_arg6) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 7. -/
theorem W8_arg7 : W8 (F := Ideal) m ρ c (Proc.devRef .tc main_arg7) = m ((c : Thread nD τ).loc main_arg7) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 8. -/
theorem W8_arg8 : W8 (F := Ideal) m ρ c (Proc.devRef .tc main_arg8) = m ((c : Thread nD τ).loc main_arg8) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 9. -/
theorem W8_arg9 : W8 (F := Ideal) m ρ c (Proc.devRef .tc main_arg9) = m ((c : Thread nD τ).loc main_arg9) := by
  dsimp only [W8, W7, W6, W5, W4, W3, W2, W1, W0]
  simp only [hostOps0, hostOps0_1, hostOps0_2, hostOps0_3, hostOps0_4, hostOps0_5, hostOps0_6, hostOps0_7]
  after_results_simp

/-- No host operation before the first region binds argument 10. -/
theorem W8_arg10 : W8 (F := Ideal) m ρ c (Proc.devRef .tc main_arg10) = m ((c : Thread nD τ).loc main_arg10) := by
  dsimp only [W8, W7, W6, W5, W4, W3, W2, W1, W0]
  simp only [hostOps0, hostOps0_1, hostOps0_2, hostOps0_3, hostOps0_4, hostOps0_5, hostOps0_6, hostOps0_7]
  after_results_simp

/-! ## Across the first gather and the first scatter-add

  A region rewrites its output array and nothing else; the gather's output is the scatter-add's first input. -/

/-- A buffer that is no array of either of the first two regions is after them what it was before. -/
theorem W10_keep (b : Ref sig .tc) (h0 : ∀ w, Pipeline.arrRef spec0 w ≠ b) (h1 : ∀ w, Pipeline.arrRef spec1 w ≠ b) :
    W10 (F := Ideal) m ρ c (Proc.devRef .tc b) = W8 (F := Ideal) m ρ c (Proc.devRef .tc b) :=
  (W10_of_ne m ρ c b h1).trans (W9_of_ne m ρ c b h0)

/-- The gathered rows. -/
theorem W9_v22 :
    (W9 (F := Ideal) m ρ c (Proc.devRef .tc main_v22) : FVec Ideal S1007616x32 .f32)
      = Cert.Spec.pick (E := 1007616) (K := 100352) (C := 32) (W8 (F := Ideal) m ρ c (Proc.devRef .tc main_v6)) (W8 (F := Ideal) m ρ c (Proc.devRef .tc main_v21)) :=
  (W9_arr m ρ c 2).trans (Cert.KernelIdeal.GatherA.arr_eq (V8 m ρ) c)

/-- The scattered sums, both types side by side. -/
theorem W10_v23 :
    (W10 (F := Ideal) m ρ c (Proc.devRef .tc main_v23) : FVec Ideal S100352x64 .f32)
      = Cert.Spec.spread (E := 1007616) (K := 100352) (C2 := 64) 32 (by decide)
          (Cert.Spec.pick (E := 1007616) (K := 100352) (C := 32) (W8 (F := Ideal) m ρ c (Proc.devRef .tc main_v6)) (W8 (F := Ideal) m ρ c (Proc.devRef .tc main_v21)))
          (W8 (F := Ideal) m ρ c (Proc.devRef .tc main_v7)) (W8 (F := Ideal) m ρ c (Proc.devRef .tc main_v8)) := by
  refine ((W10_arr m ρ c 3).trans (Cert.KernelIdeal.ScatterA.arr_eq (V9 m ρ) c)).trans ?_
  show Cert.Spec.spread (E := 1007616) (K := 100352) (C2 := 64) 32 _ (W9 (F := Ideal) m ρ c (Proc.devRef .tc main_v22)) (W9 (F := Ideal) m ρ c (Proc.devRef .tc main_v7)) (W9 (F := Ideal) m ρ c (Proc.devRef .tc main_v8)) = _
  rw [W9_v22 m ρ c, W9_of_ne m ρ c main_v7 (by decide), W9_of_ne m ρ c main_v8 (by decide)]

/-! ## The first layer's host stretches

  The four stretches between the second and the third region cut the scattered sums back to the real rows, split the two
  types' columns, divide by the clamped in-degrees, apply the three weight matrices, the bias and the rectifier, and pad
  the outcome for the second gather. -/

/-- The first layer's output. -/
theorem W14_v49 :
    (W14 (F := Ideal) m ρ c (Proc.devRef .tc main_v49) : FVec Ideal S100000x64 .f32)
      = (core32 (F := Ideal) (W10 (F := Ideal) m ρ c (Proc.devRef .tc main_arg0))
        (colsA32 (rows64 (W10 (F := Ideal) m ρ c (Proc.devRef .tc main_v23)))) (colsB32 (rows64 (W10 (F := Ideal) m ρ c (Proc.devRef .tc main_v23))))
        (W10 (F := Ideal) m ρ c (Proc.devRef .tc main_v14)) (W10 (F := Ideal) m ρ c (Proc.devRef .tc main_v20))
        (W10 (F := Ideal) m ρ c (Proc.devRef .tc main_arg3)) (W10 (F := Ideal) m ρ c (Proc.devRef .tc main_arg4)) (W10 (F := Ideal) m ρ c (Proc.devRef .tc main_arg5))) := by
  dsimp only [W14, W13, W12, W11]
  simp only [hostOps2, hostOps2_1, hostOps2_2, hostOps2_3]
  after_results_simp
  rfl

/-- The first layer's output, padded. -/
theorem W14_v50 :
    (W14 (F := Ideal) m ρ c (Proc.devRef .tc main_v50) : FVec Ideal S100352x64 .f32)
      = xpad64 (F := Ideal) (core32 (F := Ideal) (W10 (F := Ideal) m ρ c (Proc.devRef .tc main_arg0))
        (colsA32 (rows64 (W10 (F := Ideal) m ρ c (Proc.devRef .tc main_v23)))) (colsB32 (rows64 (W10 (F := Ideal) m ρ c (Proc.devRef .tc main_v23))))
        (W10 (F := Ideal) m ρ c (Proc.devRef .tc main_v14)) (W10 (F := Ideal) m ρ c (Proc.devRef .tc main_v20))
        (W10 (F := Ideal) m ρ c (Proc.devRef .tc main_arg3)) (W10 (F := Ideal) m ρ c (Proc.devRef .tc main_arg4)) (W10 (F := Ideal) m ρ c (Proc.devRef .tc main_arg5))) := by
  dsimp only [W14, W13, W12, W11]
  simp only [hostOps2, hostOps2_1, hostOps2_2, hostOps2_3]
  after_results_simp
  rfl

/-- No operation of the first layer's stretches binds this buffer. -/
theorem W14_v6 : W14 (F := Ideal) m ρ c (Proc.devRef .tc main_v6) = W10 (F := Ideal) m ρ c (Proc.devRef .tc main_v6) := by
  dsimp only [W14, W13, W12, W11]
  simp only [hostOps2, hostOps2_1, hostOps2_2, hostOps2_3]
  after_results_simp

/-- No operation of the first layer's stretches binds this buffer. -/
theorem W14_v7 : W14 (F := Ideal) m ρ c (Proc.devRef .tc main_v7) = W10 (F := Ideal) m ρ c (Proc.devRef .tc main_v7) := by
  dsimp only [W14, W13, W12, W11]
  simp only [hostOps2, hostOps2_1, hostOps2_2, hostOps2_3]
  after_results_simp

/-- No operation of the first layer's stretches binds this buffer. -/
theorem W14_v8 : W14 (F := Ideal) m ρ c (Proc.devRef .tc main_v8) = W10 (F := Ideal) m ρ c (Proc.devRef .tc main_v8) := by
  dsimp only [W14, W13, W12, W11]
  simp only [hostOps2, hostOps2_1, hostOps2_2, hostOps2_3]
  after_results_simp

/-- No operation of the first layer's stretches binds this buffer. -/
theorem W14_v14 : W14 (F := Ideal) m ρ c (Proc.devRef .tc main_v14) = W10 (F := Ideal) m ρ c (Proc.devRef .tc main_v14) := by
  dsimp only [W14, W13, W12, W11]
  simp only [hostOps2, hostOps2_1, hostOps2_2, hostOps2_3]
  after_results_simp

/-- No operation of the first layer's stretches binds this buffer. -/
theorem W14_v20 : W14 (F := Ideal) m ρ c (Proc.devRef .tc main_v20) = W10 (F := Ideal) m ρ c (Proc.devRef .tc main_v20) := by
  dsimp only [W14, W13, W12, W11]
  simp only [hostOps2, hostOps2_1, hostOps2_2, hostOps2_3]
  after_results_simp

/-- No operation of the first layer's stretches binds this buffer. -/
theorem W14_arg6 : W14 (F := Ideal) m ρ c (Proc.devRef .tc main_arg6) = W10 (F := Ideal) m ρ c (Proc.devRef .tc main_arg6) := by
  dsimp only [W14, W13, W12, W11]
  simp only [hostOps2, hostOps2_1, hostOps2_2, hostOps2_3]
  after_results_simp

/-- No operation of the first layer's stretches binds this buffer. -/
theorem W14_arg7 : W14 (F := Ideal) m ρ c (Proc.devRef .tc main_arg7) = W10 (F := Ideal) m ρ c (Proc.devRef .tc main_arg7) := by
  dsimp only [W14, W13, W12, W11]
  simp only [hostOps2, hostOps2_1, hostOps2_2, hostOps2_3]
  after_results_simp

/-- No operation of the first layer's stretches binds this buffer. -/
theorem W14_arg8 : W14 (F := Ideal) m ρ c (Proc.devRef .tc main_arg8) = W10 (F := Ideal) m ρ c (Proc.devRef .tc main_arg8) := by
  dsimp only [W14, W13, W12, W11]
  simp only [hostOps2, hostOps2_1, hostOps2_2, hostOps2_3]
  after_results_simp

/-- No operation of the first layer's stretches binds this buffer. -/
theorem W14_arg9 : W14 (F := Ideal) m ρ c (Proc.devRef .tc main_arg9) = W10 (F := Ideal) m ρ c (Proc.devRef .tc main_arg9) := by
  dsimp only [W14, W13, W12, W11]
  simp only [hostOps2, hostOps2_1, hostOps2_2, hostOps2_3]
  after_results_simp

/-- No operation of the first layer's stretches binds this buffer. -/
theorem W14_arg10 : W14 (F := Ideal) m ρ c (Proc.devRef .tc main_arg10) = W10 (F := Ideal) m ρ c (Proc.devRef .tc main_arg10) := by
  dsimp only [W14, W13, W12, W11]
  simp only [hostOps2, hostOps2_1, hostOps2_2, hostOps2_3]
  after_results_simp

/-! ## Across the second gather and the second scatter-add -/

/-- A buffer that is no array of either of the last two regions is after them what it was before. -/
theorem W16_keep (b : Ref sig .tc) (h2 : ∀ w, Pipeline.arrRef spec2 w ≠ b) (h3 : ∀ w, Pipeline.arrRef spec3 w ≠ b) :
    W16 (F := Ideal) m ρ c (Proc.devRef .tc b) = W14 (F := Ideal) m ρ c (Proc.devRef .tc b) :=
  (W16_of_ne m ρ c b h3).trans (W15_of_ne m ρ c b h2)

/-- The gathered rows of the first layer's output. -/
theorem W15_v51 :
    (W15 (F := Ideal) m ρ c (Proc.devRef .tc main_v51) : FVec Ideal S1007616x64 .f32)
      = Cert.Spec.pick (E := 1007616) (K := 100352) (C := 64) (W14 (F := Ideal) m ρ c (Proc.devRef .tc main_v6)) (W14 (F := Ideal) m ρ c (Proc.devRef .tc main_v50)) :=
  (W15_arr m ρ c 2).trans (Cert.KernelIdeal.GatherB.arr_eq (V14 m ρ) c)

/-- The scattered sums of the second layer, both types side by side. -/
theorem W16_v52 :
    (W16 (F := Ideal) m ρ c (Proc.devRef .tc main_v52) : FVec Ideal S100352x128 .f32)
      = Cert.Spec.spread (E := 1007616) (K := 100352) (C2 := 128) 64 (by decide)
          (Cert.Spec.pick (E := 1007616) (K := 100352) (C := 64) (W14 (F := Ideal) m ρ c (Proc.devRef .tc main_v6)) (W14 (F := Ideal) m ρ c (Proc.devRef .tc main_v50)))
          (W14 (F := Ideal) m ρ c (Proc.devRef .tc main_v7)) (W14 (F := Ideal) m ρ c (Proc.devRef .tc main_v8)) := by
  refine ((W16_arr m ρ c 3).trans (Cert.KernelIdeal.ScatterB.arr_eq (V15 m ρ) c)).trans ?_
  show Cert.Spec.spread (E := 1007616) (K := 100352) (C2 := 128) 64 _ (W15 (F := Ideal) m ρ c (Proc.devRef .tc main_v51)) (W15 (F := Ideal) m ρ c (Proc.devRef .tc main_v7)) (W15 (F := Ideal) m ρ c (Proc.devRef .tc main_v8)) = _
  rw [W15_v51 m ρ c, W15_of_ne m ρ c main_v7 (by decide), W15_of_ne m ρ c main_v8 (by decide)]

/-! ## The second layer's host stretches and the classifier -/

/-- The result buffer over the contents at the last region's exit. -/
theorem W19_v82 :
    (W19 (F := Ideal) m ρ c (Proc.devRef .tc main_v82) : FVec Ideal S100000x2 .f32)
      = tailK (F := Ideal)
        (core64 (F := Ideal) (W16 (F := Ideal) m ρ c (Proc.devRef .tc main_v49))
          (colsA64 (rows128 (W16 (F := Ideal) m ρ c (Proc.devRef .tc main_v52)))) (colsB64 (rows128 (W16 (F := Ideal) m ρ c (Proc.devRef .tc main_v52))))
          (W16 (F := Ideal) m ρ c (Proc.devRef .tc main_v14)) (W16 (F := Ideal) m ρ c (Proc.devRef .tc main_v20))
          (W16 (F := Ideal) m ρ c (Proc.devRef .tc main_arg6)) (W16 (F := Ideal) m ρ c (Proc.devRef .tc main_arg7)) (W16 (F := Ideal) m ρ c (Proc.devRef .tc main_arg8)))
        (W16 (F := Ideal) m ρ c (Proc.devRef .tc main_arg9)) (W16 (F := Ideal) m ρ c (Proc.devRef .tc main_arg10)) := by
  dsimp only [W19, W18, W17]
  simp only [hostOps4, hostOps4_1, hostOps4_2]
  after_results_simp
  rfl

/-! ## Everything over the arguments

  The buffers each later stage reads, rewritten stage by stage into functions of the launch contents of the arguments. -/

/-- The first scattered sums over the arguments. -/
theorem W10_v23_args :
    (W10 (F := Ideal) m ρ c (Proc.devRef .tc main_v23) : FVec Ideal S100352x64 .f32) = (Cert.Spec.spread (E := 1007616) (K := 100352) (C2 := 64) 32 (by decide)
          (Cert.Spec.pick (E := 1007616) (K := 100352) (C := 32) (padw (srcw (m ((c : Thread nD τ).loc main_arg1))) 0#32) (xpad32 (F := Ideal) (m ((c : Thread nD τ).loc main_arg0))))
          (padw (dstw (m ((c : Thread nD τ).loc main_arg1))) 4294967295#32) (padw (typw (m ((c : Thread nD τ).loc main_arg2))) 4294967295#32)) := by
  rw [W10_v23 m ρ c, W8_v6 m ρ c, W8_v21 m ρ c, W8_v7 m ρ c, W8_v8 m ρ c]

theorem W10_v14_args : (W10 (F := Ideal) m ρ c (Proc.devRef .tc main_v14) : FVec Ideal S100000 .f32) = cntK (F := Ideal) 0#32 (dstw (m ((c : Thread nD τ).loc main_arg1))) (typw (m ((c : Thread nD τ).loc main_arg2))) :=
  (W10_keep m ρ c main_v14 (by decide) (by decide)).trans (W8_v14 m ρ c)

theorem W10_v20_args : (W10 (F := Ideal) m ρ c (Proc.devRef .tc main_v20) : FVec Ideal S100000 .f32) = cntK (F := Ideal) 1#32 (dstw (m ((c : Thread nD τ).loc main_arg1))) (typw (m ((c : Thread nD τ).loc main_arg2))) :=
  (W10_keep m ρ c main_v20 (by decide) (by decide)).trans (W8_v20 m ρ c)

theorem W10_arg0_args : W10 (F := Ideal) m ρ c (Proc.devRef .tc main_arg0) = m ((c : Thread nD τ).loc main_arg0) :=
  (W10_keep m ρ c main_arg0 (by decide) (by decide)).trans (W8_arg0 m ρ c)

theorem W10_arg3_args : W10 (F := Ideal) m ρ c (Proc.devRef .tc main_arg3) = m ((c : Thread nD τ).loc main_arg3) :=
  (W10_keep m ρ c main_arg3 (by decide) (by decide)).trans (W8_arg3 m ρ c)

theorem W10_arg4_args : W10 (F := Ideal) m ρ c (Proc.devRef .tc main_arg4) = m ((c : Thread nD τ).loc main_arg4) :=
  (W10_keep m ρ c main_arg4 (by decide) (by decide)).trans (W8_arg4 m ρ c)

theorem W10_arg5_args : W10 (F := Ideal) m ρ c (Proc.devRef .tc main_arg5) = m ((c : Thread nD τ).loc main_arg5) :=
  (W10_keep m ρ c main_arg5 (by decide) (by decide)).trans (W8_arg5 m ρ c)

/-- The first layer's output over the arguments. -/
theorem W14_v49_args :
    (W14 (F := Ideal) m ρ c (Proc.devRef .tc main_v49) : FVec Ideal S100000x64 .f32) = (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [W14_v49 m ρ c, W10_arg0_args m ρ c, W10_v23_args m ρ c, W10_v14_args m ρ c, W10_v20_args m ρ c,
    W10_arg3_args m ρ c, W10_arg4_args m ρ c, W10_arg5_args m ρ c]
  rfl

/-- The padded first layer's output over the arguments. -/
theorem W14_v50_args :
    (W14 (F := Ideal) m ρ c (Proc.devRef .tc main_v50) : FVec Ideal S100352x64 .f32) = xpad64 (F := Ideal) (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [W14_v50 m ρ c, W10_arg0_args m ρ c, W10_v23_args m ρ c, W10_v14_args m ρ c, W10_v20_args m ρ c,
    W10_arg3_args m ρ c, W10_arg4_args m ρ c, W10_arg5_args m ρ c]
  rfl

/-- An input array of the first gather is after it what it was before: an input window is never written back. -/
theorem W9_in (w : Fin cfg0.W) (hin : (cfg0.win w).isOut = false) :
    W9 (F := Ideal) m ρ c (Proc.devRef .tc (Pipeline.arrRef spec0 w))
      = W8 (F := Ideal) m ρ c (Proc.devRef .tc (Pipeline.arrRef spec0 w)) :=
  (W9_arr m ρ c w).trans (((dat0 (V8 m ρ) c).arrAt_in w hin cfg0.N).trans (A_eq0 (V8 m ρ) c w))

/-- An input array of the first scatter-add is after it what it was before. -/
theorem W10_in (w : Fin cfg1.W) (hin : (cfg1.win w).isOut = false) :
    W10 (F := Ideal) m ρ c (Proc.devRef .tc (Pipeline.arrRef spec1 w))
      = W9 (F := Ideal) m ρ c (Proc.devRef .tc (Pipeline.arrRef spec1 w)) :=
  (W10_arr m ρ c w).trans (((dat1 (V9 m ρ) c).arrAt_in w hin cfg1.N).trans (A_eq1 (V9 m ρ) c w))

theorem W14_v6_args : (W14 (F := Ideal) m ρ c (Proc.devRef .tc main_v6) : IVec S1007616 32) = padw (srcw (m ((c : Thread nD τ).loc main_arg1))) 0#32 :=
  (W14_v6 m ρ c).trans (((W10_of_ne m ρ c main_v6 (by decide)).trans (W9_in m ρ c 0 rfl)).trans (W8_v6 m ρ c))

theorem W14_v7_args : (W14 (F := Ideal) m ρ c (Proc.devRef .tc main_v7) : IVec S1007616 32) = padw (dstw (m ((c : Thread nD τ).loc main_arg1))) 4294967295#32 :=
  (W14_v7 m ρ c).trans (((W10_in m ρ c 1 rfl).trans (W9_of_ne m ρ c main_v7 (by decide))).trans (W8_v7 m ρ c))

theorem W14_v8_args : (W14 (F := Ideal) m ρ c (Proc.devRef .tc main_v8) : IVec S1007616 32) = padw (typw (m ((c : Thread nD τ).loc main_arg2))) 4294967295#32 :=
  (W14_v8 m ρ c).trans (((W10_in m ρ c 2 rfl).trans (W9_of_ne m ρ c main_v8 (by decide))).trans (W8_v8 m ρ c))

/-- The second scattered sums over the arguments. -/
theorem W16_v52_args :
    (W16 (F := Ideal) m ρ c (Proc.devRef .tc main_v52) : FVec Ideal S100352x128 .f32) = (Cert.Spec.spread (E := 1007616) (K := 100352) (C2 := 128) 64 (by decide)
          (Cert.Spec.pick (E := 1007616) (K := 100352) (C := 64) (padw (srcw (m ((c : Thread nD τ).loc main_arg1))) 0#32) (xpad64 (F := Ideal) (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))))
          (padw (dstw (m ((c : Thread nD τ).loc main_arg1))) 4294967295#32) (padw (typw (m ((c : Thread nD τ).loc main_arg2))) 4294967295#32)) := by
  rw [W16_v52 m ρ c, W14_v6_args m ρ c, W14_v50_args m ρ c, W14_v7_args m ρ c, W14_v8_args m ρ c]

theorem W16_v49_args : (W16 (F := Ideal) m ρ c (Proc.devRef .tc main_v49) : FVec Ideal S100000x64 .f32) = (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W16_keep m ρ c main_v49 (by decide) (by decide)).trans (W14_v49_args m ρ c)

theorem W16_v14_args : (W16 (F := Ideal) m ρ c (Proc.devRef .tc main_v14) : FVec Ideal S100000 .f32) = cntK (F := Ideal) 0#32 (dstw (m ((c : Thread nD τ).loc main_arg1))) (typw (m ((c : Thread nD τ).loc main_arg2))) :=
  (W16_keep m ρ c main_v14 (by decide) (by decide)).trans ((W14_v14 m ρ c).trans (W10_v14_args m ρ c))

theorem W16_v20_args : (W16 (F := Ideal) m ρ c (Proc.devRef .tc main_v20) : FVec Ideal S100000 .f32) = cntK (F := Ideal) 1#32 (dstw (m ((c : Thread nD τ).loc main_arg1))) (typw (m ((c : Thread nD τ).loc main_arg2))) :=
  (W16_keep m ρ c main_v20 (by decide) (by decide)).trans ((W14_v20 m ρ c).trans (W10_v20_args m ρ c))

theorem W16_arg6_args : W16 (F := Ideal) m ρ c (Proc.devRef .tc main_arg6) = m ((c : Thread nD τ).loc main_arg6) :=
  (W16_keep m ρ c main_arg6 (by decide) (by decide)).trans
    ((W14_arg6 m ρ c).trans ((W10_keep m ρ c main_arg6 (by decide) (by decide)).trans (W8_arg6 m ρ c)))

theorem W16_arg7_args : W16 (F := Ideal) m ρ c (Proc.devRef .tc main_arg7) = m ((c : Thread nD τ).loc main_arg7) :=
  (W16_keep m ρ c main_arg7 (by decide) (by decide)).trans
    ((W14_arg7 m ρ c).trans ((W10_keep m ρ c main_arg7 (by decide) (by decide)).trans (W8_arg7 m ρ c)))

theorem W16_arg8_args : W16 (F := Ideal) m ρ c (Proc.devRef .tc main_arg8) = m ((c : Thread nD τ).loc main_arg8) :=
  (W16_keep m ρ c main_arg8 (by decide) (by decide)).trans
    ((W14_arg8 m ρ c).trans ((W10_keep m ρ c main_arg8 (by decide) (by decide)).trans (W8_arg8 m ρ c)))

theorem W16_arg9_args : W16 (F := Ideal) m ρ c (Proc.devRef .tc main_arg9) = m ((c : Thread nD τ).loc main_arg9) :=
  (W16_keep m ρ c main_arg9 (by decide) (by decide)).trans
    ((W14_arg9 m ρ c).trans ((W10_keep m ρ c main_arg9 (by decide) (by decide)).trans (W8_arg9 m ρ c)))

theorem W16_arg10_args : W16 (F := Ideal) m ρ c (Proc.devRef .tc main_arg10) = m ((c : Thread nD τ).loc main_arg10) :=
  (W16_keep m ρ c main_arg10 (by decide) (by decide)).trans
    ((W14_arg10 m ρ c).trans ((W10_keep m ρ c main_arg10 (by decide) (by decide)).trans (W8_arg10 m ρ c)))

/-! ## The result -/

/-- The result buffer at the end of the program is `result` of the eleven argument arrays as launched. -/
theorem value_v82 (m : (ℓ : Loc nD τ sig) → Buf (Elt Ideal) ℓ) (ρ : Dev nD → PrngReg) (c : Dev nD) :
    Gen.W19 (F := Ideal) m ρ c (Proc.devRef .tc main_v82)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [W19_v82 m ρ c, W16_v49_args m ρ c, W16_v52_args m ρ c, W16_v14_args m ρ c, W16_v20_args m ρ c,
    W16_arg6_args m ρ c, W16_arg7_args m ρ c, W16_arg8_args m ρ c, W16_arg9_args m ρ c, W16_arg10_args m ρ c]
  rfl

end Run

end Cert.KernelIdeal.KVal

end
-- ==== Proof.RRead.lean ====
/-
  The reference program's gather, mask and scatter stages as functions of the arrays they read, and the value of the
  scatter-add of the masked gather at one index, as a sum over the edges.

  The definitions are the printed operations of the program, one for one: the source, destination and type words cut out
  of the two integer inputs; the wrap of a negative source word by the row count; the row gather; the 0/1 mask of the
  edges of one type as a float; the scatter-add of the masked gathered rows into a zero array by destination word; and
  the scatter-add of the mask itself (the per-destination edge count).

  The reading at an index: when every source word is the word of a row `k e` of the table, the wrap does nothing (the
  word is not negative), the gather's clamp does nothing (the row is in range), and the gathered row is row `k e`; the
  mask at `e` is the indicator of `t e = r`; a scatter-add into zeros at `(n, f)` adds the updates `(e, f)` whose
  destination word, read as a signed integer, is `n` — an update whose destination is outside the array is dropped — and
  for `n` a row of the array this is the indicator that the destination word is `n`'s word. On the extended reals
  `0 · x = 0` and `1 · x = x` for every `x`, so the filtered sum is the sum of indicator-weighted terms over all edges.
-/
import proofs.«420490_j128849019287_1_alg».proof.ReferenceIdeal
import proofs.«420490_j128849019287_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RRead

open Cert.ReferenceIdeal Idealize.ShloMosaic Idealize.SL.Sem Idealize.ShloMosaic.ValueIdx
open Facts₀ Facts

variable [Facts] {F : FTy → Type} [FloatOps F]

/-! ## The stages, in the program's own operations -/

/-- The source words: row 0 of the edge array, as a vector. -/
def srcw (a1 : IVec S2x1000000 32) : IVec S1000000 32 :=
  shapeCast S1000000 (extractStridedSlice S1x1000000 ![0, 0] a1 slices_S2x1000000_S1x1000000_0_0) shapeCasts_S1x1000000_S1000000

/-- The destination words: row 1 of the edge array, as a vector. -/
def dstw (a1 : IVec S2x1000000 32) : IVec S1000000 32 :=
  shapeCast S1000000 (extractStridedSlice S1x1000000 ![1, 0] a1 slices_S2x1000000_S1x1000000_1_0) shapeCasts_S1x1000000_S1000000

/-- The type words: column 1 of the attribute array, as a vector. -/
def typw (a2 : IVec S1000000x2 32) : IVec S1000000 32 :=
  shapeCast S1000000 (extractStridedSlice S1000000x1 ![0, 1] a2 slices_S1000000x2_S1000000x1_0_1) shapeCasts_S1000000x1_S1000000

/-- A negative source word wrapped once by the row count, any other kept. -/
def nsrc (s : IVec S1000000 32) : IVec S1000000 32 :=
  select (cmpi .slt s (broadcastInDim S1000000 ![] bcast_S_S1000000 (constantI S_ 32 0#32)))
    (addi s (broadcastInDim S1000000 ![] bcast_S_S1000000 (constantI S_ 32 100000#32))) s

/-- The rows of a 32-column table at the (wrapped) source words. -/
def gath32 (y : FVec F S100000x32 .f32) (s : IVec S1000000 32) : FVec F S1000000x32 .f32 :=
  Host.gather gather_S100000x32_S1000000x1_S1000000x32_1_0_n_n_0_1_132 y
    (broadcastInDim S1000000x1 ![0] bcast_S1000000_S1000000x1_0 (nsrc s))

/-- The rows of a 64-column table at the (wrapped) source words. -/
def gath64 (h : FVec F S100000x64 .f32) (s : IVec S1000000 32) : FVec F S1000000x64 .f32 :=
  Host.gather gather_S100000x64_S1000000x1_S1000000x64_1_0_n_n_0_1_164 h
    (broadcastInDim S1000000x1 ![0] bcast_S1000000_S1000000x1_0 (nsrc s))

/-- The edges of type `r`, as a float vector of ones and zeros. -/
def maskf (r : BitVec 32) (t : IVec S1000000 32) : FVec F S1000000 .f32 :=
  uitofp .f32 (cmpi .eq t (broadcastInDim S1000000 ![] bcast_S_S1000000 (constantI S_ 32 r)))

/-- The gathered 32-column rows of the edges of type `r`, added up by destination word into a zero array. -/
def RS32 (r : BitVec 32) (y : FVec F S100000x32 .f32) (s d t : IVec S1000000 32) : FVec F S100000x32 .f32 :=
  Host.scatterAdd scatter_S100000x32_S1000000x1_S1000000x32_1_0_0_1
    (broadcastInDim S100000x32 ![] bcast_S_S100000x32 (constant S_ .f32 0x00000000#32))
    (broadcastInDim S1000000x1 ![0] bcast_S1000000_S1000000x1_0 d)
    (mulf (gath32 y s)
      (broadcastInDim S1000000x32 ![0, 1] bcast_S1000000x1_S1000000x32_0_1
        (broadcastInDim S1000000x1 ![0] bcast_S1000000_S1000000x1_0 (maskf r t))))

/-- The gathered 64-column rows of the edges of type `r`, added up by destination word into a zero array. -/
def RS64 (r : BitVec 32) (h : FVec F S100000x64 .f32) (s d t : IVec S1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 d)
    (mulf (gath64 h s)
      (broadcastInDim S1000000x64 ![0, 1] bcast_S1000000x1_S1000000x64_0_1
        (broadcastInDim S1000000x1 ![0] bcast_S1000000_S1000000x1_0 (maskf r t))))

/-- The number of edges of type `r` per destination word: the mask added up by destination word into a zero vector. -/
def cntR (r : BitVec 32) (d t : IVec S1000000 32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 d)
    (maskf r t)

/-! ## A row scatter and a row gather, read at an index

The two shapes of dimension numbers the program uses, for any row count `K`, edge count `E` and column count `C`:
a scatter of `[E, C]` updates into a `[K, C]` array at `[E, 1]` indices (each update row goes, whole, to the row its
index names), and the gather that reads `[E, C]` rows out of a `[K, C]` table at `[E, 1]` indices. -/

section Generic

/-- The scatter's dimension numbers: the update's axis 1 is the window, the array's axis 0 is indexed. -/
abbrev rowScatter (K E C : Nat) (wf : ScatterDims.WF ⟨2, ![K, C]⟩ ⟨2, ![E, 1]⟩ ⟨2, ![E, C]⟩ [1] [0] [0] 1) :
    ScatterDims ⟨2, ![K, C]⟩ ⟨2, ![E, 1]⟩ ⟨2, ![E, C]⟩ where
  updateWindowDims := [1]
  insertedWindowDims := [0]
  scatterDimsToOperandDims := [0]
  indexVectorDim := 1
  wf := wf

section
variable {K E C w : Nat} (wf : ScatterDims.WF ⟨2, ![K, C]⟩ ⟨2, ![E, 1]⟩ ⟨2, ![E, C]⟩ [1] [0] [0] 1)
  (idx : IVec ⟨2, ![E, 1]⟩ w) (e : Fin E) (f' : Fin C)

/-- On the row axis the window of update `(e, f')` starts at the index word of `e`, read signed. -/
theorem rowScatter_start0 : (rowScatter K E C wf).start (ix2 e f') idx 0 = (idx (ix2 e 0)).toInt := by
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the column axis it starts at `0` … -/
theorem rowScatter_start1 : (rowScatter K E C wf).start (ix2 e f') idx 1 = 0 := rfl
/-- … the window has no extent along the rows … -/
theorem rowScatter_window0 : (rowScatter K E C wf).window (ix2 e f') 0 = 0 := rfl
/-- … and along the columns its coordinate is the update's column. -/
theorem rowScatter_window1 : (rowScatter K E C wf).window (ix2 e f') 1 = f'.val := rfl

/-- Update `(e, f')` lands on `(n, f)` exactly when the index word of `e` reads, signed, as `n` and the columns agree; an
    index outside `[0, K)` lands nowhere. -/
theorem rowScatter_resultIdx?_iff (n : Fin K) (f : Fin C) :
    (rowScatter K E C wf).resultIdx? (ix2 e f') idx = some (ix2 n f) ↔ (idx (ix2 e 0)).toInt = (n.val : Int) ∧ f' = f := by
  have s0 := rowScatter_start0 wf idx e f'
  have s1 := rowScatter_start1 wf idx e f'
  have w0 := rowScatter_window0 wf e f'
  have w1 := rowScatter_window1 wf e f'
  unfold ScatterDims.resultIdx?
  split
  · rename_i h
    rw [Option.some.injEq]
    constructor
    · intro heq
      have h0 := congrArg Fin.val (congrFun heq 0)
      have h1 := congrArg Fin.val (congrFun heq 1)
      have hn0 := (h 0).1
      simp only [s0, s1, w0, w1] at h0 h1 hn0
      refine ⟨?_, Fin.ext ?_⟩
      · show _ = ((ix2 n f 0).val : Int)
        rw [← h0]; omega
      · show f'.val = (ix2 n f 1).val
        rw [← h1]; omega
    · rintro ⟨hd, rfl⟩
      funext a
      refine Fin.ext ?_
      match a with
      | ⟨0, _⟩ =>
        show ((rowScatter K E C wf).start (ix2 e f') idx 0 + ((rowScatter K E C wf).window (ix2 e f') 0 : Int)).toNat = n.val
        rw [s0, w0, hd]; omega
      | ⟨1, _⟩ =>
        show ((rowScatter K E C wf).start (ix2 e f') idx 1 + ((rowScatter K E C wf).window (ix2 e f') 1 : Int)).toNat = f'.val
        rw [s1, w1]; omega
  · rename_i h
    constructor
    · intro heq; exact absurd heq (by simp)
    · rintro ⟨hd, rfl⟩
      exfalso; apply h
      intro a
      match a with
      | ⟨0, _⟩ =>
        show 0 ≤ (rowScatter K E C wf).start (ix2 e f') idx 0 + ((rowScatter K E C wf).window (ix2 e f') 0 : Int)
          ∧ (rowScatter K E C wf).start (ix2 e f') idx 0 + ((rowScatter K E C wf).window (ix2 e f') 0 : Int) < (K : Int)
        rw [s0, w0, hd]; have := n.isLt; omega
      | ⟨1, _⟩ =>
        show 0 ≤ (rowScatter K E C wf).start (ix2 e f') idx 1 + ((rowScatter K E C wf).window (ix2 e f') 1 : Int)
          ∧ (rowScatter K E C wf).start (ix2 e f') idx 1 + ((rowScatter K E C wf).window (ix2 e f') 1 : Int) < (C : Int)
        rw [s1, w1]; have := f'.isLt; omega

end

/-- The word of a natural below `2³¹`, read back as a signed integer, is the natural. -/
theorem toInt_ofNat_small (n : Nat) (h : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- A word reads, signed, as the row `n` (below `2³¹`) exactly when it is `n`'s word. -/
theorem toInt_eq_iff {K : Nat} (hK : K ≤ 2 ^ 31) (n : Fin K) (a : BitVec 32) :
    a.toInt = (n.val : Int) ↔ BitVec.ofNat 32 n.val = a := by
  have hn := toInt_ofNat_small n.val (by have := n.isLt; omega)
  constructor
  · intro h; exact (BitVec.eq_of_toInt_eq (hn.trans h.symm))
  · rintro rfl; exact hn

/-- THE ROW SCATTER-ADD READ AT `(n, f)`, on the extended reals: the array's element plus, over ALL update rows `e`, the
    update `(e, f)` weighted by the indicator that `e`'s index word is `n`'s word. (The filtered sum of the definition
    keeps the updates `(e, f')` that land on `(n, f)`: those with `f' = f` whose index reads as `n`.) -/
theorem rowScatterAdd_apply {K E C : Nat} (wf : ScatterDims.WF ⟨2, ![K, C]⟩ ⟨2, ![E, 1]⟩ ⟨2, ![E, C]⟩ [1] [0] [0] 1)
    (hK : K ≤ 2 ^ 31) (x : (⟨2, ![K, C]⟩ : Shape).Idx → EReal) (idx : IVec ⟨2, ![E, 1]⟩ 32)
    (upd : (⟨2, ![E, C]⟩ : Shape).Idx → EReal) (n : Fin K) (f : Fin C) :
    Ideal.hostScatterAdd (rowScatter K E C wf) x idx upd (ix2 n f)
      = x (ix2 n f) + ∑ e : Fin E, Cert.Spec.ind (BitVec.ofNat 32 n.val) (idx (ix2 e 0)) * upd (ix2 e f) := by
  unfold Ideal.hostScatterAdd
  congr 1
  rw [Finset.sum_filter, sum_idx2]
  refine Finset.sum_congr rfl fun e _ => ?_
  have hc : ∀ f' : Fin C, (if (rowScatter K E C wf).resultIdx? (ix2 e f') idx = some (ix2 n f) then upd (ix2 e f') else 0)
      = if f' = f then Cert.Spec.ind (BitVec.ofNat 32 n.val) (idx (ix2 e 0)) * upd (ix2 e f') else 0 := by
    intro f'
    by_cases hf : f' = f
    · rw [if_pos hf]
      by_cases hd : BitVec.ofNat 32 n.val = idx (ix2 e 0)
      · rw [if_pos ((rowScatter_resultIdx?_iff wf idx e f' n f).2 ⟨(toInt_eq_iff hK n _).2 hd, hf⟩), hd, Cert.Spec.ind_self, one_mul]
      · rw [if_neg (fun h => hd ((toInt_eq_iff hK n _).1 ((rowScatter_resultIdx?_iff wf idx e f' n f).1 h).1)),
          Cert.Spec.ind_of_ne hd, zero_mul]
    · rw [if_neg hf, if_neg (fun h => hf ((rowScatter_resultIdx?_iff wf idx e f' n f).1 h).2)]
  rw [Finset.sum_congr rfl fun f' _ => hc f', Finset.sum_ite_eq' Finset.univ f, if_pos (Finset.mem_univ f)]

/-- The gather's dimension numbers: the result's axis 1 is the slice's column, the table's axis 0 is indexed and collapsed. -/
abbrev rowGather (K E C : Nat) (wf : GatherDims.WF ⟨2, ![K, C]⟩ ⟨2, ![E, 1]⟩ ⟨2, ![E, C]⟩ [1] [0] [] [0] [] 1 ![1, C]) :
    GatherDims ⟨2, ![K, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the table at column `f` of the row the index word of `e` names, read signed and
    clamped into `[0, K − 1]`. -/
theorem rowGather_apply {α : Type} {K E C w : Nat} (hK : 0 < K)
    (wf : GatherDims.WF ⟨2, ![K, C]⟩ ⟨2, ![E, 1]⟩ ⟨2, ![E, C]⟩ [1] [0] [] [0] [] 1 ![1, C])
    (x : (⟨2, ![K, C]⟩ : Shape).Idx → α) (idx : IVec ⟨2, ![E, 1]⟩ w) (e : Fin E) (f : Fin C) :
    Host.gather (rowGather K E C wf) x idx (ix2 e f)
      = x (ix2 ⟨min (idx (ix2 e 0)).toInt.toNat (K - 1), by omega⟩ f) := by
  unfold Host.gather
  congr 1
  funext a
  refine Fin.ext ?_
  match a with
  | ⟨0, _⟩ =>
    show (rowGather K E C wf).start (ix2 e f) idx 0 + (rowGather K E C wf).batchCoord (ix2 e f) 0
      + (rowGather K E C wf).offCoord (ix2 e f) 0 = min (idx (ix2 e 0)).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather K E C wf).startIndexMap from List.mem_singleton.mpr rfl)]
    have hsi : (rowGather K E C wf).siIdx (ix2 e f) ⟨List.idxOf (0 : Fin 2) (rowGather K E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather K E C wf).start (ix2 e f) idx 1 + (rowGather K E C wf).batchCoord (ix2 e f) 1
      + (rowGather K E C wf).offCoord (ix2 e f) 1 = f.val
    have h0 : (rowGather K E C wf).start (ix2 e f) idx 1 = 0 := rfl
    have h1 : (rowGather K E C wf).batchCoord (ix2 e f) 1 = 0 := rfl
    have h2 : (rowGather K E C wf).offCoord (ix2 e f) 1 = f.val := rfl
    rw [h0, h1, h2]; omega

end Generic

/-! ## The program's stages read at an index -/

section Read

/-- A vector spread along a new unit column reads, at `(e, 0)`, its element `e`. -/
theorem bcol_apply {α : Type} (v : S1000000.Idx → α) (e : Fin 1000000) :
    broadcastInDim S1000000x1 ![0] bcast_S1000000_S1000000x1_0 v (ix2 e 0) = v (ix1 e) :=
  broadcastInDim_apply _ _ v (ix2 e 0) (ix1 e) (fun a => by match a with | ⟨0, _⟩ => rfl)

/-- A vector spread along 32 columns reads, at `(e, f)`, its element `e`. -/
theorem brow32_apply {α : Type} (v : S1000000.Idx → α) (e : Fin 1000000) (f : Fin 32) :
    broadcastInDim S1000000x32 ![0, 1] bcast_S1000000x1_S1000000x32_0_1
      (broadcastInDim S1000000x1 ![0] bcast_S1000000_S1000000x1_0 v) (ix2 e f) = v (ix1 e) :=
  (broadcastInDim_apply _ _ _ (ix2 e f) (ix2 e 0) (fun a => by match a with | ⟨0, _⟩ => rfl | ⟨1, _⟩ => rfl)).trans
    (bcol_apply v e)

/-- A vector spread along 64 columns reads, at `(e, f)`, its element `e`. -/
theorem brow64_apply {α : Type} (v : S1000000.Idx → α) (e : Fin 1000000) (f : Fin 64) :
    broadcastInDim S1000000x64 ![0, 1] bcast_S1000000x1_S1000000x64_0_1
      (broadcastInDim S1000000x1 ![0] bcast_S1000000_S1000000x1_0 v) (ix2 e f) = v (ix1 e) :=
  (broadcastInDim_apply _ _ _ (ix2 e f) (ix2 e 0) (fun a => by match a with | ⟨0, _⟩ => rfl | ⟨1, _⟩ => rfl)).trans
    (bcol_apply v e)

/-- The word of a row is not negative, so the wrap keeps it. -/
theorem nsrc_apply_of_row (s : IVec S1000000 32) (e : Fin 1000000) (k : Fin 100000)
    (h : s (ix1 e) = BitVec.ofNat 32 k.val) : nsrc s (ix1 e) = BitVec.ofNat 32 k.val := by
  show Scalar.select (IntOp.cmpi .slt (s (ix1 e)) 0#32) (IntOp.addi (s (ix1 e)) 100000#32) (s (ix1 e)) = _
  rw [h]
  have hk := toInt_ofNat_small k.val (by have := k.isLt; omega)
  have hc : IntOp.cmpi .slt (BitVec.ofNat 32 k.val) 0#32 = 0#1 := by
    show BitVec.ofBool ((BitVec.ofNat 32 k.val).slt 0#32) = 0#1
    have : (BitVec.ofNat 32 k.val).slt 0#32 = false := by
      rw [BitVec.slt, hk]
      exact decide_eq_false (by show ¬ ((k.val : Int) < 0); omega)
    rw [this]; rfl
  rw [hc, select_zero]

/-- Where every source word is the word of a row `k e` of the table, the gathered row `e` is row `k e`: the wrap and the
    clamp do nothing. -/
theorem gath32_apply (y : FVec F S100000x32 .f32) (s : IVec S1000000 32) (k : Fin 1000000 → Fin 100000)
    (hk : ∀ e, s (ix1 e) = BitVec.ofNat 32 (k e).val) (e : Fin 1000000) (f : Fin 32) :
    gath32 y s (ix2 e f) = y (ix2 (k e) f) := by
  unfold gath32
  refine (rowGather_apply (K := 100000) (E := 1000000) (C := 32) (by decide) _ y _ e f).trans ?_
  refine congrArg (fun i => y (ix2 i f)) (Fin.ext ?_)
  show min (broadcastInDim S1000000x1 ![0] bcast_S1000000_S1000000x1_0 (nsrc s) (ix2 e 0)).toInt.toNat (100000 - 1) = (k e).val
  rw [bcol_apply, nsrc_apply_of_row s e (k e) (hk e), toInt_ofNat_small _ (by have := (k e).isLt; omega)]
  have := (k e).isLt
  omega

/-- The 64-column twin. -/
theorem gath64_apply (h : FVec F S100000x64 .f32) (s : IVec S1000000 32) (k : Fin 1000000 → Fin 100000)
    (hk : ∀ e, s (ix1 e) = BitVec.ofNat 32 (k e).val) (e : Fin 1000000) (f : Fin 64) :
    gath64 h s (ix2 e f) = h (ix2 (k e) f) := by
  unfold gath64
  refine (rowGather_apply (K := 100000) (E := 1000000) (C := 64) (by decide) _ h _ e f).trans ?_
  refine congrArg (fun i => h (ix2 i f)) (Fin.ext ?_)
  show min (broadcastInDim S1000000x1 ![0] bcast_S1000000_S1000000x1_0 (nsrc s) (ix2 e 0)).toInt.toNat (100000 - 1) = (k e).val
  rw [bcol_apply, nsrc_apply_of_row s e (k e) (hk e), toInt_ofNat_small _ (by have := (k e).isLt; omega)]
  have := (k e).isLt
  omega

/-- On the extended reals the mask of type `r` at edge `e` is the indicator of `t e = r`. -/
theorem maskf_apply (r : BitVec 32) (t : IVec S1000000 32) (e : Fin 1000000) :
    maskf (F := Ideal) r t (ix1 e) = Cert.Spec.ind (t (ix1 e)) r := by
  show (((IntOp.cmpi .eq (t (ix1 e)) r).toNat : ℝ) : EReal) = _
  unfold Cert.Spec.ind
  by_cases h : t (ix1 e) = r
  · rw [if_pos h]
    have : IntOp.cmpi .eq (t (ix1 e)) r = 1#1 := by
      show BitVec.ofBool (t (ix1 e) == r) = 1#1
      rw [h, beq_self_eq_true]; rfl
    rw [this]; simp
  · rw [if_neg h]
    have : IntOp.cmpi .eq (t (ix1 e)) r = 0#1 := by
      show BitVec.ofBool (t (ix1 e) == r) = 0#1
      rw [beq_eq_false_iff_ne.2 h]; rfl
    rw [this]; simp

/-- The zero array the 32-column scatter adds into reads `0` everywhere. -/
theorem zero32_apply (j : S100000x32.Idx) :
    broadcastInDim S100000x32 ![] bcast_S_S100000x32 (constant (F := Ideal) S_ .f32 0x00000000#32) j = 0 := by
  unfold broadcastInDim constant
  exact Ideal.ofBits_zero_f32

/-- The zero array the 64-column scatter adds into reads `0` everywhere. -/
theorem zero64_apply (j : S100000x64.Idx) :
    broadcastInDim S100000x64 ![] bcast_S_S100000x64 (constant (F := Ideal) S_ .f32 0x00000000#32) j = 0 := by
  unfold broadcastInDim constant
  exact Ideal.ofBits_zero_f32

/-- On the extended reals the 32-column stage is the exact scatter-add, at the row scatter's dimension numbers. -/
theorem RS32_ideal (r : BitVec 32) (y : FVec Ideal S100000x32 .f32) (s d t : IVec S1000000 32) :
    RS32 (F := Ideal) r y s d t
      = Ideal.hostScatterAdd (rowScatter 100000 1000000 32 scatter_S100000x32_S1000000x1_S1000000x32_1_0_0_1_wf)
          (broadcastInDim S100000x32 ![] bcast_S_S100000x32 (constant (F := Ideal) S_ .f32 0x00000000#32))
          (broadcastInDim S1000000x1 ![0] bcast_S1000000_S1000000x1_0 d)
          (mulf (gath32 y s)
            (broadcastInDim S1000000x32 ![0, 1] bcast_S1000000x1_S1000000x32_0_1
              (broadcastInDim S1000000x1 ![0] bcast_S1000000_S1000000x1_0 (maskf r t)))) := rfl

/-- The 64-column twin. -/
theorem RS64_ideal (r : BitVec 32) (h : FVec Ideal S100000x64 .f32) (s d t : IVec S1000000 32) :
    RS64 (F := Ideal) r h s d t
      = Ideal.hostScatterAdd (rowScatter 100000 1000000 64 scatter_S100000x64_S1000000x1_S1000000x64_1_0_0_1_wf)
          (broadcastInDim S100000x64 ![] bcast_S_S100000x64 (constant (F := Ideal) S_ .f32 0x00000000#32))
          (broadcastInDim S1000000x1 ![0] bcast_S1000000_S1000000x1_0 d)
          (mulf (gath64 h s)
            (broadcastInDim S1000000x64 ![0, 1] bcast_S1000000x1_S1000000x64_0_1
              (broadcastInDim S1000000x1 ![0] bcast_S1000000_S1000000x1_0 (maskf r t)))) := rfl

/-- THE SCATTER OF THE MASKED 32-COLUMN GATHER READ AT `(n, f)`: the sum over all edges `e` of row `k e` of the table at
    column `f`, weighted by the indicators that `e`'s destination word is `n`'s and that its type word is `r`. -/
theorem RS32_apply (r : BitVec 32) (y : FVec Ideal S100000x32 .f32) (s d t : IVec S1000000 32)
    (k : Fin 1000000 → Fin 100000) (hk : ∀ e, s (ix1 e) = BitVec.ofNat 32 (k e).val) (n : Fin 100000) (f : Fin 32) :
    RS32 (F := Ideal) r y s d t (ix2 n f)
      = ∑ e : Fin 1000000, Cert.Spec.ind (BitVec.ofNat 32 n.val) (d (ix1 e)) * (y (ix2 (k e) f) * Cert.Spec.ind (t (ix1 e)) r) := by
  refine (congrFun (RS32_ideal r y s d t) (ix2 n f)).trans ?_
  refine (rowScatterAdd_apply _ (by norm_num) _ _ _ n f).trans ?_
  refine (congrArg (· + _) (zero32_apply (ix2 n f))).trans ?_
  refine (zero_add _).trans ?_
  refine Finset.sum_congr rfl fun e _ => ?_
  rw [bcol_apply, mulf_apply, gath32_apply y s k hk e f, brow32_apply, maskf_apply]

/-- The 64-column twin. -/
theorem RS64_apply (r : BitVec 32) (h : FVec Ideal S100000x64 .f32) (s d t : IVec S1000000 32)
    (k : Fin 1000000 → Fin 100000) (hk : ∀ e, s (ix1 e) = BitVec.ofNat 32 (k e).val) (n : Fin 100000) (f : Fin 64) :
    RS64 (F := Ideal) r h s d t (ix2 n f)
      = ∑ e : Fin 1000000, Cert.Spec.ind (BitVec.ofNat 32 n.val) (d (ix1 e)) * (h (ix2 (k e) f) * Cert.Spec.ind (t (ix1 e)) r) := by
  refine (congrFun (RS64_ideal r h s d t) (ix2 n f)).trans ?_
  refine (rowScatterAdd_apply _ (by norm_num) _ _ _ n f).trans ?_
  refine (congrArg (· + _) (zero64_apply (ix2 n f))).trans ?_
  refine (zero_add _).trans ?_
  refine Finset.sum_congr rfl fun e _ => ?_
  rw [bcol_apply, mulf_apply, gath64_apply h s k hk e f, brow64_apply, maskf_apply]

end Read

end Cert.ReferenceIdeal.RRead

end
-- ==== Proof.RVal.lean ====
/-
  The reference program's result as one function of its eleven argument arrays.

  The program is two graph-convolution layers followed by an affine map. A layer takes a node table `y`, and for each of
  the two edge types `r` the sum `Sᵣ` over the edges of type `r` of the source rows of `y`, added up per destination
  node, and the number `cᵣ` of such edges per destination node; it returns
  `relu (((y·root + b) + (S₀ / max c₀ 1)·W[0]) + (S₁ / max c₁ 1)·W[1])`. The second layer reads the first layer's
  output through the same edges, so its counts are the first layer's. The affine map is `h·Wc + bc`.

  Each definition below is the program's own operations, in the program's order, over the stage definitions of the
  gather / mask / scatter module; the generated run's term for the result buffer is the same composition with every name
  unfolded, so the two are equal by unfolding alone.
-/
import proofs.«420490_j128849019287_1_alg».proof.Proof.Gen.ReferenceIdeal.Run
import proofs.«420490_j128849019287_1_alg».proof.Proof.RRead

noncomputable section

namespace Cert.ReferenceIdeal.RVal

open Cert.ReferenceIdeal Cert.ReferenceIdeal.RRead Idealize.ShloMosaic Idealize.ShloMosaic.TcCoe Idealize.SL.Sem

section Stages

open Facts₀ Facts

variable [Facts] {F : FTy → Type} [FloatOps F]

/-- One 32-column layer: `relu (((y·root + b) + (S0 / max c0 1)·W[0]) + (S1 / max c1 1)·W[1])`, the bias `b` spread over
    the rows and each clamped count `max cᵣ 1` spread over the columns. `S0`, `S1` stand for the per-type neighbour sums
    and `c0`, `c1` for the per-type neighbour counts. -/
def core32 (y : FVec F S100000x32 .f32) (S0 S1 : FVec F S100000x32 .f32) (c0 c1 : FVec F S100000 .f32)
    (W : FVec F S2x32x64 .f32) (root : FVec F S32x64 .f32) (b : FVec F S64 .f32) : FVec F S100000x64 .f32 :=
  maximumf
    (addf
      (addf
        (addf (Host.dotGeneral dot_S100000x32_S32x64_S100000x64_1_0_0_1_n_n none y root)
          (broadcastInDim S100000x64 ![0, 1] bcast_S1x64_S100000x64_0_1 (broadcastInDim S1x64 ![1] bcast_S64_S1x64_1 b)))
        (Host.dotGeneral dot_S100000x32_S32x64_S100000x64_1_0_0_1_n_n none
          (Host.divf S0
            (broadcastInDim S100000x32 ![0, 1] bcast_S100000x1_S100000x32_0_1
              (broadcastInDim S100000x1 ![0] bcast_S100000_S100000x1_0
                (maximumf c0 (broadcastInDim S100000 ![] bcast_S_S100000 (constant S_ .f32 0x3F800000#32))))))
          (shapeCast S32x64 (extractStridedSlice S1x32x64 ![0, 0, 0] W slices_S2x32x64_S1x32x64_0_0_0)
            shapeCasts_S1x32x64_S32x64)))
      (Host.dotGeneral dot_S100000x32_S32x64_S100000x64_1_0_0_1_n_n none
        (Host.divf S1
          (broadcastInDim S100000x32 ![0, 1] bcast_S100000x1_S100000x32_0_1
            (broadcastInDim S100000x1 ![0] bcast_S100000_S100000x1_0
              (maximumf c1 (broadcastInDim S100000 ![] bcast_S_S100000 (constant S_ .f32 0x3F800000#32))))))
        (shapeCast S32x64 (extractStridedSlice S1x32x64 ![1, 0, 0] W slices_S2x32x64_S1x32x64_1_0_0)
          shapeCasts_S1x32x64_S32x64)))
    (broadcastInDim S100000x64 ![] bcast_S_S100000x64 (constant S_ .f32 0x00000000#32))

/-- One 64-column layer: the same expression over a 64-column table. -/
def core64 (h : FVec F S100000x64 .f32) (S0 S1 : FVec F S100000x64 .f32) (c0 c1 : FVec F S100000 .f32)
    (W : FVec F S2x64x64 .f32) (root : FVec F S64x64 .f32) (b : FVec F S64 .f32) : FVec F S100000x64 .f32 :=
  maximumf
    (addf
      (addf
        (addf (Host.dotGeneral dot_S100000x64_S64x64_S100000x64_1_0_0_1_n_n none h root)
          (broadcastInDim S100000x64 ![0, 1] bcast_S1x64_S100000x64_0_1 (broadcastInDim S1x64 ![1] bcast_S64_S1x64_1 b)))
        (Host.dotGeneral dot_S100000x64_S64x64_S100000x64_1_0_0_1_n_n none
          (Host.divf S0
            (broadcastInDim S100000x64 ![0, 1] bcast_S100000x1_S100000x64_0_1
              (broadcastInDim S100000x1 ![0] bcast_S100000_S100000x1_0
                (maximumf c0 (broadcastInDim S100000 ![] bcast_S_S100000 (constant S_ .f32 0x3F800000#32))))))
          (shapeCast S64x64 (extractStridedSlice S1x64x64 ![0, 0, 0] W slices_S2x64x64_S1x64x64_0_0_0)
            shapeCasts_S1x64x64_S64x64)))
      (Host.dotGeneral dot_S100000x64_S64x64_S100000x64_1_0_0_1_n_n none
        (Host.divf S1
          (broadcastInDim S100000x64 ![0, 1] bcast_S100000x1_S100000x64_0_1
            (broadcastInDim S100000x1 ![0] bcast_S100000_S100000x1_0
              (maximumf c1 (broadcastInDim S100000 ![] bcast_S_S100000 (constant S_ .f32 0x3F800000#32))))))
        (shapeCast S64x64 (extractStridedSlice S1x64x64 ![1, 0, 0] W slices_S2x64x64_S1x64x64_1_0_0)
          shapeCasts_S1x64x64_S64x64)))
    (broadcastInDim S100000x64 ![] bcast_S_S100000x64 (constant S_ .f32 0x00000000#32))

/-- The closing affine map: `h·Wc + bc`, the bias spread over the rows. -/
def tailR (h : FVec F S100000x64 .f32) (Wc : FVec F S64x2 .f32) (bc : FVec F S2 .f32) : FVec F S100000x2 .f32 :=
  addf (Host.dotGeneral dot_S100000x64_S64x2_S100000x2_1_0_0_1_n_n none h Wc)
    (broadcastInDim S100000x2 ![0, 1] bcast_S1x2_S100000x2_0_1 (broadcastInDim S1x2 ![1] bcast_S2_S1x2_1 bc))

/-- The first layer over the inputs: the neighbour sums and counts are those of the input table along the edges. -/
def layer1 (a0 : FVec F S100000x32 .f32) (a1 : IVec S2x1000000 32) (a2 : IVec S1000000x2 32)
    (a3 : FVec F S2x32x64 .f32) (a4 : FVec F S32x64 .f32) (a5 : FVec F S64 .f32) : FVec F S100000x64 .f32 :=
  core32 a0 (RS32 0#32 a0 (srcw a1) (dstw a1) (typw a2)) (RS32 1#32 a0 (srcw a1) (dstw a1) (typw a2))
    (cntR 0#32 (dstw a1) (typw a2)) (cntR 1#32 (dstw a1) (typw a2)) a3 a4 a5

/-- The second layer over a 64-column table `h`: the same edges, hence the same counts. -/
def layer2 (h : FVec F S100000x64 .f32) (a1 : IVec S2x1000000 32) (a2 : IVec S1000000x2 32)
    (a6 : FVec F S2x64x64 .f32) (a7 : FVec F S64x64 .f32) (a8 : FVec F S64 .f32) : FVec F S100000x64 .f32 :=
  core64 h (RS64 0#32 h (srcw a1) (dstw a1) (typw a2)) (RS64 1#32 h (srcw a1) (dstw a1) (typw a2))
    (cntR 0#32 (dstw a1) (typw a2)) (cntR 1#32 (dstw a1) (typw a2)) a6 a7 a8

/-- The whole program's result as one function of its eleven argument arrays: two layers, then the affine map. -/
def result (a0 : FVec F S100000x32 .f32) (a1 : IVec S2x1000000 32) (a2 : IVec S1000000x2 32)
    (a3 : FVec F S2x32x64 .f32) (a4 : FVec F S32x64 .f32) (a5 : FVec F S64 .f32)
    (a6 : FVec F S2x64x64 .f32) (a7 : FVec F S64x64 .f32) (a8 : FVec F S64 .f32)
    (a9 : FVec F S64x2 .f32) (a10 : FVec F S2 .f32) : FVec F S100000x2 .f32 :=
  tailR (layer2 (layer1 a0 a1 a2 a3 a4 a5) a1 a2 a6 a7 a8) a9 a10

end Stages

/-! ## The run's term is `result` of the arguments -/

/-- The term the generated run names for the result buffer is `result` of the eleven argument arrays: the same
    operations in the same order, the stages folded into their names. -/
theorem result_eq {F : FTy → Type} [FloatOps F] (m : (ℓ : Loc nD τ sig) → Buf (Elt F) ℓ) (c : Dev nD) :
    Cert.ReferenceIdeal.Value.res_main_v117 (F := F) m c
      = result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v117
  rfl

/-- Every weakly fair execution of the reference program, at the ideal instance, terminates with its result buffer
    at `result` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v117) = result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c).1.trans (result_eq m c), (h c).2⟩)
    (Cert.ReferenceIdeal.Value.run (F := Ideal) m ρ)

end Cert.ReferenceIdeal.RVal

end
-- ==== Proof.Bridge.lean ====
/-
  Why the kernel's two one-hot products are the reference's gather followed by its masked scatter-add.

  The kernel works on PADDED arrays: `Ep ≥ E` edge rows, `Np ≥ N` node rows. Its gathered rows are `pick sp yp` and its
  scattered sums `spread C (pick sp yp) dp tp` (Spec.lean). Suppose
    • on the real edges `e < E` the padded words are the real ones: the source word of `e` is the word of a row `k e < N`,
      `dp e = d e`, `tp e = t e`;
    • on the padding edges `e ≥ E` the destination word is the all-ones word, which is the word of no node `n < Np < 2³²`;
    • the padded features agree with the real ones on the real rows: `yp (n, f) = y (n, f)` for `n < N`.
  Then at a real node `n < N` and column `j` with `j mod C = f`, `j / C = r`,
      `spread C (pick sp yp) dp tp (n, j) = ∑ₑ [word n = d e] · (y (k e, f) · [t e = word r])`, the sum over the REAL edges:
  a padding edge contributes `0 · _ = 0`, and on a real edge the one-hot sum `pick` has its one term at row `k e`
  (`pick_of_eq`). Nothing here needs a finite value: `0 · x = 0` on all extended reals.
-/
import proofs.«420490_j128849019287_1_alg».proof.Proof.Spec

noncomputable section

namespace Cert.Spec

open Idealize.ShloMosaic Idealize.ShloMosaic.ValueIdx

/-- The all-ones word is not the word of a natural number below `2³² - 1`. -/
theorem ofNat_ne_allOnes {n : ℕ} (h : n < 2 ^ 32 - 1) : BitVec.ofNat 32 n ≠ 4294967295#32 := by
  intro hh
  have := congrArg BitVec.toNat hh
  simp only [BitVec.toNat_ofNat] at this
  rw [Nat.mod_eq_of_lt (by omega)] at this
  omega

theorem spread_pick_pad {E Ep N Np C C2 : ℕ} (hC : 0 < C) (hE : E ≤ Ep) (hN : N ≤ Np) (hNp : Np < 2 ^ 32)
    (sp dp tp : (⟨1, ![Ep]⟩ : Shape).Idx → BitVec 32) (yp : (⟨2, ![Np, C]⟩ : Shape).Idx → EReal)
    (d t : (⟨1, ![E]⟩ : Shape).Idx → BitVec 32) (y : (⟨2, ![N, C]⟩ : Shape).Idx → EReal) (k : Fin E → Fin N)
    (hsp : ∀ e : Fin E, sp (ix1 (Fin.castLE hE e)) = BitVec.ofNat 32 (k e).val)
    (hdp : ∀ e : Fin E, dp (ix1 (Fin.castLE hE e)) = d (ix1 e))
    (hdp' : ∀ e' : Fin Ep, E ≤ e'.val → dp (ix1 e') = 4294967295#32)
    (htp : ∀ e : Fin E, tp (ix1 (Fin.castLE hE e)) = t (ix1 e))
    (hyp : ∀ (n : Fin N) (f : Fin C), yp (ix2 (Fin.castLE hN n) f) = y (ix2 n f))
    (n : Fin N) (j : Fin C2) (f : Fin C) (r : ℕ) (hmod : j.val % C = f.val) (hdiv : j.val / C = r) :
    spread (E := Ep) (K := Np) (C2 := C2) C hC (pick sp yp) dp tp (ix2 (Fin.castLE hN n) j)
      = ∑ e : Fin E, ind (BitVec.ofNat 32 n.val) (d (ix1 e)) * (y (ix2 (k e) f) * ind (t (ix1 e)) (BitVec.ofNat 32 r)) := by
  have hf : (⟨j.val % C, Nat.mod_lt _ hC⟩ : Fin C) = f := Fin.ext hmod
  unfold spread
  show ∑ e' : Fin Ep, ind (BitVec.ofNat 32 n.val) (dp (ix1 e'))
      * (pick sp yp (ix2 e' ⟨j.val % C, Nat.mod_lt _ hC⟩) * ind (tp (ix1 e')) (BitVec.ofNat 32 (j.val / C))) = _
  rw [hf, hdiv]
  -- the real edges, as a subset of the padded ones
  have hinj : Function.Injective (Fin.castLE hE) := Fin.castLE_injective hE
  rw [← Finset.sum_subset (Finset.subset_univ (Finset.univ.map ⟨Fin.castLE hE, hinj⟩))]
  · rw [Finset.sum_map]
    refine Finset.sum_congr rfl fun e _ => ?_
    show ind _ (dp (ix1 (Fin.castLE hE e))) * (pick sp yp (ix2 (Fin.castLE hE e) f) * ind (tp (ix1 (Fin.castLE hE e))) _) = _
    rw [hdp e, htp e, pick_of_eq (le_of_lt hNp) sp yp (Fin.castLE hE e) f (Fin.castLE hN (k e)) (hsp e), hyp]
  · intro e' _ he'
    have hge : E ≤ e'.val := by
      by_contra hlt
      exact he' (Finset.mem_map.mpr ⟨⟨e'.val, Nat.lt_of_not_le hlt⟩, Finset.mem_univ _, Fin.ext rfl⟩)
    rw [hdp' e' hge, ind_of_ne (ofNat_ne_allOnes (by have := n.isLt; omega)), zero_mul]

end Cert.Spec

end
-- ==== Proof.Final.lean ====
/-
  The two programs compute one function of the arguments, when every source word names a row.

  Both programs are two layers of the same shape, then a linear read-out. A layer takes the current features `y`, forms
  for each relation `r` and node `n` the sum `S_r n = ∑ₑ [dst e = n] · [type e = r] · y (src e)` over the edges, and then
  applies ONE chain of host operations to `y`, `S_0`, `S_1`, the per-node edge counts and the layer's weights: that chain is
  the same text in the two programs, so only the sums `S_r` have to be compared.

  The reference forms `S_r` by a row gather, a mask and a scatter-add; read at an index it is that sum over the edges
  (`RS32_apply`, `RS64_apply`). The kernel pads the edges and the nodes, gathers by a one-hot product, scatters by another
  one-hot product holding both relations side by side, and cuts the result back to the real nodes and to relation
  `r`'s columns; read at an index that is the same sum (`Cert.Spec.spread_pick_pad`): a padding edge has the all-ones
  destination word, which is no node's word, and contributes `0 · _ = 0`; a real edge's source word names the row
  `k e`, where the padded feature table is the real one. The only fact used about the inputs is that every source word
  is the word of a row below 100000, which the precondition states.
-/
import proofs.«420490_j128849019287_1_alg».proof.Proof.KVal
import proofs.«420490_j128849019287_1_alg».proof.Proof.RVal
import proofs.«420490_j128849019287_1_alg».proof.Proof.Bridge

noncomputable section

namespace Cert.Final

open Idealize.ShloMosaic Idealize.ShloMosaic.ValueIdx
open Cert.KernelIdeal (S100000x32 S100000x64 S2x1000000 S1000000x2 S1000000 S2x32x64 S32x64 S64 S2x64x64 S64x64 S64x2 S2)

variable [Cert.KernelIdeal.Facts] [Cert.ReferenceIdeal.Facts]

section Sums

variable (a1 : IVec S2x1000000 32) (a2 : IVec S1000000x2 32) (k : Fin 1000000 → Fin 100000)
  (hk : ∀ e, Cert.KernelIdeal.KRead.srcw a1 (ix1 e) = BitVec.ofNat 32 (k e).val)

/-- The padded source, destination and type words of the kernel program. -/
abbrev sp : IVec Cert.KernelIdeal.S1007616 32 := Cert.KernelIdeal.KRead.padw (Cert.KernelIdeal.KRead.srcw a1) 0#32
abbrev dp : IVec Cert.KernelIdeal.S1007616 32 := Cert.KernelIdeal.KRead.padw (Cert.KernelIdeal.KRead.dstw a1) 4294967295#32
abbrev tp : IVec Cert.KernelIdeal.S1007616 32 := Cert.KernelIdeal.KRead.padw (Cert.KernelIdeal.KRead.typw a2) 4294967295#32

include hk in
/-- Relation `r`'s 32 columns of the first scatter region's rows, cut to the real nodes, at `(n, f)`: the sum over the
    real edges. -/
theorem spread32_apply (y : FVec Ideal S100000x32 .f32) (n : Fin 100000) (f : Fin 32) (j : Fin 64) (r : ℕ)
    (hmod : j.val % 32 = f.val) (hdiv : j.val / 32 = r) :
    Cert.Spec.spread (E := 1007616) (K := 100352) (C2 := 64) 32 (by decide)
        (Cert.Spec.pick (sp a1) (Cert.KernelIdeal.KRead.xpad32 (F := Ideal) y)) (dp a1) (tp a2) (ix2 ⟨n.val, by omega⟩ j)
      = ∑ e : Fin 1000000, Cert.Spec.ind (BitVec.ofNat 32 n.val) (Cert.KernelIdeal.KRead.dstw a1 (ix1 e))
          * (y (ix2 (k e) f) * Cert.Spec.ind (Cert.KernelIdeal.KRead.typw a2 (ix1 e)) (BitVec.ofNat 32 r)) :=
  Cert.Spec.spread_pick_pad (E := 1000000) (Ep := 1007616) (N := 100000) (Np := 100352) (C := 32) (C2 := 64)
    (by decide) (by decide) (by decide) (by decide) (sp a1) (dp a1) (tp a2) (Cert.KernelIdeal.KRead.xpad32 (F := Ideal) y)
    (Cert.KernelIdeal.KRead.dstw a1) (Cert.KernelIdeal.KRead.typw a2) y k
    (fun e => (Cert.KernelIdeal.KRead.padw_lt _ _ _ e.isLt).trans (hk e))
    (fun e => Cert.KernelIdeal.KRead.padw_lt _ _ _ e.isLt)
    (fun e' h => Cert.KernelIdeal.KRead.padw_ge _ _ e' h)
    (fun e => Cert.KernelIdeal.KRead.padw_lt _ _ _ e.isLt)
    (fun n f => Cert.KernelIdeal.KRead.xpad32_lt y _ f n.isLt)
    n j f r hmod hdiv

include hk in
/-- The same for the second scatter region (64 columns per relation). -/
theorem spread64_apply (y : FVec Ideal S100000x64 .f32) (n : Fin 100000) (f : Fin 64) (j : Fin 128) (r : ℕ)
    (hmod : j.val % 64 = f.val) (hdiv : j.val / 64 = r) :
    Cert.Spec.spread (E := 1007616) (K := 100352) (C2 := 128) 64 (by decide)
        (Cert.Spec.pick (sp a1) (Cert.KernelIdeal.KRead.xpad64 (F := Ideal) y)) (dp a1) (tp a2) (ix2 ⟨n.val, by omega⟩ j)
      = ∑ e : Fin 1000000, Cert.Spec.ind (BitVec.ofNat 32 n.val) (Cert.KernelIdeal.KRead.dstw a1 (ix1 e))
          * (y (ix2 (k e) f) * Cert.Spec.ind (Cert.KernelIdeal.KRead.typw a2 (ix1 e)) (BitVec.ofNat 32 r)) :=
  Cert.Spec.spread_pick_pad (E := 1000000) (Ep := 1007616) (N := 100000) (Np := 100352) (C := 64) (C2 := 128)
    (by decide) (by decide) (by decide) (by decide) (sp a1) (dp a1) (tp a2) (Cert.KernelIdeal.KRead.xpad64 (F := Ideal) y)
    (Cert.KernelIdeal.KRead.dstw a1) (Cert.KernelIdeal.KRead.typw a2) y k
    (fun e => (Cert.KernelIdeal.KRead.padw_lt _ _ _ e.isLt).trans (hk e))
    (fun e => Cert.KernelIdeal.KRead.padw_lt _ _ _ e.isLt)
    (fun e' h => Cert.KernelIdeal.KRead.padw_ge _ _ e' h)
    (fun e => Cert.KernelIdeal.KRead.padw_lt _ _ _ e.isLt)
    (fun n f => Cert.KernelIdeal.KRead.xpad64_lt y _ f n.isLt)
    n j f r hmod hdiv

/-! ### The kernel's cut-out column blocks are the reference's scatter sums -/

include hk in
/-- Relation 0, first layer. -/
theorem colsA32_eq (y : FVec Ideal S100000x32 .f32) :
    Cert.KernelIdeal.KRead.colsA32 (Cert.KernelIdeal.KRead.rows64
        (Cert.Spec.spread (E := 1007616) (K := 100352) (C2 := 64) 32 (by decide)
          (Cert.Spec.pick (sp a1) (Cert.KernelIdeal.KRead.xpad32 (F := Ideal) y)) (dp a1) (tp a2)))
      = Cert.ReferenceIdeal.RRead.RS32 (F := Ideal) 0#32 y (Cert.ReferenceIdeal.RRead.srcw a1)
          (Cert.ReferenceIdeal.RRead.dstw a1) (Cert.ReferenceIdeal.RRead.typw a2) := by
  funext i
  obtain ⟨n, f, rfl⟩ : ∃ (n : Fin 100000) (f : Fin 32), i = ix2 n f := ⟨i 0, i 1, eq_ix2 i⟩
  rw [Cert.KernelIdeal.KRead.colsA32_rows64]
  refine Eq.trans ?_ (Cert.ReferenceIdeal.RRead.RS32_apply 0#32 y (Cert.ReferenceIdeal.RRead.srcw a1) (Cert.ReferenceIdeal.RRead.dstw a1) (Cert.ReferenceIdeal.RRead.typw a2) k hk n f).symm
  exact spread32_apply a1 a2 k hk y n f ⟨f.val, by omega⟩ 0 (by show f.val % 32 = f.val; omega) (by show f.val / 32 = 0; omega)

include hk in
/-- Relation 1, first layer. -/
theorem colsB32_eq (y : FVec Ideal S100000x32 .f32) :
    Cert.KernelIdeal.KRead.colsB32 (Cert.KernelIdeal.KRead.rows64
        (Cert.Spec.spread (E := 1007616) (K := 100352) (C2 := 64) 32 (by decide)
          (Cert.Spec.pick (sp a1) (Cert.KernelIdeal.KRead.xpad32 (F := Ideal) y)) (dp a1) (tp a2)))
      = Cert.ReferenceIdeal.RRead.RS32 (F := Ideal) 1#32 y (Cert.ReferenceIdeal.RRead.srcw a1)
          (Cert.ReferenceIdeal.RRead.dstw a1) (Cert.ReferenceIdeal.RRead.typw a2) := by
  funext i
  obtain ⟨n, f, rfl⟩ : ∃ (n : Fin 100000) (f : Fin 32), i = ix2 n f := ⟨i 0, i 1, eq_ix2 i⟩
  rw [Cert.KernelIdeal.KRead.colsB32_rows64]
  refine Eq.trans ?_ (Cert.ReferenceIdeal.RRead.RS32_apply 1#32 y (Cert.ReferenceIdeal.RRead.srcw a1) (Cert.ReferenceIdeal.RRead.dstw a1) (Cert.ReferenceIdeal.RRead.typw a2) k hk n f).symm
  exact spread32_apply a1 a2 k hk y n f ⟨32 + f.val, by omega⟩ 1 (by show (32 + f.val) % 32 = f.val; omega) (by show (32 + f.val) / 32 = 1; omega)

include hk in
/-- Relation 0, second layer. -/
theorem colsA64_eq (y : FVec Ideal S100000x64 .f32) :
    Cert.KernelIdeal.KRead.colsA64 (Cert.KernelIdeal.KRead.rows128
        (Cert.Spec.spread (E := 1007616) (K := 100352) (C2 := 128) 64 (by decide)
          (Cert.Spec.pick (sp a1) (Cert.KernelIdeal.KRead.xpad64 (F := Ideal) y)) (dp a1) (tp a2)))
      = Cert.ReferenceIdeal.RRead.RS64 (F := Ideal) 0#32 y (Cert.ReferenceIdeal.RRead.srcw a1)
          (Cert.ReferenceIdeal.RRead.dstw a1) (Cert.ReferenceIdeal.RRead.typw a2) := by
  funext i
  obtain ⟨n, f, rfl⟩ : ∃ (n : Fin 100000) (f : Fin 64), i = ix2 n f := ⟨i 0, i 1, eq_ix2 i⟩
  rw [Cert.KernelIdeal.KRead.colsA64_rows128]
  refine Eq.trans ?_ (Cert.ReferenceIdeal.RRead.RS64_apply 0#32 y (Cert.ReferenceIdeal.RRead.srcw a1) (Cert.ReferenceIdeal.RRead.dstw a1) (Cert.ReferenceIdeal.RRead.typw a2) k hk n f).symm
  exact spread64_apply a1 a2 k hk y n f ⟨f.val, by omega⟩ 0 (by show f.val % 64 = f.val; omega) (by show f.val / 64 = 0; omega)

include hk in
/-- Relation 1, second layer. -/
theorem colsB64_eq (y : FVec Ideal S100000x64 .f32) :
    Cert.KernelIdeal.KRead.colsB64 (Cert.KernelIdeal.KRead.rows128
        (Cert.Spec.spread (E := 1007616) (K := 100352) (C2 := 128) 64 (by decide)
          (Cert.Spec.pick (sp a1) (Cert.KernelIdeal.KRead.xpad64 (F := Ideal) y)) (dp a1) (tp a2)))
      = Cert.ReferenceIdeal.RRead.RS64 (F := Ideal) 1#32 y (Cert.ReferenceIdeal.RRead.srcw a1)
          (Cert.ReferenceIdeal.RRead.dstw a1) (Cert.ReferenceIdeal.RRead.typw a2) := by
  funext i
  obtain ⟨n, f, rfl⟩ : ∃ (n : Fin 100000) (f : Fin 64), i = ix2 n f := ⟨i 0, i 1, eq_ix2 i⟩
  rw [Cert.KernelIdeal.KRead.colsB64_rows128]
  refine Eq.trans ?_ (Cert.ReferenceIdeal.RRead.RS64_apply 1#32 y (Cert.ReferenceIdeal.RRead.srcw a1) (Cert.ReferenceIdeal.RRead.dstw a1) (Cert.ReferenceIdeal.RRead.typw a2) k hk n f).symm
  exact spread64_apply a1 a2 k hk y n f ⟨64 + f.val, by omega⟩ 1 (by show (64 + f.val) % 64 = f.val; omega) (by show (64 + f.val) / 64 = 1; omega)

end Sums

/-! ### The two results -/

/-- Under the range fact, the kernel program's result term and the reference's are one function of the arguments: layer
    by layer the scatter sums agree (the four lemmas above) and the rest of a layer is the same chain of operations. -/
theorem result_eq (a0 : FVec Ideal S100000x32 .f32) (a1 : IVec S2x1000000 32) (a2 : IVec S1000000x2 32)
    (a3 : FVec Ideal S2x32x64 .f32) (a4 : FVec Ideal S32x64 .f32) (a5 : FVec Ideal S64 .f32)
    (a6 : FVec Ideal S2x64x64 .f32) (a7 : FVec Ideal S64x64 .f32) (a8 : FVec Ideal S64 .f32)
    (a9 : FVec Ideal S64x2 .f32) (a10 : FVec Ideal S2 .f32)
    (k : Fin 1000000 → Fin 100000) (hk : ∀ e, Cert.KernelIdeal.KRead.srcw a1 (ix1 e) = BitVec.ofNat 32 (k e).val) :
    Cert.KernelIdeal.KVal.result a0 a1 a2 a3 a4 a5 a6 a7 a8 a9 a10
      = Cert.ReferenceIdeal.RVal.result (F := Ideal) a0 a1 a2 a3 a4 a5 a6 a7 a8 a9 a10 := by
  have h1 : Cert.KernelIdeal.KVal.layer1 a0 a1 a2 a3 a4 a5 = Cert.ReferenceIdeal.RVal.layer1 (F := Ideal) a0 a1 a2 a3 a4 a5 := by
    unfold Cert.KernelIdeal.KVal.layer1 Cert.ReferenceIdeal.RVal.layer1
    rw [colsA32_eq a1 a2 k hk a0, colsB32_eq a1 a2 k hk a0]
    rfl
  have h2 : ∀ h : FVec Ideal S100000x64 .f32,
      Cert.KernelIdeal.KVal.layer2 h a1 a2 a6 a7 a8 = Cert.ReferenceIdeal.RVal.layer2 (F := Ideal) h a1 a2 a6 a7 a8 := fun h => by
    unfold Cert.KernelIdeal.KVal.layer2 Cert.ReferenceIdeal.RVal.layer2
    rw [colsA64_eq a1 a2 k hk h, colsB64_eq a1 a2 k hk h]
    rfl
  unfold Cert.KernelIdeal.KVal.result Cert.ReferenceIdeal.RVal.result
  rw [h1, h2]
  rfl

end Cert.Final

end
-- ==== Proof.PreDecode.lean ====
/-
  The index range of the edge table, read out of the precondition. The precondition's last conjunct says that every
  entry of row 0 of the [2, 1000000] table of 32-bit words is, read signed, at least 0 and below 100000. An entry read
  signed in that interval is non-negative, so it is the word of its own unsigned value, and that value is below 100000.
-/
import proofs.«420490_j128849019287_1_alg».proof.Defs
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

noncomputable section

namespace Cert.PreDecode

open Idealize.ShloMosaic Idealize.ShloMosaic.ValueIdx Idealize.SL.Sem
open Cert.Pre_finite_inputs

/-- A 32-bit word that is, read signed, at least 0 and below 100000 is the word of a natural number below 100000:
    a non-negative signed reading is the unsigned one. -/
theorem word_of_range (w : BitVec 32) (h0 : IntOp.cmpi .sge w 0#32 = 1#1) (h1 : IntOp.cmpi .slt w 100000#32 = 1#1) :
    ∃ k : Fin 100000, w = BitVec.ofNat 32 k.val := by
  rw [IntOp.cmpi_sge] at h0
  rw [IntOp.cmpi_slt] at h1
  have z : (0#32 : BitVec 32).toInt = 0 := by decide
  have c : (100000#32 : BitVec 32).toInt = 100000 := by decide
  rw [z] at h0
  rw [c] at h1
  have hw := w.isLt
  have hi := BitVec.toInt_eq_toNat_cond w
  have hlt : w.toNat < 100000 := by
    split at hi <;> omega
  exact ⟨⟨w.toNat, hlt⟩, BitVec.eq_of_toNat_eq (by rw [BitVec.toNat_ofNat]; exact (Nat.mod_eq_of_lt hw).symm)⟩

variable [Cert.Pre_finite_inputs.Facts]

/-- Row 0 of the table, flattened to a vector, reads at position `e` the table's entry (0, e). -/
theorem slice_word (a1 : IVec S2x1000000 32) (e : Fin 1000000) :
    shapeCast S1000000 (extractStridedSlice S1x1000000 ![0, 0] a1 Facts.slices_S2x1000000_S1x1000000_0_0)
        Facts.shapeCasts_S1x1000000_S1000000 (ix1 e)
      = a1 (ix2 (0 : Fin 2) e) :=
  (shapeCast_1a_a_apply _ _ e).trans (slice2_axis0_apply 0 a1 _ (0 : Fin 1) e (0 : Fin 2) rfl)

/-- The last conjunct of the predicate at one column: when the predicate is all ones, the entry (0, e) of the table
    passes both signed comparisons. The predicate is a chain of conjunctions; the last conjunct is an "all" over the
    million columns of the conjunction of the two comparisons. -/
theorem range_of_fn (a0 : FVec Ideal S100000x32 .f32) (a1 : IVec S2x1000000 32) (a2 : IVec S1000000x2 32)
    (a3 : FVec Ideal S2x32x64 .f32) (a4 : FVec Ideal S32x64 .f32) (a5 : FVec Ideal S64 .f32)
    (a6 : FVec Ideal S2x64x64 .f32) (a7 : FVec Ideal S64x64 .f32) (a8 : FVec Ideal S64 .f32)
    (a9 : FVec Ideal S64x2 .f32) (a10 : FVec Ideal S2 .f32)
    (h : fn (F := Ideal) a0 a1 a2 a3 a4 a5 a6 a7 a8 a9 a10 = fun _ => 1#1) (e : Fin 1000000) :
    IntOp.cmpi .sge (a1 (ix2 (0 : Fin 2) e)) 0#32 = 1#1 ∧ IntOp.cmpi .slt (a1 (ix2 (0 : Fin 2) e)) 100000#32 = 1#1 := by
  -- the scalar shape has one index, so the "all" below speaks of every column
  haveI : Subsingleton S_.Idx := ⟨fun a b => funext fun d => d.elim0⟩
  have h0 := congrFun h ix0
  dsimp only [fn, fn_part1, fn_part2, fn_part3] at h0
  obtain ⟨-, hR⟩ := IntOp.andi_eq_one.1 h0
  have hA := Host.reduce_andi_all _ _ _ _ _ hR (ix1 e)
  obtain ⟨hge, hlt⟩ := IntOp.andi_eq_one.1 hA
  rw [← slice_word a1 e]
  exact ⟨hge, hlt⟩

/-- The word at row 0, column `e` of the edge table is the word of a natural number below 100000. -/
theorem src_word (m : (ℓ : Loc Cert.KernelIdeal.nD Cert.KernelIdeal.τ Cert.KernelIdeal.sig) → Buf (Elt Ideal) ℓ)
    (h : Cert.Pre_KernelIdeal m) (c : Dev Cert.KernelIdeal.nD) (e : Fin 1000000) :
    ∃ k : Fin 100000,
      (m ((c.tc : Thread Cert.KernelIdeal.nD Cert.KernelIdeal.τ).loc Cert.KernelIdeal.main_arg1) : IVec ⟨2, ![2, 1000000]⟩ 32)
        (ix2 (0 : Fin 2) e) = BitVec.ofNat 32 k.val := by
  obtain ⟨hge, hlt⟩ := range_of_fn _ _ _ _ _ _ _ _ _ _ _ (h c) e
  exact word_of_range _ hge hlt

end Cert.PreDecode

end
-- ==== Proof.lean ====
/-
  A two-layer relational graph convolution, written as Pallas kernels, against its jnp reference, over the extended reals.

  Each layer gathers the source node's feature row for every edge, adds the gathered rows up per destination node and
  relation, divides by the per-node edge count, projects and adds a root term; a linear read-out follows. The kernel
  program does the gather and the scatter-add as dense one-hot matrix products over padded arrays (two pallas_calls per
  layer, each accumulating over one grid axis); the reference uses a row gather and a segment sum.

  The claim holds under the precondition that every float input is finite (never used below) and that every source index
  lies in `[0, 100000)`, the rows of the feature table — outside that range the reference's `x[src]` wraps or clamps the
  index while the one-hot product yields a zero row. Under it:
    • the three frames are the generated ones (the reference's is its generated run with the result dropped);
    • `preserves` is trivial: the idealization rewrote nothing;
    • `algebraic`: the kernel program's result buffer, read off the launch (Proof/KRun.lean) through the boundary contents
      of its nineteen segments (Proof/KVal.lean, over the four regions' values Proof/GatherA … ScatterB), and the reference's,
      read off its generated run (Proof/RVal.lean), are one function of the arguments (Proof/Final.lean): the one-hot
      products are the gather and the masked scatter-add (Proof/Bridge.lean over Proof/Spec.lean, with the layout stages
      read at an index in Proof/KRead.lean and the reference's scatter of its gather in Proof/RRead.lean), and the rest of
      a layer is the same chain of host operations in both programs. The index range is read out of the printed
      precondition in Proof/PreDecode.lean.
-/
import proofs.«420490_j128849019287_1_alg».proof.Defs
import proofs.«420490_j128849019287_1_alg».proof.Proof.Gen.Kernel
import proofs.«420490_j128849019287_1_alg».proof.Proof.Gen.Kernel.Skeleton
import proofs.«420490_j128849019287_1_alg».proof.Proof.Gen.Kernel.Launch
import proofs.«420490_j128849019287_1_alg».proof.Proof.Gen.Kernel.Points
import proofs.«420490_j128849019287_1_alg».proof.Proof.Gen.Kernel.Frame
import proofs.«420490_j128849019287_1_alg».proof.Proof.Gen.KernelIdeal
import proofs.«420490_j128849019287_1_alg».proof.Proof.Gen.KernelIdeal.Skeleton
import proofs.«420490_j128849019287_1_alg».proof.Proof.Gen.KernelIdeal.Launch
import proofs.«420490_j128849019287_1_alg».proof.Proof.Gen.KernelIdeal.Points
import proofs.«420490_j128849019287_1_alg».proof.Proof.Gen.KernelIdeal.Frame
import proofs.«420490_j128849019287_1_alg».proof.Proof.Gen.ReferenceIdeal
import proofs.«420490_j128849019287_1_alg».proof.Proof.Gen.Pre_finite_inputs
import proofs.«420490_j128849019287_1_alg».proof.Proof.KRun
import proofs.«420490_j128849019287_1_alg».proof.Proof.KVal
import proofs.«420490_j128849019287_1_alg».proof.Proof.RVal
import proofs.«420490_j128849019287_1_alg».proof.Proof.Final
import proofs.«420490_j128849019287_1_alg».proof.Proof.PreDecode
import Idealize.ShloMosaic.Adequacy
import Idealize.ShloMosaic.Init

noncomputable section

namespace Cert.Proof

open Idealize.ShloMosaic Idealize.ShloMosaic.ValueIdx Idealize.SL.Sem

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame: its run with the result's line dropped. -/
theorem frame_ri : Cert.frame_ReferenceIdeal := fun m ρ _ =>
  (θ_run (Cert.ReferenceIdeal.defs (F := Ideal)) _ _).mono (fun _ h c => (h c).2) (Cert.ReferenceIdeal.RVal.run m ρ)

theorem preserves : Cert.preserves_Kernel_KernelIdeal := trivial

/-- Both programs end with their result buffers at one function of the arguments. -/
theorem algebraic : Cert.algebraic_KernelIdeal_ReferenceIdeal := by
  intro m ρ m' ρ' hpre hagree
  -- every source word is the word of a row of the feature table
  have hsrc : ∀ (c : Dev Cert.KernelIdeal.nD) (e : Fin 1000000), ∃ k : Fin 100000,
      Cert.KernelIdeal.KRead.srcw (m ((c.tc : Thread Cert.KernelIdeal.nD Cert.KernelIdeal.τ).loc Cert.KernelIdeal.main_arg1)) (ix1 e)
        = BitVec.ofNat 32 k.val := fun c e => by
    obtain ⟨k, hk⟩ := Cert.PreDecode.src_word m hpre c e
    exact ⟨k, (Cert.KernelIdeal.KRead.srcw_apply _ e).trans hk⟩
  refine ⟨fun c => Cert.KernelIdeal.KVal.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run (Cert.KernelIdeal.defs (F := Ideal)) _ _).mono
      (fun _ h c => ⟨(h c).1.trans (Cert.KernelIdeal.KVal.value_v82 m ρ c), (h c).2⟩) (Cert.KernelIdeal.KRun.run (F := Ideal) m ρ)
  · refine (θ_run (Cert.ReferenceIdeal.defs (F := Ideal)) _ _).mono (fun _ h c => ⟨(h c).1.trans ?_, (h c).2⟩)
      (Cert.ReferenceIdeal.RVal.run m' ρ')
    obtain ⟨h0, h1, h2, h3, h4, h5, h6, h7, h8, h9, h10⟩ := hagree c
    rw [h0, h1, h2, h3, h4, h5, h6, h7, h8, h9, h10]
    exact (Cert.Final.result_eq _ _ _ _ _ _ _ _ _ _ _ (fun e => Classical.choose (hsrc c e))
      (fun e => Classical.choose_spec (hsrc c e))).symm

end Claims

theorem claim : Cert.Claim :=
  ⟨Cert.Kernel.Gen.facts, Cert.KernelIdeal.Gen.facts, Cert.ReferenceIdeal.Gen.facts, Cert.Pre_finite_inputs.Gen.facts, by
    haveI := Cert.Kernel.Gen.facts
    haveI := Cert.KernelIdeal.Gen.facts
    haveI := Cert.ReferenceIdeal.Gen.facts
    haveI := Cert.Pre_finite_inputs.Gen.facts
    exact ⟨frame_k, frame_ki, frame_ri, preserves, algebraic⟩⟩

end Cert.Proof

end
